-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2x1024x64 : Shape := ⟨4, ![64, 2, 1024, 64]⟩
abbrev S64 : Shape := ⟨1, ![64]⟩
abbrev S32768 : Shape := ⟨1, ![32768]⟩
abbrev S24x32768 : Shape := ⟨2, ![24, 32768]⟩
abbrev S24x1024 : Shape := ⟨2, ![24, 1024]⟩
abbrev S_ : Shape := ⟨0, ![]⟩

class Facts : Prop where
  bcast_S_S64x2x1024x64 : S_.BroadcastsInDim S64x2x1024x64 (![] : Fin 0 → Fin S64x2x1024x64.rank)
  reducesTo_S64x2x1024x64_S_d0_1_2_3 : S64x2x1024x64.ReducesTo [0, 1, 2, 3] S_
  h_S_ : 0 < S_.numel
  bcast_S_S24x32768 : S_.BroadcastsInDim S24x32768 (![] : Fin 0 → Fin S24x32768.rank)
  reducesTo_S24x32768_S_d0_1 : S24x32768.ReducesTo [0, 1] S_
  bcast_S_S24x1024 : S_.BroadcastsInDim S24x1024 (![] : Fin 0 → Fin S24x1024.rank)
  reducesTo_S24x1024_S_d0_1 : S24x1024.ReducesTo [0, 1] S_
  bcast_S_S64 : S_.BroadcastsInDim S64 (![] : Fin 0 → Fin S64.rank)
  reducesTo_S64_S_d0 : S64.ReducesTo [0] S_
  bcast_S_S32768 : S_.BroadcastsInDim S32768 (![] : Fin 0 → Fin S32768.rank)
  reducesTo_S32768_S_d0 : S32768.ReducesTo [0] S_

variable [Facts]

def fn_part2 {F : FTy → Type} [FloatOps F] (main_arg2 : IVec S32768 32) (main_arg3 : IVec S32768 32) (main_v31 : IVec S_ 1) (main_v32 : IVec S32768 32) : IVec S_ 1 :=
  let main_v33 : IVec S32768 1 := cmpi .sge main_arg2 main_v32
  let main_c_13 : IVec S_ 1 := constantI S_ 1 1#1
  let main_v34 : IVec S_ 1 := (fun x v => Host.reduce IntOp.andi x v reducesTo_S32768_S_d0 h_S_) main_v33 main_c_13
  let main_v35 : IVec S_ 1 := andi main_v31 main_v34
  let main_c_14 : IVec S_ 32 := constantI S_ 32 1024#32
  let main_v36 : IVec S32768 32 := broadcastInDim S32768 ![] bcast_S_S32768 main_c_14
  let main_v37 : IVec S32768 1 := cmpi .slt main_arg2 main_v36
  let main_c_15 : IVec S_ 1 := constantI S_ 1 1#1
  let main_v38 : IVec S_ 1 := (fun x v => Host.reduce IntOp.andi x v reducesTo_S32768_S_d0 h_S_) main_v37 main_c_15
  let main_v39 : IVec S_ 1 := andi main_v35 main_v38
  let main_c_16 : IVec S_ 32 := constantI S_ 32 0#32
  let main_v40 : IVec S32768 32 := broadcastInDim S32768 ![] bcast_S_S32768 main_c_16
  let main_v41 : IVec S32768 1 := cmpi .sge main_arg3 main_v40
  let main_c_17 : IVec S_ 1 := constantI S_ 1 1#1
  let main_v42 : IVec S_ 1 := (fun x v => Host.reduce IntOp.andi x v reducesTo_S32768_S_d0 h_S_) main_v41 main_c_17
  let main_v43 : IVec S_ 1 := andi main_v39 main_v42
  let main_c_18 : IVec S_ 32 := constantI S_ 32 1024#32
  let main_v44 : IVec S32768 32 := broadcastInDim S32768 ![] bcast_S_S32768 main_c_18
  let main_v45 : IVec S32768 1 := cmpi .slt main_arg3 main_v44
  let main_c_19 : IVec S_ 1 := constantI S_ 1 1#1
  let main_v46 : IVec S_ 1 := (fun x v => Host.reduce IntOp.andi x v reducesTo_S32768_S_d0 h_S_) main_v45 main_c_19
  let main_v47 : IVec S_ 1 := andi main_v43 main_v46
  main_v47

def fn_part1 {F : FTy → Type} [FloatOps F] (main_arg1 : IVec S64 32) (main_arg2 : IVec S32768 32) (main_arg3 : IVec S32768 32) (main_arg7 : FVec F S24x1024 .f32) (main_v13 : IVec S_ 1) (main_v16 : IVec S24x1024 1) : IVec S_ 1 :=
  let main_c_5 : IVec S_ 1 := constantI S_ 1 1#1
  let main_v17 : IVec S_ 1 := (fun x v => Host.reduce IntOp.andi x v reducesTo_S24x1024_S_d0_1 h_S_) main_v16 main_c_5
  let main_v18 : IVec S_ 1 := andi main_v13 main_v17
  let main_v19 : FVec F S24x1024 .f32 := Host.absf main_arg7
  let main_cst_6 : FVec F S_ .f32 := constant S_ .f32 0x7F800000#32
  let main_v20 : FVec F S24x1024 .f32 := broadcastInDim S24x1024 ![] bcast_S_S24x1024 main_cst_6
  let main_v21 : IVec S24x1024 1 := cmpf .olt main_v19 main_v20
  let main_c_7 : IVec S_ 1 := constantI S_ 1 1#1
  let main_v22 : IVec S_ 1 := (fun x v => Host.reduce IntOp.andi x v reducesTo_S24x1024_S_d0_1 h_S_) main_v21 main_c_7
  let main_v23 : IVec S_ 1 := andi main_v18 main_v22
  let main_c_8 : IVec S_ 32 := constantI S_ 32 0#32
  let main_v24 : IVec S64 32 := broadcastInDim S64 ![] bcast_S_S64 main_c_8
  let main_v25 : IVec S64 1 := cmpi .sge main_arg1 main_v24
  let main_c_9 : IVec S_ 1 := constantI S_ 1 1#1
  let main_v26 : IVec S_ 1 := (fun x v => Host.reduce IntOp.andi x v reducesTo_S64_S_d0 h_S_) main_v25 main_c_9
  let main_v27 : IVec S_ 1 := andi main_v23 main_v26
  let main_c_10 : IVec S_ 32 := constantI S_ 32 288#32
  let main_v28 : IVec S64 32 := broadcastInDim S64 ![] bcast_S_S64 main_c_10
  let main_v29 : IVec S64 1 := cmpi .slt main_arg1 main_v28
  let main_c_11 : IVec S_ 1 := constantI S_ 1 1#1
  let main_v30 : IVec S_ 1 := (fun x v => Host.reduce IntOp.andi x v reducesTo_S64_S_d0 h_S_) main_v29 main_c_11
  let main_v31 : IVec S_ 1 := andi main_v27 main_v30
  let main_c_12 : IVec S_ 32 := constantI S_ 32 0#32
  let main_v32 : IVec S32768 32 := broadcastInDim S32768 ![] bcast_S_S32768 main_c_12
  fn_part2 (F := F) main_arg2 main_arg3 main_v31 main_v32

def fn {F : FTy → Type} [FloatOps F] (main_arg0 : FVec F S64x2x1024x64 .f32) (main_arg1 : IVec S64 32) (main_arg2 : IVec S32768 32) (main_arg3 : IVec S32768 32) (main_arg4 : FVec F S24x32768 .f32) (main_arg5 : FVec F S24x32768 .f32) (main_arg6 : FVec F S24x1024 .f32) (main_arg7 : FVec F S24x1024 .f32) : IVec S_ 1 :=
  let main_v0 : FVec F S64x2x1024x64 .f32 := Host.absf main_arg0
  let main_cst : FVec F S_ .f32 := constant S_ .f32 0x7F800000#32
  let main_v1 : FVec F S64x2x1024x64 .f32 := broadcastInDim S64x2x1024x64 ![] bcast_S_S64x2x1024x64 main_cst
  let main_v2 : IVec S64x2x1024x64 1 := cmpf .olt main_v0 main_v1
  let main_c : IVec S_ 1 := constantI S_ 1 1#1
  let main_v3 : IVec S_ 1 := (fun x v => Host.reduce IntOp.andi x v reducesTo_S64x2x1024x64_S_d0_1_2_3 h_S_) main_v2 main_c
  let main_v4 : FVec F S24x32768 .f32 := Host.absf main_arg4
  let main_cst_0 : FVec F S_ .f32 := constant S_ .f32 0x7F800000#32
  let main_v5 : FVec F S24x32768 .f32 := broadcastInDim S24x32768 ![] bcast_S_S24x32768 main_cst_0
  let main_v6 : IVec S24x32768 1 := cmpf .olt main_v4 main_v5
  let main_c_1 : IVec S_ 1 := constantI S_ 1 1#1
  let main_v7 : IVec S_ 1 := (fun x v => Host.reduce IntOp.andi x v reducesTo_S24x32768_S_d0_1 h_S_) main_v6 main_c_1
  let main_v8 : IVec S_ 1 := andi main_v3 main_v7
  let main_v9 : FVec F S24x32768 .f32 := Host.absf main_arg5
  let main_cst_2 : FVec F S_ .f32 := constant S_ .f32 0x7F800000#32
  let main_v10 : FVec F S24x32768 .f32 := broadcastInDim S24x32768 ![] bcast_S_S24x32768 main_cst_2
  let main_v11 : IVec S24x32768 1 := cmpf .olt main_v9 main_v10
  let main_c_3 : IVec S_ 1 := constantI S_ 1 1#1
  let main_v12 : IVec S_ 1 := (fun x v => Host.reduce IntOp.andi x v reducesTo_S24x32768_S_d0_1 h_S_) main_v11 main_c_3
  let main_v13 : IVec S_ 1 := andi main_v8 main_v12
  let main_v14 : FVec F S24x1024 .f32 := Host.absf main_arg6
  let main_cst_4 : FVec F S_ .f32 := constant S_ .f32 0x7F800000#32
  let main_v15 : FVec F S24x1024 .f32 := broadcastInDim S24x1024 ![] bcast_S_S24x1024 main_cst_4
  let main_v16 : IVec S24x1024 1 := cmpf .olt main_v14 main_v15
  fn_part1 (F := F) main_arg1 main_arg2 main_arg3 main_arg7 main_v13 main_v16
-- ==== Kernel.lean ====
abbrev S64x2x1024x64 : Shape := ⟨4, ![64, 2, 1024, 64]⟩
abbrev S64 : Shape := ⟨1, ![64]⟩
abbrev S32768 : Shape := ⟨1, ![32768]⟩
abbrev S24x32768 : Shape := ⟨2, ![24, 32768]⟩
abbrev S24x1024 : Shape := ⟨2, ![24, 1024]⟩
abbrev S_ : Shape := ⟨0, ![]⟩
abbrev S24x1024x1024 : Shape := ⟨3, ![24, 1024, 1024]⟩
abbrev S32768x1 : Shape := ⟨2, ![32768, 1]⟩
abbrev S32768x2 : Shape := ⟨2, ![32768, 2]⟩
abbrev S1024 : Shape := ⟨1, ![1024]⟩
abbrev S1024x1 : Shape := ⟨2, ![1024, 1]⟩
abbrev S1024x2 : Shape := ⟨2, ![1024, 2]⟩
abbrev S24x2048x1024 : Shape := ⟨3, ![24, 2048, 1024]⟩
abbrev S24x1024x1 : Shape := ⟨3, ![24, 1024, 1]⟩
abbrev S24x1024x2 : Shape := ⟨3, ![24, 1024, 2]⟩
abbrev S64x1 : Shape := ⟨2, ![64, 1]⟩
abbrev S64x1024x64 : Shape := ⟨3, ![64, 1024, 64]⟩
abbrev S1x1x1024x64 : Shape := ⟨4, ![1, 1, 1024, 64]⟩
abbrev S1 : Shape := ⟨1, ![1]⟩
abbrev S1x2048x1024 : Shape := ⟨3, ![1, 2048, 1024]⟩
abbrev S1x1024x2 : Shape := ⟨3, ![1, 1024, 2]⟩
abbrev S1x1024x64 : Shape := ⟨3, ![1, 1024, 64]⟩
abbrev S1024x64 : Shape := ⟨2, ![1024, 64]⟩
abbrev S2048x1024 : Shape := ⟨2, ![2048, 1024]⟩
abbrev S2048x64 : Shape := ⟨2, ![2048, 64]⟩

abbrev nBuf : Space → Nat
  | .hbm => 152
  | .vmem => 8
  | .smem => 2
  | _ => 0

abbrev hbmTy0_0 (i : Nat) : BufTy := match i % 128 with
  | 0 => ⟨S64x2x1024x64, .f32⟩
  | 1 => ⟨S64, .i32⟩
  | 2 => ⟨S32768, .i32⟩
  | 3 => ⟨S32768, .i32⟩
  | 4 => ⟨S24x32768, .f32⟩
  | 5 => ⟨S24x32768, .f32⟩
  | 6 => ⟨S24x1024, .f32⟩
  | 7 => ⟨S24x1024, .f32⟩
  | 8 => ⟨S_, .i32⟩
  | 9 => ⟨S_, .i32⟩
  | 10 => ⟨S64, .i32⟩
  | 11 => ⟨S64, .i32⟩
  | 12 => ⟨S64, .i32⟩
  | 13 => ⟨S_, .i32⟩
  | 14 => ⟨S64, .i32⟩
  | 15 => ⟨S64, .i1⟩
  | 16 => ⟨S64, .i32⟩
  | 17 => ⟨S64, .i32⟩
  | 18 => ⟨S_, .i32⟩
  | 19 => ⟨S64, .i32⟩
  | 20 => ⟨S64, .i1⟩
  | 21 => ⟨S64, .i1⟩
  | 22 => ⟨S_, .i32⟩
  | 23 => ⟨S64, .i32⟩
  | 24 => ⟨S64, .i32⟩
  | 25 => ⟨S64, .i32⟩
  | 26 => ⟨S_, .i32⟩
  | 27 => ⟨S_, .i32⟩
  | 28 => ⟨S_, .i32⟩
  | 29 => ⟨S64, .i32⟩
  | 30 => ⟨S64, .i32⟩
  | 31 => ⟨S_, .i32⟩
  | 32 => ⟨S64, .i32⟩
  | 33 => ⟨S64, .i32⟩
  | 34 => ⟨S_, .f32⟩
  | 35 => ⟨S24x1024x1024, .f32⟩
  | 36 => ⟨S_, .i32⟩
  | 37 => ⟨S32768, .i32⟩
  | 38 => ⟨S32768, .i1⟩
  | 39 => ⟨S_, .i32⟩
  | 40 => ⟨S32768, .i32⟩
  | 41 => ⟨S32768, .i32⟩
  | 42 => ⟨S32768, .i32⟩
  | 43 => ⟨S_, .i32⟩
  | 44 => ⟨S32768, .i32⟩
  | 45 => ⟨S32768, .i1⟩
  | 46 => ⟨S_, .i32⟩
  | 47 => ⟨S32768, .i32⟩
  | 48 => ⟨S32768, .i32⟩
  | 49 => ⟨S32768, .i32⟩
  | 50 => ⟨S32768x1, .i32⟩
  | 51 => ⟨S32768x1, .i32⟩
  | 52 => ⟨S32768x2, .i32⟩
  | 53 => ⟨S24x1024x1024, .f32⟩
  | 54 => ⟨S_, .f32⟩
  | 55 => ⟨S24x1024x1024, .f32⟩
  | 56 => ⟨S_, .i32⟩
  | 57 => ⟨S32768, .i32⟩
  | 58 => ⟨S32768, .i1⟩
  | 59 => ⟨S_, .i32⟩
  | 60 => ⟨S32768, .i32⟩
  | 61 => ⟨S32768, .i32⟩
  | 62 => ⟨S32768, .i32⟩
  | 63 => ⟨S_, .i32⟩
  | 64 => ⟨S32768, .i32⟩
  | 65 => ⟨S32768, .i1⟩
  | 66 => ⟨S_, .i32⟩
  | 67 => ⟨S32768, .i32⟩
  | 68 => ⟨S32768, .i32⟩
  | 69 => ⟨S32768, .i32⟩
  | 70 => ⟨S32768x1, .i32⟩
  | 71 => ⟨S32768x1, .i32⟩
  | 72 => ⟨S32768x2, .i32⟩
  | 73 => ⟨S24x1024x1024, .f32⟩
  | 74 => ⟨S_, .f32⟩
  | 75 => ⟨S24x1024, .f32⟩
  | 76 => ⟨S_, .i32⟩
  | 77 => ⟨S32768, .i32⟩
  | 78 => ⟨S32768, .i1⟩
  | 79 => ⟨S_, .i32⟩
  | 80 => ⟨S32768, .i32⟩
  | 81 => ⟨S32768, .i32⟩
  | 82 => ⟨S32768, .i32⟩
  | 83 => ⟨S32768x1, .i32⟩
  | 84 => ⟨S24x1024, .f32⟩
  | 85 => ⟨S_, .f32⟩
  | 86 => ⟨S24x1024, .f32⟩
  | 87 => ⟨S_, .i32⟩
  | 88 => ⟨S32768, .i32⟩
  | 89 => ⟨S32768, .i1⟩
  | 90 => ⟨S_, .i32⟩
  | 91 => ⟨S32768, .i32⟩
  | 92 => ⟨S32768, .i32⟩
  | 93 => ⟨S32768, .i32⟩
  | 94 => ⟨S32768x1, .i32⟩
  | 95 => ⟨S24x1024, .f32⟩
  | 96 => ⟨S1024, .i32⟩
  | 97 => ⟨S24x1024x1024, .f32⟩
  | 98 => ⟨S_, .i32⟩
  | 99 => ⟨S1024, .i32⟩
  | 100 => ⟨S1024, .i1⟩
  | 101 => ⟨S_, .i32⟩
  | 102 => ⟨S1024, .i32⟩
  | 103 => ⟨S1024, .i32⟩
  | 104 => ⟨S1024, .i32⟩
  | 105 => ⟨S_, .i32⟩
  | 106 => ⟨S1024, .i32⟩
  | 107 => ⟨S1024, .i1⟩
  | 108 => ⟨S_, .i32⟩
  | 109 => ⟨S1024, .i32⟩
  | 110 => ⟨S1024, .i32⟩
  | 111 => ⟨S1024, .i32⟩
  | 112 => ⟨S1024x1, .i32⟩
  | 113 => ⟨S1024x1, .i32⟩
  | 114 => ⟨S1024x2, .i32⟩
  | 115 => ⟨S24x1024x1024, .f32⟩
  | 116 => ⟨S24x1024x1024, .f32⟩
  | 117 => ⟨S_, .i32⟩
  | 118 => ⟨S1024, .i32⟩
  | 119 => ⟨S1024, .i1⟩
  | 120 => ⟨S_, .i32⟩
  | 121 => ⟨S1024, .i32⟩
  | 122 => ⟨S1024, .i32⟩
  | 123 => ⟨S1024, .i32⟩
  | 124 => ⟨S_, .i32⟩
  | 125 => ⟨S1024, .i32⟩
  | 126 => ⟨S1024, .i1⟩
  | 127 => ⟨S_, .i32⟩
  | _ => ⟨S64x2x1024x64, .f32⟩

abbrev hbmTy0_1 (i : Nat) : BufTy := match i % 128 with
  | 0 => ⟨S1024, .i32⟩
  | 1 => ⟨S1024, .i32⟩
  | 2 => ⟨S1024, .i32⟩
  | 3 => ⟨S1024x1, .i32⟩
  | 4 => ⟨S1024x1, .i32⟩
  | 5 => ⟨S1024x2, .i32⟩
  | 6 => ⟨S24x1024x1024, .f32⟩
  | 7 => ⟨S24x1024x1024, .bf16⟩
  | 8 => ⟨S24x1024x1024, .bf16⟩
  | 9 => ⟨S24x2048x1024, .bf16⟩
  | 10 => ⟨S24x1024x1, .f32⟩
  | 11 => ⟨S24x1024x1, .f32⟩
  | 12 => ⟨S24x1024x2, .f32⟩
  | 13 => ⟨S64, .i32⟩
  | 14 => ⟨S64, .i32⟩
  | 15 => ⟨S_, .i32⟩
  | 16 => ⟨S64, .i32⟩
  | 17 => ⟨S64, .i1⟩
  | 18 => ⟨S_, .i32⟩
  | 19 => ⟨S64, .i32⟩
  | 20 => ⟨S64, .i32⟩
  | 21 => ⟨S64, .i32⟩
  | 22 => ⟨S64x1, .i32⟩
  | 23 => ⟨S64x1024x64, .f32⟩
  | _ => ⟨S64x2x1024x64, .f32⟩

abbrev hbmTy (i : Nat) : BufTy := match i / 128 with
  | 0 => hbmTy0_0 i
  | 1 => hbmTy0_1 i
  | _ => ⟨S64x2x1024x64, .f32⟩

abbrev bufTy : (tb : Table) → Fin (tcTables nBuf tb) → BufTy
  | .hbm, ⟨i, _⟩ => hbmTy i
  | .local _ .vmem, ⟨0, _⟩ => ⟨S1x1x1024x64, .f32⟩
  | .local _ .vmem, ⟨1, _⟩ => ⟨S1x1x1024x64, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x2, .f32⟩
  | .local _ .vmem, ⟨5, _⟩ => ⟨S1x1024x2, .f32⟩
  | .local _ .vmem, ⟨6, _⟩ => ⟨S1x1024x64, .f32⟩
  | .local _ .vmem, ⟨7, _⟩ => ⟨S1x1024x64, .f32⟩
  | .local _ .smem, ⟨0, _⟩ => ⟨S64, .i32⟩
  | .local _ .smem, ⟨1, _⟩ => ⟨S64, .i32⟩
  | _, _ => ⟨S64x2x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v0 : Ref sig .tc := ⟨.hbm, 25, rfl⟩
abbrev main_c_0 : Ref sig .tc := ⟨.hbm, 26, rfl⟩
abbrev main_c_1 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v1 : Ref sig .tc := ⟨.hbm, 33, rfl⟩
abbrev main_cst : Ref sig .tc := ⟨.hbm, 34, rfl⟩
abbrev main_v2 : Ref sig .tc := ⟨.hbm, 35, rfl⟩
abbrev main_c_2 : Ref sig .tc := ⟨.hbm, 36, rfl⟩
abbrev main_v3 : Ref sig .tc := ⟨.hbm, 37, rfl⟩
abbrev main_v4 : Ref sig .tc := ⟨.hbm, 38, rfl⟩
abbrev main_c_3 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_c_4 : Ref sig .tc := ⟨.hbm, 43, rfl⟩
abbrev main_v8 : Ref sig .tc := ⟨.hbm, 44, rfl⟩
abbrev main_v9 : Ref sig .tc := ⟨.hbm, 45, rfl⟩
abbrev main_c_5 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_cst_6 : Ref sig .tc := ⟨.hbm, 54, rfl⟩
abbrev main_v17 : Ref sig .tc := ⟨.hbm, 55, rfl⟩
abbrev main_c_7 : Ref sig .tc := ⟨.hbm, 56, rfl⟩
abbrev main_v18 : Ref sig .tc := ⟨.hbm, 57, rfl⟩
abbrev main_v19 : Ref sig .tc := ⟨.hbm, 58, rfl⟩
abbrev main_c_8 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_9 : Ref sig .tc := ⟨.hbm, 63, rfl⟩
abbrev main_v23 : Ref sig .tc := ⟨.hbm, 64, rfl⟩
abbrev main_v24 : Ref sig .tc := ⟨.hbm, 65, rfl⟩
abbrev main_c_10 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_cst_11 : Ref sig .tc := ⟨.hbm, 74, rfl⟩
abbrev main_v32 : Ref sig .tc := ⟨.hbm, 75, rfl⟩
abbrev main_c_12 : Ref sig .tc := ⟨.hbm, 76, rfl⟩
abbrev main_v33 : Ref sig .tc := ⟨.hbm, 77, rfl⟩
abbrev main_v34 : Ref sig .tc := ⟨.hbm, 78, rfl⟩
abbrev main_c_13 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_cst_14 : Ref sig .tc := ⟨.hbm, 85, rfl⟩
abbrev main_v40 : Ref sig .tc := ⟨.hbm, 86, rfl⟩
abbrev main_c_15 : Ref sig .tc := ⟨.hbm, 87, rfl⟩
abbrev main_v41 : Ref sig .tc := ⟨.hbm, 88, rfl⟩
abbrev main_v42 : Ref sig .tc := ⟨.hbm, 89, rfl⟩
abbrev main_c_16 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_c_17 : Ref sig .tc := ⟨.hbm, 98, rfl⟩
abbrev main_v50 : Ref sig .tc := ⟨.hbm, 99, rfl⟩
abbrev main_v51 : Ref sig .tc := ⟨.hbm, 100, rfl⟩
abbrev main_c_18 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_c_19 : Ref sig .tc := ⟨.hbm, 105, rfl⟩
abbrev main_v55 : Ref sig .tc := ⟨.hbm, 106, rfl⟩
abbrev main_v56 : Ref sig .tc := ⟨.hbm, 107, rfl⟩
abbrev main_c_20 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_c_21 : Ref sig .tc := ⟨.hbm, 117, rfl⟩
abbrev main_v65 : Ref sig .tc := ⟨.hbm, 118, rfl⟩
abbrev main_v66 : Ref sig .tc := ⟨.hbm, 119, rfl⟩
abbrev main_c_22 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_c_23 : Ref sig .tc := ⟨.hbm, 124, rfl⟩
abbrev main_v70 : Ref sig .tc := ⟨.hbm, 125, rfl⟩
abbrev main_v71 : Ref sig .tc := ⟨.hbm, 126, rfl⟩
abbrev main_c_24 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_call2_v0 : Ref sig .tc := ⟨.hbm, 141, rfl⟩
abbrev main_call2_v1_0 : Ref sig .tc := ⟨.hbm, 142, rfl⟩
abbrev main_c_25 : Ref sig .tc := ⟨.hbm, 143, rfl⟩
abbrev main_v86 : Ref sig .tc := ⟨.hbm, 144, rfl⟩
abbrev main_v87 : Ref sig .tc := ⟨.hbm, 145, rfl⟩
abbrev main_c_26 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v93 : Ref sig .tc := ⟨.hbm, 151, rfl⟩
abbrev main_v92 : Ref sig .tc := ⟨.smem, 0, rfl⟩
abbrev main_v85 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_v92.idx, main_v85.idx], fun | 0 => main_v92.names | 1 => main_v85.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S64 : S_.BroadcastsInDim S64 (![] : Fin 0 → Fin S64.rank)
  bcast_S_S24x1024x1024 : S_.BroadcastsInDim S24x1024x1024 (![] : Fin 0 → Fin S24x1024x1024.rank)
  bcast_S_S32768 : S_.BroadcastsInDim S32768 (![] : Fin 0 → Fin S32768.rank)
  bcast_S32768_S32768x1_0 : S32768.BroadcastsInDim S32768x1 (![0] : Fin 1 → Fin S32768x1.rank)
  concatenates_S32768x1_S32768x1_S32768x2_d1 : Shape.Concatenates [S32768x1, S32768x1] S32768x2 1
  bcast_S_S24x1024 : S_.BroadcastsInDim S24x1024 (![] : Fin 0 → Fin S24x1024.rank)
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  bitsLt_bf16_f32 : FTy.bits .bf16 < FTy.bits .f32
  concatenates_S24x1024x1024_S24x1024x1024_S24x2048x1024_d1 : Shape.Concatenates [S24x1024x1024, S24x1024x1024] S24x2048x1024 1
  bcast_S24x1024_S24x1024x1_0_1 : S24x1024.BroadcastsInDim S24x1024x1 (![0, 1] : Fin 2 → Fin S24x1024x1.rank)
  concatenates_S24x1024x1_S24x1024x1_S24x1024x2_d2 : Shape.Concatenates [S24x1024x1, S24x1024x1] S24x1024x2 2
  bcast_S64_S64x1_0 : S64.BroadcastsInDim S64x1 (![0] : Fin 1 → Fin S64x1.rank)
  numel1_S1 : S1.numel = 1
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x2_S1x1024x2_0_0_0 : ∀ a, (![0, 0, 0] : Fin 3 → Nat) a + S1x1024x2.size a ≤ S1x1024x2.size a
  h_S1x1024x2 : 0 < S1x1024x2.numel
  shapeCasts_S1x1024x2_S1024x2 : S1x1024x2.ShapeCasts S1024x2
  slices_S1024x2_o0_0_S1024x1 : S1024x2.Slices ![0, 0] S1024x1
  slices_S1024x2_o0_1_S1024x1 : S1024x2.Slices ![0, 1] S1024x1
  slices_S2048x64_o0_0_S1024x64 : S2048x64.Slices ![0, 0] S1024x64
  broadcasts_S1024x1_S1024x64 : S1024x1.Broadcasts S1024x64
  slices_S2048x64_o1024_0_S1024x64 : S2048x64.Slices ![1024, 0] S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  scatter_S24x1024x1024_S32768x2_S24x32768_0_12_12_1_wf : ScatterDims.WF S24x1024x1024 S32768x2 S24x32768 [0] [1, 2] [1, 2] 1
  scatter_S24x1024_S32768x1_S24x32768_0_1_1_1_wf : ScatterDims.WF S24x1024 S32768x1 S24x32768 [0] [1] [1] 1
  scatter_S24x1024x1024_S1024x2_S24x1024_0_12_12_1_wf : ScatterDims.WF S24x1024x1024 S1024x2 S24x1024 [0] [1, 2] [1, 2] 1
  gather_S64_S64x1_S64_n_0_n_n_0_1_1_wf : GatherDims.WF S64 S64x1 S64 [] [0] [] [0] [] 1 ![1]
  dot_S2048x1024_S1024x64_S2048x64_1_0_0_1_n_n_wf : DotDims.WF S2048x1024 S1024x64 S2048x64 [1] [0] [0] [1] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'

variable [Facts₀]

def scatter_S24x1024x1024_S32768x2_S24x32768_0_12_12_1 : ScatterDims S24x1024x1024 S32768x2 S24x32768 where
  updateWindowDims := [0]
  insertedWindowDims := [1, 2]
  scatterDimsToOperandDims := [1, 2]
  indexVectorDim := 1
  wf := scatter_S24x1024x1024_S32768x2_S24x32768_0_12_12_1_wf
def scatter_S24x1024_S32768x1_S24x32768_0_1_1_1 : ScatterDims S24x1024 S32768x1 S24x32768 where
  updateWindowDims := [0]
  insertedWindowDims := [1]
  scatterDimsToOperandDims := [1]
  indexVectorDim := 1
  wf := scatter_S24x1024_S32768x1_S24x32768_0_1_1_1_wf
def scatter_S24x1024x1024_S1024x2_S24x1024_0_12_12_1 : ScatterDims S24x1024x1024 S1024x2 S24x1024 where
  updateWindowDims := [0]
  insertedWindowDims := [1, 2]
  scatterDimsToOperandDims := [1, 2]
  indexVectorDim := 1
  wf := scatter_S24x1024x1024_S1024x2_S24x1024_0_12_12_1_wf
def comparator_i32_i32_d0 : BitVec 32 × BitVec 32 → BitVec 32 × BitVec 32 → BitVec 1 :=
  fun l r =>
    let v2 := IntOp.cmpi .slt l.1 r.1
    v2
def gather_S64_S64x1_S64_n_0_n_n_0_1_1 : GatherDims S64 S64x1 S64 where
  offsetDims := []
  collapsedSliceDims := [0]
  operandBatchingDims := []
  startIndicesBatchingDims := []
  startIndexMap := [0]
  indexVectorDim := 1
  sliceSizes := ![1]
  wf := gather_S64_S64x1_S64_n_0_n_n_0_1_1_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev spec0_0 : Pipeline.WinSpec sig grid0.rank :=
  Pipeline.WinSpec.ofSpec (Memref.whole main_arg0) S1x1x1024x64.size reads0_0 false false 2 stage0_0 sem0_0 nbuf0_0 hstage0_0

abbrev spec0_1 : Pipeline.WinSpec sig grid0.rank :=
  Pipeline.WinSpec.ofSpec (Memref.whole main_v81) S1x2048x1024.size reads0_1 false false 2 stage0_1 sem0_1 nbuf0_1 hstage0_1

abbrev spec0_2 : Pipeline.WinSpec sig grid0.rank :=
  Pipeline.WinSpec.ofSpec (Memref.whole main_v84) S1x1024x2.size reads0_2 false false 2 stage0_2 sem0_2 nbuf0_2 hstage0_2

abbrev spec0_3 : Pipeline.WinSpec sig grid0.rank :=
  Pipeline.WinSpec.ofSpec (Memref.whole main_v93) S1x1024x64.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x1024x64.size a ≤ S64x2x1024x64.size a), EltTy.bits .f32 = 32 ∨ (Rect.block (s := S64x2x1024x64) S1x1x1024x64.size (cc0_transform_0 k0_off1_inb numel1_S1 pf i) h).WholeWords (EltTy.packing .f32)) ∧
  (∀ i : grid0.Coords, ∃ h : (∀ a, (cc0_transform_1 k0_off1_inb numel1_S1 pf i a + 1) * S1x2048x1024.size a ≤ S24x2048x1024.size a), EltTy.bits .bf16 = 32 ∨ (Rect.block (s := S24x2048x1024) S1x2048x1024.size (cc0_transform_1 k0_off1_inb numel1_S1 pf i) h).WholeWords (EltTy.packing .bf16)) ∧
  (∀ i : grid0.Coords, ∃ h : (∀ a, (cc0_transform_2 k0_off1_inb numel1_S1 pf i a + 1) * S1x1024x2.size a ≤ S24x1024x2.size a), EltTy.bits .f32 = 32 ∨ (Rect.block (s := S24x1024x2) S1x1024x2.size (cc0_transform_2 k0_off1_inb numel1_S1 pf i) h).WholeWords (EltTy.packing .f32)) ∧
  (∀ i : grid0.Coords, ∃ h : (∀ a, (cc0_transform_3 k0_off1_inb numel1_S1 pf i a + 1) * S1x1024x64.size a ≤ S64x1024x64.size a), EltTy.bits .f32 = 32 ∨ (Rect.block (s := S64x1024x64) S1x1024x64.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S64x2x1024x64 : Shape := ⟨4, ![64, 2, 1024, 64]⟩
abbrev S64 : Shape := ⟨1, ![64]⟩
abbrev S32768 : Shape := ⟨1, ![32768]⟩
abbrev S24x32768 : Shape := ⟨2, ![24, 32768]⟩
abbrev S24x1024 : Shape := ⟨2, ![24, 1024]⟩
abbrev S64x1x1024x64 : Shape := ⟨4, ![64, 1, 1024, 64]⟩
abbrev S64x1024x64 : Shape := ⟨3, ![64, 1024, 64]⟩
abbrev S_ : Shape := ⟨0, ![]⟩
abbrev S64x1 : Shape := ⟨2, ![64, 1]⟩
abbrev S64x32768 : Shape := ⟨2, ![64, 32768]⟩
abbrev S64x1024x1024 : Shape := ⟨3, ![64, 1024, 1024]⟩
abbrev S32768x1 : Shape := ⟨2, ![32768, 1]⟩
abbrev S32768x2 : Shape := ⟨2, ![32768, 2]⟩
abbrev S64x1024 : Shape := ⟨2, ![64, 1024]⟩
abbrev S1024x1024 : Shape := ⟨2, ![1024, 1024]⟩
abbrev S64x1024x1 : Shape := ⟨3, ![64, 1024, 1]⟩
abbrev S1x1024x1024 : Shape := ⟨3, ![1, 1024, 1024]⟩

abbrev nBuf : Space → Nat
  | .hbm => 145
  | .vmem => 0
  | .smem => 0
  | _ => 0

abbrev hbmTy0_0 (i : Nat) : BufTy := match i % 128 with
  | 0 => ⟨S64x2x1024x64, .f32⟩
  | 1 => ⟨S64, .i32⟩
  | 2 => ⟨S32768, .i32⟩
  | 3 => ⟨S32768, .i32⟩
  | 4 => ⟨S24x32768, .f32⟩
  | 5 => ⟨S24x32768, .f32⟩
  | 6 => ⟨S24x1024, .f32⟩
  | 7 => ⟨S24x1024, .f32⟩
  | 8 => ⟨S64x1x1024x64, .f32⟩
  | 9 => ⟨S64x1024x64, .f32⟩
  | 10 => ⟨S_, .i32⟩
  | 11 => ⟨S_, .i32⟩
  | 12 => ⟨S64, .i32⟩
  | 13 => ⟨S64, .i32⟩
  | 14 => ⟨S64, .i32⟩
  | 15 => ⟨S_, .i32⟩
  | 16 => ⟨S64, .i32⟩
  | 17 => ⟨S64, .i1⟩
  | 18 => ⟨S64, .i32⟩
  | 19 => ⟨S64, .i32⟩
  | 20 => ⟨S_, .i32⟩
  | 21 => ⟨S64, .i32⟩
  | 22 => ⟨S64, .i1⟩
  | 23 => ⟨S64, .i1⟩
  | 24 => ⟨S_, .i32⟩
  | 25 => ⟨S64, .i32⟩
  | 26 => ⟨S64, .i32⟩
  | 27 => ⟨S64, .i32⟩
  | 28 => ⟨S_, .i32⟩
  | 29 => ⟨S64, .i32⟩
  | 30 => ⟨S64, .i1⟩
  | 31 => ⟨S_, .i32⟩
  | 32 => ⟨S64, .i32⟩
  | 33 => ⟨S64, .i32⟩
  | 34 => ⟨S64, .i32⟩
  | 35 => ⟨S64x1, .i32⟩
  | 36 => ⟨S64x32768, .f32⟩
  | 37 => ⟨S_, .f32⟩
  | 38 => ⟨S64x1024x1024, .f32⟩
  | 39 => ⟨S_, .i32⟩
  | 40 => ⟨S32768, .i32⟩
  | 41 => ⟨S32768, .i1⟩
  | 42 => ⟨S_, .i32⟩
  | 43 => ⟨S32768, .i32⟩
  | 44 => ⟨S32768, .i32⟩
  | 45 => ⟨S32768, .i32⟩
  | 46 => ⟨S_, .i32⟩
  | 47 => ⟨S32768, .i32⟩
  | 48 => ⟨S32768, .i1⟩
  | 49 => ⟨S_, .i32⟩
  | 50 => ⟨S32768, .i32⟩
  | 51 => ⟨S32768, .i32⟩
  | 52 => ⟨S32768, .i32⟩
  | 53 => ⟨S32768x1, .i32⟩
  | 54 => ⟨S32768x1, .i32⟩
  | 55 => ⟨S32768x2, .i32⟩
  | 56 => ⟨S64x1024x1024, .f32⟩
  | 57 => ⟨S_, .f32⟩
  | 58 => ⟨S64x1024, .f32⟩
  | 59 => ⟨S1024x1024, .i32⟩
  | 60 => ⟨S1024x1024, .i32⟩
  | 61 => ⟨S_, .i32⟩
  | 62 => ⟨S1024x1024, .i32⟩
  | 63 => ⟨S1024x1024, .i32⟩
  | 64 => ⟨S1024x1024, .i1⟩
  | 65 => ⟨S1024x1024, .f32⟩
  | 66 => ⟨S64x1024x1, .f32⟩
  | 67 => ⟨S1x1024x1024, .f32⟩
  | 68 => ⟨S64x1024x1024, .f32⟩
  | 69 => ⟨S64x1024x1024, .f32⟩
  | 70 => ⟨S64x1024x1024, .f32⟩
  | 71 => ⟨S64x1024x1024, .f32⟩
  | 72 => ⟨S_, .i32⟩
  | 73 => ⟨S64, .i32⟩
  | 74 => ⟨S64, .i1⟩
  | 75 => ⟨S_, .i32⟩
  | 76 => ⟨S64, .i32⟩
  | 77 => ⟨S64, .i32⟩
  | 78 => ⟨S64, .i32⟩
  | 79 => ⟨S64x1, .i32⟩
  | 80 => ⟨S64x32768, .f32⟩
  | 81 => ⟨S_, .f32⟩
  | 82 => ⟨S64x1024x1024, .f32⟩
  | 83 => ⟨S_, .i32⟩
  | 84 => ⟨S32768, .i32⟩
  | 85 => ⟨S32768, .i1⟩
  | 86 => ⟨S_, .i32⟩
  | 87 => ⟨S32768, .i32⟩
  | 88 => ⟨S32768, .i32⟩
  | 89 => ⟨S32768, .i32⟩
  | 90 => ⟨S_, .i32⟩
  | 91 => ⟨S32768, .i32⟩
  | 92 => ⟨S32768, .i1⟩
  | 93 => ⟨S_, .i32⟩
  | 94 => ⟨S32768, .i32⟩
  | 95 => ⟨S32768, .i32⟩
  | 96 => ⟨S32768, .i32⟩
  | 97 => ⟨S32768x1, .i32⟩
  | 98 => ⟨S32768x1, .i32⟩
  | 99 => ⟨S32768x2, .i32⟩
  | 100 => ⟨S64x1024x1024, .f32⟩
  | 101 => ⟨S_, .f32⟩
  | 102 => ⟨S64x1024, .f32⟩
  | 103 => ⟨S1024x1024, .i32⟩
  | 104 => ⟨S1024x1024, .i32⟩
  | 105 => ⟨S_, .i32⟩
  | 106 => ⟨S1024x1024, .i32⟩
  | 107 => ⟨S1024x1024, .i32⟩
  | 108 => ⟨S1024x1024, .i1⟩
  | 109 => ⟨S1024x1024, .f32⟩
  | 110 => ⟨S64x1024x1, .f32⟩
  | 111 => ⟨S1x1024x1024, .f32⟩
  | 112 => ⟨S64x1024x1024, .f32⟩
  | 113 => ⟨S64x1024x1024, .f32⟩
  | 114 => ⟨S64x1024x1024, .f32⟩
  | 115 => ⟨S64x1024x1024, .f32⟩
  | 116 => ⟨S64x1024x64, .f32⟩
  | 117 => ⟨S_, .i32⟩
  | 118 => ⟨S64, .i32⟩
  | 119 => ⟨S64, .i1⟩
  | 120 => ⟨S_, .i32⟩
  | 121 => ⟨S64, .i32⟩
  | 122 => ⟨S64, .i32⟩
  | 123 => ⟨S64, .i32⟩
  | 124 => ⟨S64x1, .i32⟩
  | 125 => ⟨S64x1024, .f32⟩
  | 126 => ⟨S64x1024x1, .f32⟩
  | 127 => ⟨S64x1024x64, .f32⟩
  | _ => ⟨S64x2x1024x64, .f32⟩

abbrev hbmTy0_1 (i : Nat) : BufTy := match i % 128 with
  | 0 => ⟨S64x1024x64, .f32⟩
  | 1 => ⟨S64x1024x64, .f32⟩
  | 2 => ⟨S_, .i32⟩
  | 3 => ⟨S64, .i32⟩
  | 4 => ⟨S64, .i1⟩
  | 5 => ⟨S_, .i32⟩
  | 6 => ⟨S64, .i32⟩
  | 7 => ⟨S64, .i32⟩
  | 8 => ⟨S64, .i32⟩
  | 9 => ⟨S64x1, .i32⟩
  | 10 => ⟨S64x1024, .f32⟩
  | 11 => ⟨S64x1024x1, .f32⟩
  | 12 => ⟨S64x1024x64, .f32⟩
  | 13 => ⟨S64x1024x64, .f32⟩
  | 14 => ⟨S64x1024x64, .f32⟩
  | 15 => ⟨S64x1024x64, .f32⟩
  | 16 => ⟨S64x1024x64, .f32⟩
  | _ => ⟨S64x2x1024x64, .f32⟩

abbrev hbmTy (i : Nat) : BufTy := match i / 128 with
  | 0 => hbmTy0_0 i
  | 1 => hbmTy0_1 i
  | _ => ⟨S64x2x1024x64, .f32⟩

abbrev bufTy : (tb : Table) → Fin (tcTables nBuf tb) → BufTy
  | .hbm, ⟨i, _⟩ => hbmTy i
  | _, _ => ⟨S64x2x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_c_0 : Ref sig .tc := ⟨.hbm, 28, rfl⟩
abbrev main_v3 : Ref sig .tc := ⟨.hbm, 29, rfl⟩
abbrev main_v4 : Ref sig .tc := ⟨.hbm, 30, rfl⟩
abbrev main_c_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_cst : Ref sig .tc := ⟨.hbm, 37, rfl⟩
abbrev main_v10 : Ref sig .tc := ⟨.hbm, 38, rfl⟩
abbrev main_c_2 : Ref sig .tc := ⟨.hbm, 39, rfl⟩
abbrev main_v11 : Ref sig .tc := ⟨.hbm, 40, rfl⟩
abbrev main_v12 : Ref sig .tc := ⟨.hbm, 41, rfl⟩
abbrev main_c_3 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_c_4 : Ref sig .tc := ⟨.hbm, 46, rfl⟩
abbrev main_v16 : Ref sig .tc := ⟨.hbm, 47, rfl⟩
abbrev main_v17 : Ref sig .tc := ⟨.hbm, 48, rfl⟩
abbrev main_c_5 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_6 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_c_7 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_c_8 : Ref sig .tc := ⟨.hbm, 72, rfl⟩
abbrev main_v38 : Ref sig .tc := ⟨.hbm, 73, rfl⟩
abbrev main_v39 : Ref sig .tc := ⟨.hbm, 74, rfl⟩
abbrev main_c_9 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_10 : Ref sig .tc := ⟨.hbm, 81, rfl⟩
abbrev main_v45 : Ref sig .tc := ⟨.hbm, 82, rfl⟩
abbrev main_c_11 : Ref sig .tc := ⟨.hbm, 83, rfl⟩
abbrev main_v46 : Ref sig .tc := ⟨.hbm, 84, rfl⟩
abbrev main_v47 : Ref sig .tc := ⟨.hbm, 85, rfl⟩
abbrev main_c_12 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_c_13 : Ref sig .tc := ⟨.hbm, 90, rfl⟩
abbrev main_v51 : Ref sig .tc := ⟨.hbm, 91, rfl⟩
abbrev main_v52 : Ref sig .tc := ⟨.hbm, 92, rfl⟩
abbrev main_c_14 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_15 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_c_16 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_c_17 : Ref sig .tc := ⟨.hbm, 117, rfl⟩
abbrev main_v74 : Ref sig .tc := ⟨.hbm, 118, rfl⟩
abbrev main_v75 : Ref sig .tc := ⟨.hbm, 119, rfl⟩
abbrev main_c_18 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_c_19 : Ref sig .tc := ⟨.hbm, 130, rfl⟩
abbrev main_v85 : Ref sig .tc := ⟨.hbm, 131, rfl⟩
abbrev main_v86 : Ref sig .tc := ⟨.hbm, 132, rfl⟩
abbrev main_c_20 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩

abbrev nD : Nat := 1
abbrev τ : Topo := Topo.v7x

variable {F : FTy → Type} [FloatOps F]

class Facts₀ : Prop where
  slices_S64x2x1024x64_S64x1x1024x64_0_0_0_0 : S64x2x1024x64.Slices ![0, 0, 0, 0] S64x1x1024x64
  shapeCasts_S64x1x1024x64_S64x1024x64 : S64x1x1024x64.ShapeCasts S64x1024x64
  bcast_S_S64 : S_.BroadcastsInDim S64 (![] : Fin 0 → Fin S64.rank)
  bcast_S64_S64x1_0 : S64.BroadcastsInDim S64x1 (![0] : Fin 1 → Fin S64x1.rank)
  bcast_S_S64x1024x1024 : S_.BroadcastsInDim S64x1024x1024 (![] : Fin 0 → Fin S64x1024x1024.rank)
  bcast_S_S32768 : S_.BroadcastsInDim S32768 (![] : Fin 0 → Fin S32768.rank)
  bcast_S32768_S32768x1_0 : S32768.BroadcastsInDim S32768x1 (![0] : Fin 1 → Fin S32768x1.rank)
  concatenates_S32768x1_S32768x1_S32768x2_d1 : Shape.Concatenates [S32768x1, S32768x1] S32768x2 1
  reducesTo_S64x1024x1024_S64x1024_d1 : S64x1024x1024.ReducesTo [1] S64x1024
  h_S_ : 0 < S_.numel
  bcast_S_S1024x1024 : S_.BroadcastsInDim S1024x1024 (![] : Fin 0 → Fin S1024x1024.rank)
  bcast_S64x1024_S64x1024x1_0_1 : S64x1024.BroadcastsInDim S64x1024x1 (![0, 1] : Fin 2 → Fin S64x1024x1.rank)
  bcast_S1024x1024_S1x1024x1024_1_2 : S1024x1024.BroadcastsInDim S1x1024x1024 (![1, 2] : Fin 2 → Fin S1x1024x1024.rank)
  bcast_S64x1024x1_S64x1024x1024_0_1_2 : S64x1024x1.BroadcastsInDim S64x1024x1024 (![0, 1, 2] : Fin 3 → Fin S64x1024x1024.rank)
  bcast_S1x1024x1024_S64x1024x1024_0_1_2 : S1x1024x1024.BroadcastsInDim S64x1024x1024 (![0, 1, 2] : Fin 3 → Fin S64x1024x1024.rank)
  bcast_S64x1024x1_S64x1024x64_0_1_2 : S64x1024x1.BroadcastsInDim S64x1024x64 (![0, 1, 2] : Fin 3 → Fin S64x1024x64.rank)
  gather_S24x32768_S64x1_S64x32768_1_0_n_n_0_1_132768_wf : GatherDims.WF S24x32768 S64x1 S64x32768 [1] [0] [] [0] [] 1 ![1, 32768]
  scatter_S64x1024x1024_S32768x2_S64x32768_0_12_12_1_wf : ScatterDims.WF S64x1024x1024 S32768x2 S64x32768 [0] [1, 2] [1, 2] 1
  dot_S64x1024x1024_S64x1024x64_S64x1024x64_2_1_1_2_0_0_wf : DotDims.WF S64x1024x1024 S64x1024x64 S64x1024x64 [2] [1] [1] [2] [0] [0]
  gather_S24x1024_S64x1_S64x1024_1_0_n_n_0_1_11024_wf : GatherDims.WF S24x1024 S64x1 S64x1024 [1] [0] [] [0] [] 1 ![1, 1024]

variable [Facts₀]

def gather_S24x32768_S64x1_S64x32768_1_0_n_n_0_1_132768 : GatherDims S24x32768 S64x1 S64x32768 where
  offsetDims := [1]
  collapsedSliceDims := [0]
  operandBatchingDims := []
  startIndicesBatchingDims := []
  startIndexMap := [0]
  indexVectorDim := 1
  sliceSizes := ![1, 32768]
  wf := gather_S24x32768_S64x1_S64x32768_1_0_n_n_0_1_132768_wf
def scatter_S64x1024x1024_S32768x2_S64x32768_0_12_12_1 : ScatterDims S64x1024x1024 S32768x2 S64x32768 where
  updateWindowDims := [0]
  insertedWindowDims := [1, 2]
  scatterDimsToOperandDims := [1, 2]
  indexVectorDim := 1
  wf := scatter_S64x1024x1024_S32768x2_S64x32768_0_12_12_1_wf
def dot_S64x1024x1024_S64x1024x64_S64x1024x64_2_1_1_2_0_0 : DotDims S64x1024x1024 S64x1024x64 S64x1024x64 where
  lhsContracting := [2]
  rhsContracting := [1]
  lhsNonContracting := [1]
  rhsNonContracting := [2]
  lhsBatch := [0]
  rhsBatch := [0]
  wf := dot_S64x1024x1024_S64x1024x64_S64x1024x64_2_1_1_2_0_0_wf
def gather_S24x1024_S64x1_S64x1024_1_0_n_n_0_1_11024 : GatherDims S24x1024 S64x1 S64x1024 where
  offsetDims := [1]
  collapsedSliceDims := [0]
  operandBatchingDims := []
  startIndicesBatchingDims := []
  startIndexMap := [0]
  indexVectorDim := 1
  sliceSizes := ![1, 1024]
  wf := gather_S24x1024_S64x1_S64x1024_1_0_n_n_0_1_11024_wf

class Facts : Prop extends Facts₀ where

variable [Facts]
-- ==== Proof.KerTerm.lean ====
import proofs.«429784_j90872918049138_3_alg».proof.Proof.Gen.KernelIdeal

noncomputable section

namespace Cert.KernelIdeal.Hand

open Cert.KernelIdeal Cert.KernelIdeal.Gen Idealize.ShloMosaic

variable {F : FTy → Type} [FloatOps F]

/-- The sample's index word floor-divided by twelve, as the kernel's host operations compute it. -/
def kerQ (a1 : IVec S64 32) : IVec S64 32 :=
  let main_c := (constantI S_ 32 12#32)
  let main_call0_v0 := id main_c
  let main_call0_v1 := (broadcastInDim S64 ![] bcast_S_S64) main_call0_v0
  let main_call0_v2 := Host.divsi a1 main_call0_v1
  let main_call0_v3 := signi a1
  let main_call0_v4 := signi main_call0_v0
  let main_call0_v5 := (broadcastInDim S64 ![] bcast_S_S64) main_call0_v4
  let main_call0_v6 := (cmpi .ne) main_call0_v3 main_call0_v5
  let main_call0_v7 := (broadcastInDim S64 ![] bcast_S_S64) main_call0_v0
  let main_call0_v8 := Host.remsi a1 main_call0_v7
  let main_call0_c := (constantI S_ 32 0#32)
  let main_call0_v9 := (broadcastInDim S64 ![] bcast_S_S64) main_call0_c
  let main_call0_v10 := (cmpi .ne) main_call0_v8 main_call0_v9
  let main_call0_v11 := andi main_call0_v6 main_call0_v10
  let main_call0_c_0 := (constantI S_ 32 1#32)
  let main_call0_v12 := (broadcastInDim S64 ![] bcast_S_S64) main_call0_c_0
  let main_call0_v13 := subi main_call0_v2 main_call0_v12
  let main_v0 := select main_call0_v11 main_call0_v13 main_call0_v2
  main_v0

/-- That quotient clipped into the slot range. -/
def kerClip (a1 : IVec S64 32) : IVec S64 32 :=
  let main_c := (constantI S_ 32 12#32)
  let main_call0_v0 := id main_c
  let main_call0_v1 := (broadcastInDim S64 ![] bcast_S_S64) main_call0_v0
  let main_call0_v2 := Host.divsi a1 main_call0_v1
  let main_call0_v3 := signi a1
  let main_call0_v4 := signi main_call0_v0
  let main_call0_v5 := (broadcastInDim S64 ![] bcast_S_S64) main_call0_v4
  let main_call0_v6 := (cmpi .ne) main_call0_v3 main_call0_v5
  let main_call0_v7 := (broadcastInDim S64 ![] bcast_S_S64) main_call0_v0
  let main_call0_v8 := Host.remsi a1 main_call0_v7
  let main_call0_c := (constantI S_ 32 0#32)
  let main_call0_v9 := (broadcastInDim S64 ![] bcast_S_S64) main_call0_c
  let main_call0_v10 := (cmpi .ne) main_call0_v8 main_call0_v9
  let main_call0_v11 := andi main_call0_v6 main_call0_v10
  let main_call0_c_0 := (constantI S_ 32 1#32)
  let main_call0_v12 := (broadcastInDim S64 ![] bcast_S_S64) main_call0_c_0
  let main_call0_v13 := subi main_call0_v2 main_call0_v12
  let main_v0 := select main_call0_v11 main_call0_v13 main_call0_v2
  let main_c_0 := (constantI S_ 32 0#32)
  let main_c_1 := (constantI S_ 32 23#32)
  let main_call1_v0 := id main_c_0
  let main_call1_v1 := (broadcastInDim S64 ![] bcast_S_S64) main_call1_v0
  let main_call1_v2 := maxsi main_call1_v1 main_v0
  let main_call1_v3 := id main_c_1
  let main_call1_v4 := (broadcastInDim S64 ![] bcast_S_S64) main_call1_v3
  let main_v1 := minsi main_call1_v4 main_call1_v2
  main_v1

/-- The stable argsort of the clipped slots: the order in which the grid visits the samples. -/
def kerPerm (a1 : IVec S64 32) : IVec S64 32 :=
  let main_c := (constantI S_ 32 12#32)
  let main_call0_v0 := id main_c
  let main_call0_v1 := (broadcastInDim S64 ![] bcast_S_S64) main_call0_v0
  let main_call0_v2 := Host.divsi a1 main_call0_v1
  let main_call0_v3 := signi a1
  let main_call0_v4 := signi main_call0_v0
  let main_call0_v5 := (broadcastInDim S64 ![] bcast_S_S64) main_call0_v4
  let main_call0_v6 := (cmpi .ne) main_call0_v3 main_call0_v5
  let main_call0_v7 := (broadcastInDim S64 ![] bcast_S_S64) main_call0_v0
  let main_call0_v8 := Host.remsi a1 main_call0_v7
  let main_call0_c := (constantI S_ 32 0#32)
  let main_call0_v9 := (broadcastInDim S64 ![] bcast_S_S64) main_call0_c
  let main_call0_v10 := (cmpi .ne) main_call0_v8 main_call0_v9
  let main_call0_v11 := andi main_call0_v6 main_call0_v10
  let main_call0_c_0 := (constantI S_ 32 1#32)
  let main_call0_v12 := (broadcastInDim S64 ![] bcast_S_S64) main_call0_c_0
  let main_call0_v13 := subi main_call0_v2 main_call0_v12
  let main_v0 := select main_call0_v11 main_call0_v13 main_call0_v2
  let main_c_0 := (constantI S_ 32 0#32)
  let main_c_1 := (constantI S_ 32 23#32)
  let main_call1_v0 := id main_c_0
  let main_call1_v1 := (broadcastInDim S64 ![] bcast_S_S64) main_call1_v0
  let main_call1_v2 := maxsi main_call1_v1 main_v0
  let main_call1_v3 := id main_c_1
  let main_call1_v4 := (broadcastInDim S64 ![] bcast_S_S64) main_call1_v3
  let main_v1 := minsi main_call1_v4 main_call1_v2
  let main_call2_v0 := (iotaInDim S64 32 0)
  let main_v85 := (fun x y => (Host.sort2 S64 0 comparator_i32_i32_d0 x y).2) main_v1 main_call2_v0
  main_v85

/-- The clipped slots gathered in that order: the slot of the sample each grid point visits. -/
def kerIis (a1 : IVec S64 32) : IVec S64 32 :=
  let main_c := (constantI S_ 32 12#32)
  let main_call0_v0 := id main_c
  let main_call0_v1 := (broadcastInDim S64 ![] bcast_S_S64) main_call0_v0
  let main_call0_v2 := Host.divsi a1 main_call0_v1
  let main_call0_v3 := signi a1
  let main_call0_v4 := signi main_call0_v0
  let main_call0_v5 := (broadcastInDim S64 ![] bcast_S_S64) main_call0_v4
  let main_call0_v6 := (cmpi .ne) main_call0_v3 main_call0_v5
  let main_call0_v7 := (broadcastInDim S64 ![] bcast_S_S64) main_call0_v0
  let main_call0_v8 := Host.remsi a1 main_call0_v7
  let main_call0_c := (constantI S_ 32 0#32)
  let main_call0_v9 := (broadcastInDim S64 ![] bcast_S_S64) main_call0_c
  let main_call0_v10 := (cmpi .ne) main_call0_v8 main_call0_v9
  let main_call0_v11 := andi main_call0_v6 main_call0_v10
  let main_call0_c_0 := (constantI S_ 32 1#32)
  let main_call0_v12 := (broadcastInDim S64 ![] bcast_S_S64) main_call0_c_0
  let main_call0_v13 := subi main_call0_v2 main_call0_v12
  let main_v0 := select main_call0_v11 main_call0_v13 main_call0_v2
  let main_c_0 := (constantI S_ 32 0#32)
  let main_c_1 := (constantI S_ 32 23#32)
  let main_call1_v0 := id main_c_0
  let main_call1_v1 := (broadcastInDim S64 ![] bcast_S_S64) main_call1_v0
  let main_call1_v2 := maxsi main_call1_v1 main_v0
  let main_call1_v3 := id main_c_1
  let main_call1_v4 := (broadcastInDim S64 ![] bcast_S_S64) main_call1_v3
  let main_v1 := minsi main_call1_v4 main_call1_v2
  let main_call2_v0 := (iotaInDim S64 32 0)
  let main_v85 := (fun x y => (Host.sort2 S64 0 comparator_i32_i32_d0 x y).2) main_v1 main_call2_v0
  let main_c_25 := (constantI S_ 32 0#32)
  let main_v86 := (broadcastInDim S64 ![] bcast_S_S64) main_c_25
  let main_v87 := (cmpi .slt) main_v85 main_v86
  let main_c_26 := (constantI S_ 32 64#32)
  let main_v88 := (broadcastInDim S64 ![] bcast_S_S64) main_c_26
  let main_v89 := addi main_v85 main_v88
  let main_v90 := select main_v87 main_v89 main_v85
  let main_v91 := (broadcastInDim S64x1 ![0] bcast_S64_S64x1_0) main_v90
  let main_v92 := (fun x i => Host.gather gather_S64_S64x1_S64_n_0_n_n_0_1_1 x i) main_v1 main_v91
  main_v92

/-- The stacked Laplacian tables, slot by slot: rows below 1024 the reaction table, the rest the diffusion table. -/
def kerLstack (a2 : IVec S32768 32) (a3 : IVec S32768 32) (a4 : FVec F S24x32768 .f32) (a5 : FVec F S24x32768 .f32) : FVec F S24x2048x1024 .bf16 :=
  let main_cst := (constant (F := F) S_ .f32 0x00000000#32)
  let main_v2 := (broadcastInDim S24x1024x1024 ![] bcast_S_S24x1024x1024 : (⟨S_, .f32⟩ : BufTy).Contents (Elt F) → (⟨S24x1024x1024, .f32⟩ : BufTy).Contents (Elt F)) main_cst
  let main_c_2 := (constantI S_ 32 0#32)
  let main_v3 := (broadcastInDim S32768 ![] bcast_S_S32768 : (⟨S_, .i32⟩ : BufTy).Contents (Elt F) → (⟨S32768, .i32⟩ : BufTy).Contents (Elt F)) main_c_2
  let main_v4 := (cmpi .slt : (⟨S32768, .i32⟩ : BufTy).Contents (Elt F) → (⟨S32768, .i32⟩ : BufTy).Contents (Elt F) → (⟨S32768, .i1⟩ : BufTy).Contents (Elt F)) a2 main_v3
  let main_c_3 := (constantI S_ 32 1024#32)
  let main_v5 := (broadcastInDim S32768 ![] bcast_S_S32768 : (⟨S_, .i32⟩ : BufTy).Contents (Elt F) → (⟨S32768, .i32⟩ : BufTy).Contents (Elt F)) main_c_3
  let main_v6 := (addi : (⟨S32768, .i32⟩ : BufTy).Contents (Elt F) → (⟨S32768, .i32⟩ : BufTy).Contents (Elt F) → (⟨S32768, .i32⟩ : BufTy).Contents (Elt F)) a2 main_v5
  let main_v7 := (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)) main_v4 main_v6 a2
  let main_c_4 := (constantI S_ 32 0#32)
  let main_v8 := (broadcastInDim S32768 ![] bcast_S_S32768 : (⟨S_, .i32⟩ : BufTy).Contents (Elt F) → (⟨S32768, .i32⟩ : BufTy).Contents (Elt F)) main_c_4
  let main_v9 := (cmpi .slt : (⟨S32768, .i32⟩ : BufTy).Contents (Elt F) → (⟨S32768, .i32⟩ : BufTy).Contents (Elt F) → (⟨S32768, .i1⟩ : BufTy).Contents (Elt F)) a3 main_v8
  let main_c_5 := (constantI S_ 32 1024#32)
  let main_v10 := (broadcastInDim S32768 ![] bcast_S_S32768 : (⟨S_, .i32⟩ : BufTy).Contents (Elt F) → (⟨S32768, .i32⟩ : BufTy).Contents (Elt F)) main_c_5
  let main_v11 := (addi : (⟨S32768, .i32⟩ : BufTy).Contents (Elt F) → (⟨S32768, .i32⟩ : BufTy).Contents (Elt F) → (⟨S32768, .i32⟩ : BufTy).Contents (Elt F)) a3 main_v10
  let main_v12 := (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)) main_v9 main_v11 a3
  let main_v13 := (broadcastInDim S32768x1 ![0] bcast_S32768_S32768x1_0 : (⟨S32768, .i32⟩ : BufTy).Contents (Elt F) → (⟨S32768x1, .i32⟩ : BufTy).Contents (Elt F)) main_v7
  let main_v14 := (broadcastInDim S32768x1 ![0] bcast_S32768_S32768x1_0 : (⟨S32768, .i32⟩ : BufTy).Contents (Elt F) → (⟨S32768x1, .i32⟩ : BufTy).Contents (Elt F)) main_v12
  let main_v15 := ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)) main_v13 main_v14
  let main_v16 := ((fun x i u => Host.scatterAdd scatter_S24x1024x1024_S32768x2_S24x32768_0_12_12_1 x i u) : (⟨S24x1024x1024, .f32⟩ : BufTy).Contents (Elt F) → (⟨S32768x2, .i32⟩ : BufTy).Contents (Elt F) → (⟨S24x32768, .f32⟩ : BufTy).Contents (Elt F) → (⟨S24x1024x1024, .f32⟩ : BufTy).Contents (Elt F)) main_v2 main_v15 a4
  let main_cst_6 := (constant (F := F) S_ .f32 0x00000000#32)
  let main_v17 := (broadcastInDim S24x1024x1024 ![] bcast_S_S24x1024x1024 : (⟨S_, .f32⟩ : BufTy).Contents (Elt F) → (⟨S24x1024x1024, .f32⟩ : BufTy).Contents (Elt F)) main_cst_6
  let main_c_7 := (constantI S_ 32 0#32)
  let main_v18 := (broadcastInDim S32768 ![] bcast_S_S32768 : (⟨S_, .i32⟩ : BufTy).Contents (Elt F) → (⟨S32768, .i32⟩ : BufTy).Contents (Elt F)) main_c_7
  let main_v19 := (cmpi .slt : (⟨S32768, .i32⟩ : BufTy).Contents (Elt F) → (⟨S32768, .i32⟩ : BufTy).Contents (Elt F) → (⟨S32768, .i1⟩ : BufTy).Contents (Elt F)) a3 main_v18
  let main_c_8 := (constantI S_ 32 1024#32)
  let main_v20 := (broadcastInDim S32768 ![] bcast_S_S32768 : (⟨S_, .i32⟩ : BufTy).Contents (Elt F) → (⟨S32768, .i32⟩ : BufTy).Contents (Elt F)) main_c_8
  let main_v21 := (addi : (⟨S32768, .i32⟩ : BufTy).Contents (Elt F) → (⟨S32768, .i32⟩ : BufTy).Contents (Elt F) → (⟨S32768, .i32⟩ : BufTy).Contents (Elt F)) a3 main_v20
  let main_v22 := (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)) main_v19 main_v21 a3
  let main_c_9 := (constantI S_ 32 0#32)
  let main_v23 := (broadcastInDim S32768 ![] bcast_S_S32768 : (⟨S_, .i32⟩ : BufTy).Contents (Elt F) → (⟨S32768, .i32⟩ : BufTy).Contents (Elt F)) main_c_9
  let main_v24 := (cmpi .slt : (⟨S32768, .i32⟩ : BufTy).Contents (Elt F) → (⟨S32768, .i32⟩ : BufTy).Contents (Elt F) → (⟨S32768, .i1⟩ : BufTy).Contents (Elt F)) a2 main_v23
  let main_c_10 := (constantI S_ 32 1024#32)
  let main_v25 := (broadcastInDim S32768 ![] bcast_S_S32768 : (⟨S_, .i32⟩ : BufTy).Contents (Elt F) → (⟨S32768, .i32⟩ : BufTy).Contents (Elt F)) main_c_10
  let main_v26 := (addi : (⟨S32768, .i32⟩ : BufTy).Contents (Elt F) → (⟨S32768, .i32⟩ : BufTy).Contents (Elt F) → (⟨S32768, .i32⟩ : BufTy).Contents (Elt F)) a2 main_v25
  let main_v27 := (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)) main_v24 main_v26 a2
  let main_v28 := (broadcastInDim S32768x1 ![0] bcast_S32768_S32768x1_0 : (⟨S32768, .i32⟩ : BufTy).Contents (Elt F) → (⟨S32768x1, .i32⟩ : BufTy).Contents (Elt F)) main_v22
  let main_v29 := (broadcastInDim S32768x1 ![0] bcast_S32768_S32768x1_0 : (⟨S32768, .i32⟩ : BufTy).Contents (Elt F) → (⟨S32768x1, .i32⟩ : BufTy).Contents (Elt F)) main_v27
  let main_v30 := ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)) main_v28 main_v29
  let main_v31 := ((fun x i u => Host.scatterAdd scatter_S24x1024x1024_S32768x2_S24x32768_0_12_12_1 x i u) : (⟨S24x1024x1024, .f32⟩ : BufTy).Contents (Elt F) → (⟨S32768x2, .i32⟩ : BufTy).Contents (Elt F) → (⟨S24x32768, .f32⟩ : BufTy).Contents (Elt F) → (⟨S24x1024x1024, .f32⟩ : BufTy).Contents (Elt F)) main_v17 main_v30 a5
  let main_cst_11 := (constant (F := F) S_ .f32 0x00000000#32)
  let main_v32 := (broadcastInDim S24x1024 ![] bcast_S_S24x1024 : (⟨S_, .f32⟩ : BufTy).Contents (Elt F) → (⟨S24x1024, .f32⟩ : BufTy).Contents (Elt F)) main_cst_11
  let main_c_12 := (constantI S_ 32 0#32)
  let main_v33 := (broadcastInDim S32768 ![] bcast_S_S32768 : (⟨S_, .i32⟩ : BufTy).Contents (Elt F) → (⟨S32768, .i32⟩ : BufTy).Contents (Elt F)) main_c_12
  let main_v34 := (cmpi .slt : (⟨S32768, .i32⟩ : BufTy).Contents (Elt F) → (⟨S32768, .i32⟩ : BufTy).Contents (Elt F) → (⟨S32768, .i1⟩ : BufTy).Contents (Elt F)) a3 main_v33
  let main_c_13 := (constantI S_ 32 1024#32)
  let main_v35 := (broadcastInDim S32768 ![] bcast_S_S32768 : (⟨S_, .i32⟩ : BufTy).Contents (Elt F) → (⟨S32768, .i32⟩ : BufTy).Contents (Elt F)) main_c_13
  let main_v36 := (addi : (⟨S32768, .i32⟩ : BufTy).Contents (Elt F) → (⟨S32768, .i32⟩ : BufTy).Contents (Elt F) → (⟨S32768, .i32⟩ : BufTy).Contents (Elt F)) a3 main_v35
  let main_v37 := (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)) main_v34 main_v36 a3
  let main_v38 := (broadcastInDim S32768x1 ![0] bcast_S32768_S32768x1_0 : (⟨S32768, .i32⟩ : BufTy).Contents (Elt F) → (⟨S32768x1, .i32⟩ : BufTy).Contents (Elt F)) main_v37
  let main_v39 := ((fun x i u => Host.scatterAdd scatter_S24x1024_S32768x1_S24x32768_0_1_1_1 x i u) : (⟨S24x1024, .f32⟩ : BufTy).Contents (Elt F) → (⟨S32768x1, .i32⟩ : BufTy).Contents (Elt F) → (⟨S24x32768, .f32⟩ : BufTy).Contents (Elt F) → (⟨S24x1024, .f32⟩ : BufTy).Contents (Elt F)) main_v32 main_v38 a4
  let main_cst_14 := (constant (F := F) S_ .f32 0x00000000#32)
  let main_v40 := (broadcastInDim S24x1024 ![] bcast_S_S24x1024 : (⟨S_, .f32⟩ : BufTy).Contents (Elt F) → (⟨S24x1024, .f32⟩ : BufTy).Contents (Elt F)) main_cst_14
  let main_c_15 := (constantI S_ 32 0#32)
  let main_v41 := (broadcastInDim S32768 ![] bcast_S_S32768 : (⟨S_, .i32⟩ : BufTy).Contents (Elt F) → (⟨S32768, .i32⟩ : BufTy).Contents (Elt F)) main_c_15
  let main_v42 := (cmpi .slt : (⟨S32768, .i32⟩ : BufTy).Contents (Elt F) → (⟨S32768, .i32⟩ : BufTy).Contents (Elt F) → (⟨S32768, .i1⟩ : BufTy).Contents (Elt F)) a2 main_v41
  let main_c_16 := (constantI S_ 32 1024#32)
  let main_v43 := (broadcastInDim S32768 ![] bcast_S_S32768 : (⟨S_, .i32⟩ : BufTy).Contents (Elt F) → (⟨S32768, .i32⟩ : BufTy).Contents (Elt F)) main_c_16
  let main_v44 := (addi : (⟨S32768, .i32⟩ : BufTy).Contents (Elt F) → (⟨S32768, .i32⟩ : BufTy).Contents (Elt F) → (⟨S32768, .i32⟩ : BufTy).Contents (Elt F)) a2 main_v43
  let main_v45 := (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)) main_v42 main_v44 a2
  let main_v46 := (broadcastInDim S32768x1 ![0] bcast_S32768_S32768x1_0 : (⟨S32768, .i32⟩ : BufTy).Contents (Elt F) → (⟨S32768x1, .i32⟩ : BufTy).Contents (Elt F)) main_v45
  let main_v47 := ((fun x i u => Host.scatterAdd scatter_S24x1024_S32768x1_S24x32768_0_1_1_1 x i u) : (⟨S24x1024, .f32⟩ : BufTy).Contents (Elt F) → (⟨S32768x1, .i32⟩ : BufTy).Contents (Elt F) → (⟨S24x32768, .f32⟩ : BufTy).Contents (Elt F) → (⟨S24x1024, .f32⟩ : BufTy).Contents (Elt F)) main_v40 main_v46 a5
  let main_v48 := (iotaInDim S1024 32 0)
  let main_v49 := (Host.negf : (⟨S24x1024x1024, .f32⟩ : BufTy).Contents (Elt F) → (⟨S24x1024x1024, .f32⟩ : BufTy).Contents (Elt F)) main_v16
  let main_c_17 := (constantI S_ 32 0#32)
  let main_v50 := (broadcastInDim S1024 ![] bcast_S_S1024 : (⟨S_, .i32⟩ : BufTy).Contents (Elt F) → (⟨S1024, .i32⟩ : BufTy).Contents (Elt F)) main_c_17
  let main_v51 := (cmpi .slt : (⟨S1024, .i32⟩ : BufTy).Contents (Elt F) → (⟨S1024, .i32⟩ : BufTy).Contents (Elt F) → (⟨S1024, .i1⟩ : BufTy).Contents (Elt F)) main_v48 main_v50
  let main_c_18 := (constantI S_ 32 1024#32)
  let main_v52 := (broadcastInDim S1024 ![] bcast_S_S1024 : (⟨S_, .i32⟩ : BufTy).Contents (Elt F) → (⟨S1024, .i32⟩ : BufTy).Contents (Elt F)) main_c_18
  let main_v53 := (addi : (⟨S1024, .i32⟩ : BufTy).Contents (Elt F) → (⟨S1024, .i32⟩ : BufTy).Contents (Elt F) → (⟨S1024, .i32⟩ : BufTy).Contents (Elt F)) main_v48 main_v52
  let main_v54 := (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) main_v51 main_v53 main_v48
  let main_c_19 := (constantI S_ 32 0#32)
  let main_v55 := (broadcastInDim S1024 ![] bcast_S_S1024 : (⟨S_, .i32⟩ : BufTy).Contents (Elt F) → (⟨S1024, .i32⟩ : BufTy).Contents (Elt F)) main_c_19
  let main_v56 := (cmpi .slt : (⟨S1024, .i32⟩ : BufTy).Contents (Elt F) → (⟨S1024, .i32⟩ : BufTy).Contents (Elt F) → (⟨S1024, .i1⟩ : BufTy).Contents (Elt F)) main_v48 main_v55
  let main_c_20 := (constantI S_ 32 1024#32)
  let main_v57 := (broadcastInDim S1024 ![] bcast_S_S1024 : (⟨S_, .i32⟩ : BufTy).Contents (Elt F) → (⟨S1024, .i32⟩ : BufTy).Contents (Elt F)) main_c_20
  let main_v58 := (addi : (⟨S1024, .i32⟩ : BufTy).Contents (Elt F) → (⟨S1024, .i32⟩ : BufTy).Contents (Elt F) → (⟨S1024, .i32⟩ : BufTy).Contents (Elt F)) main_v48 main_v57
  let main_v59 := (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) main_v56 main_v58 main_v48
  let main_v60 := (broadcastInDim S1024x1 ![0] bcast_S1024_S1024x1_0 : (⟨S1024, .i32⟩ : BufTy).Contents (Elt F) → (⟨S1024x1, .i32⟩ : BufTy).Contents (Elt F)) main_v54
  let main_v61 := (broadcastInDim S1024x1 ![0] bcast_S1024_S1024x1_0 : (⟨S1024, .i32⟩ : BufTy).Contents (Elt F) → (⟨S1024x1, .i32⟩ : BufTy).Contents (Elt F)) main_v59
  let main_v62 := ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F)) main_v60 main_v61
  let main_v63 := ((fun x i u => Host.scatterAdd scatter_S24x1024x1024_S1024x2_S24x1024_0_12_12_1 x i u) : (⟨S24x1024x1024, .f32⟩ : BufTy).Contents (Elt F) → (⟨S1024x2, .i32⟩ : BufTy).Contents (Elt F) → (⟨S24x1024, .f32⟩ : BufTy).Contents (Elt F) → (⟨S24x1024x1024, .f32⟩ : BufTy).Contents (Elt F)) main_v49 main_v62 main_v39
  let main_v64 := (Host.negf : (⟨S24x1024x1024, .f32⟩ : BufTy).Contents (Elt F) → (⟨S24x1024x1024, .f32⟩ : BufTy).Contents (Elt F)) main_v31
  let main_c_21 := (constantI S_ 32 0#32)
  let main_v65 := (broadcastInDim S1024 ![] bcast_S_S1024 : (⟨S_, .i32⟩ : BufTy).Contents (Elt F) → (⟨S1024, .i32⟩ : BufTy).Contents (Elt F)) main_c_21
  let main_v66 := (cmpi .slt : (⟨S1024, .i32⟩ : BufTy).Contents (Elt F) → (⟨S1024, .i32⟩ : BufTy).Contents (Elt F) → (⟨S1024, .i1⟩ : BufTy).Contents (Elt F)) main_v48 main_v65
  let main_c_22 := (constantI S_ 32 1024#32)
  let main_v67 := (broadcastInDim S1024 ![] bcast_S_S1024 : (⟨S_, .i32⟩ : BufTy).Contents (Elt F) → (⟨S1024, .i32⟩ : BufTy).Contents (Elt F)) main_c_22
  let main_v68 := (addi : (⟨S1024, .i32⟩ : BufTy).Contents (Elt F) → (⟨S1024, .i32⟩ : BufTy).Contents (Elt F) → (⟨S1024, .i32⟩ : BufTy).Contents (Elt F)) main_v48 main_v67
  let main_v69 := (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) main_v66 main_v68 main_v48
  let main_c_23 := (constantI S_ 32 0#32)
  let main_v70 := (broadcastInDim S1024 ![] bcast_S_S1024 : (⟨S_, .i32⟩ : BufTy).Contents (Elt F) → (⟨S1024, .i32⟩ : BufTy).Contents (Elt F)) main_c_23
  let main_v71 := (cmpi .slt : (⟨S1024, .i32⟩ : BufTy).Contents (Elt F) → (⟨S1024, .i32⟩ : BufTy).Contents (Elt F) → (⟨S1024, .i1⟩ : BufTy).Contents (Elt F)) main_v48 main_v70
  let main_c_24 := (constantI S_ 32 1024#32)
  let main_v72 := (broadcastInDim S1024 ![] bcast_S_S1024 : (⟨S_, .i32⟩ : BufTy).Contents (Elt F) → (⟨S1024, .i32⟩ : BufTy).Contents (Elt F)) main_c_24
  let main_v73 := (addi : (⟨S1024, .i32⟩ : BufTy).Contents (Elt F) → (⟨S1024, .i32⟩ : BufTy).Contents (Elt F) → (⟨S1024, .i32⟩ : BufTy).Contents (Elt F)) main_v48 main_v72
  let main_v74 := (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)) main_v71 main_v73 main_v48
  let main_v75 := (broadcastInDim S1024x1 ![0] bcast_S1024_S1024x1_0 : (⟨S1024, .i32⟩ : BufTy).Contents (Elt F) → (⟨S1024x1, .i32⟩ : BufTy).Contents (Elt F)) main_v69
  let main_v76 := (broadcastInDim S1024x1 ![0] bcast_S1024_S1024x1_0 : (⟨S1024, .i32⟩ : BufTy).Contents (Elt F) → (⟨S1024x1, .i32⟩ : BufTy).Contents (Elt F)) main_v74
  let main_v77 := ((fun a b => concatenate S1024x2 1 [⟨S1024x1, a⟩, ⟨S1024x1, b⟩] concatenates_S1024x1_S1024x1_S1024x2_d1) : (⟨S1024x1, .i32⟩ : BufTy).Contents (Elt F) → (⟨S1024x1, .i32⟩ : BufTy).Contents (Elt F) → (⟨S1024x2, .i32⟩ : BufTy).Contents (Elt F)) main_v75 main_v76
  let main_v78 := ((fun x i u => Host.scatterAdd scatter_S24x1024x1024_S1024x2_S24x1024_0_12_12_1 x i u) : (⟨S24x1024x1024, .f32⟩ : BufTy).Contents (Elt F) → (⟨S1024x2, .i32⟩ : BufTy).Contents (Elt F) → (⟨S24x1024, .f32⟩ : BufTy).Contents (Elt F) → (⟨S24x1024x1024, .f32⟩ : BufTy).Contents (Elt F)) main_v64 main_v77 main_v47
  let main_v79 := ((truncf .bf16 · bitsLt_bf16_f32) : (⟨S24x1024x1024, .f32⟩ : BufTy).Contents (Elt F) → (⟨S24x1024x1024, .bf16⟩ : BufTy).Contents (Elt F)) main_v63
  let main_v80 := ((truncf .bf16 · bitsLt_bf16_f32) : (⟨S24x1024x1024, .f32⟩ : BufTy).Contents (Elt F) → (⟨S24x1024x1024, .bf16⟩ : BufTy).Contents (Elt F)) main_v78
  let main_v81 := ((fun a b => concatenate S24x2048x1024 1 [⟨S24x1024x1024, a⟩, ⟨S24x1024x1024, b⟩] concatenates_S24x1024x1024_S24x1024x1024_S24x2048x1024_d1) : (⟨S24x1024x1024, .bf16⟩ : BufTy).Contents (Elt F) → (⟨S24x1024x1024, .bf16⟩ : BufTy).Contents (Elt F) → (⟨S24x2048x1024, .bf16⟩ : BufTy).Contents (Elt F)) main_v79 main_v80
  main_v81

/-- The two bias tables stacked along a trailing axis. -/
def kerBias (a6 : FVec F S24x1024 .f32) (a7 : FVec F S24x1024 .f32) : FVec F S24x1024x2 .f32 :=
  let main_v82 := (broadcastInDim S24x1024x1 ![0, 1] bcast_S24x1024_S24x1024x1_0_1 : (⟨S24x1024, .f32⟩ : BufTy).Contents (Elt F) → (⟨S24x1024x1, .f32⟩ : BufTy).Contents (Elt F)) a6
  let main_v83 := (broadcastInDim S24x1024x1 ![0, 1] bcast_S24x1024_S24x1024x1_0_1 : (⟨S24x1024, .f32⟩ : BufTy).Contents (Elt F) → (⟨S24x1024x1, .f32⟩ : BufTy).Contents (Elt F)) a7
  let main_v84 := ((fun a b => concatenate S24x1024x2 2 [⟨S24x1024x1, a⟩, ⟨S24x1024x1, b⟩] concatenates_S24x1024x1_S24x1024x1_S24x1024x2_d2) : (⟨S24x1024x1, .f32⟩ : BufTy).Contents (Elt F) → (⟨S24x1024x1, .f32⟩ : BufTy).Contents (Elt F) → (⟨S24x1024x2, .f32⟩ : BufTy).Contents (Elt F)) main_v82 main_v83
  main_v84

end Cert.KernelIdeal.Hand

end
-- ==== Proof.KerHost.lean ====
/-
  The arrays the region finds, as the chains of @main's host operations over the argument arrays: the grid's order and
  the slot word of each grid point (the two prefetched tables), the stacked Laplacian tables and the stacked biases.
-/
import proofs.«429784_j90872918049138_3_alg».proof.Proof.Gen.KernelIdeal.Frame
import proofs.«429784_j90872918049138_3_alg».proof.Proof.KerTerm

noncomputable section

namespace Cert.KernelIdeal.Hand

open Cert.KernelIdeal Cert.KernelIdeal.Gen Idealize.ShloMosaic Idealize.ShloMosaic.TcCoe Idealize.SL.Sem
open Idealize.ShloMosaic.StableHlo

variable {F : FTy → Type} [FloatOps F] (m : (ℓ : Loc nD τ sig) → Buf (Elt F) ℓ)

/- The valuation at the region's entry is the fold of the host operations over the launch contents. Read at one buffer,
   an operation's result is its function's value at its own buffer and what was there at any other; so the buffer holds
   the composition of the functions of the operations it depends on, applied to the argument arrays, which is the stated
   chain. The sort, the gather, the scatter-additions and the stackings enter only as whole functions. -/
attribute [local irreducible] Host.gather Host.scatterAdd Host.sort2 concatenate in
set_option maxRecDepth 16384 in
set_option maxHeartbeats 4000000 in
theorem V_perm (c : Dev nD) : (V m c main_v85 : IVec S64 32) = kerPerm (m ((c.tc : Thread nD τ).loc main_arg1)) := by
  dsimp only [Gen.V]
  simp only [hostOps0, hostOps0_1, hostOps0_2, hostOps0_3, hostOps0_4, hostOps0_5, hostOps0_6, List.flatten_cons, List.flatten_nil, List.append_nil, List.cons_append, List.nil_append]
  after_results_simp
  rfl

attribute [local irreducible] Host.gather Host.scatterAdd Host.sort2 concatenate in
set_option maxRecDepth 16384 in
set_option maxHeartbeats 4000000 in
theorem V_iis (c : Dev nD) : (V m c main_v92 : IVec S64 32) = kerIis (m ((c.tc : Thread nD τ).loc main_arg1)) := by
  dsimp only [Gen.V]
  simp only [hostOps0, hostOps0_1, hostOps0_2, hostOps0_3, hostOps0_4, hostOps0_5, hostOps0_6, List.flatten_cons, List.flatten_nil, List.append_nil, List.cons_append, List.nil_append]
  after_results_simp
  rfl

/- The two stacked arrays: a stacking's operands are themselves buffers of the fold, read the same way. -/
attribute [local irreducible] Host.gather Host.scatterAdd Host.sort2 concatenate in
set_option maxRecDepth 16384 in
set_option maxHeartbeats 8000000 in
theorem V_lstack (c : Dev nD) :
    (V m c main_v81 : FVec F S24x2048x1024 .bf16) = kerLstack (m ((c.tc : Thread nD τ).loc main_arg2)) (m ((c.tc : Thread nD τ).loc main_arg3)) (m ((c.tc : Thread nD τ).loc main_arg4)) (m ((c.tc : Thread nD τ).loc main_arg5)) := by
  dsimp only [Gen.V]
  simp only [hostOps0, hostOps0_1, hostOps0_2, hostOps0_3, hostOps0_4, hostOps0_5, hostOps0_6, List.flatten_cons, List.flatten_nil, List.append_nil, List.cons_append, List.nil_append]
  after_results_simp
  rfl

attribute [local irreducible] Host.gather Host.scatterAdd Host.sort2 concatenate in
set_option maxRecDepth 16384 in
set_option maxHeartbeats 4000000 in
theorem V_bias (c : Dev nD) : (V m c main_v84 : FVec F S24x1024x2 .f32) = kerBias (m ((c.tc : Thread nD τ).loc main_arg6)) (m ((c.tc : Thread nD τ).loc main_arg7)) := by
  dsimp only [Gen.V]
  simp only [hostOps0, hostOps0_1, hostOps0_2, hostOps0_3, hostOps0_4, hostOps0_5, hostOps0_6, List.flatten_cons, List.flatten_nil, List.append_nil, List.cons_append, List.nil_append]
  after_results_simp
  rfl

end Cert.KernelIdeal.Hand

end
-- ==== Proof.Ints.lean ====
/-
  The integer side, one word at a time: the floor division by twelve as the host operations spell it (truncating quotient,
  corrected by one when the signs differ and the remainder is not zero), the clip into [0, 23], the wrap of a negative
  index, and the passage from a word read signed in [0, n) to its unsigned value.
-/
import Idealize.ShloMosaic.PureOps.Ideal

noncomputable section

namespace Cert.Ints

open Idealize.ShloMosaic

/-- The sign of a word as the host's `sign` gives it: 0, −1 or 1. -/
def sgn (v : BitVec 32) : BitVec 32 := if v = 0 then 0 else if v.msb then -1 else 1

/-- The floor division by twelve on one word, operation by operation as both programs print it. -/
def fdiv12 (v : BitVec 32) : BitVec 32 :=
  Scalar.select
    (IntOp.andi (IntOp.cmpi .ne (sgn v) (sgn 12#32)) (IntOp.cmpi .ne (IntOp.remsi .host v 12#32) 0#32))
    (IntOp.subi (IntOp.divsi .host v 12#32) 1#32)
    (IntOp.divsi .host v 12#32)

/-- On a word below 288 it is the word's value divided by twelve. -/
theorem fdiv12_eq (v : BitVec 32) (h : v.toNat < 288) : fdiv12 v = BitVec.ofNat 32 (v.toNat / 12) := by
  have key : ∀ n : Fin 288, fdiv12 (BitVec.ofNat 32 n.val) = BitVec.ofNat 32 (n.val / 12) := by
    decide +kernel
  have e := key ⟨v.toNat, h⟩
  simpa [BitVec.ofNat_toNat] using e

/-- The clip into [0, 23] lands below 24, whatever the word. -/
theorem clip_lt (x : BitVec 32) : (IntOp.minsi 23#32 (IntOp.maxsi 0#32 x)).toNat < 24 := by
  have hx := x.isLt
  unfold IntOp.minsi IntOp.maxsi
  simp only [BitVec.slt, BitVec.toInt_eq_toNat_cond, decide_eq_true_eq]
  split_ifs <;> simp at * <;> omega

/-- The clip leaves a word below 24. -/
theorem clip_eq (x : BitVec 32) (h : x.toNat < 24) : IntOp.minsi 23#32 (IntOp.maxsi 0#32 x) = x := by
  apply BitVec.eq_of_toNat_eq
  unfold IntOp.minsi IntOp.maxsi
  simp only [BitVec.slt, BitVec.toInt_eq_toNat_cond, decide_eq_true_eq]
  split_ifs <;> simp at * <;> omega

/-- A word below 2³¹ is not negative: the wrap of negative indices leaves it. -/
theorem wrap_eq (x n : BitVec 32) (h : x.toNat < 2 ^ 31) :
    Scalar.select (IntOp.cmpi .slt x 0#32) (IntOp.addi x n) x = x := by
  have hs : x.slt 0#32 = false := by
    simp only [BitVec.slt, BitVec.toInt_eq_toNat_cond, decide_eq_false_iff_not]
    split_ifs <;> simp <;> omega
  simp [Scalar.select, IntOp.cmpi, hs]

/-- A word below 2³¹ read signed is its unsigned value. -/
theorem toInt_eq_toNat (x : BitVec 32) (h : x.toNat < 2 ^ 31) : x.toInt = (x.toNat : Int) := by
  rw [BitVec.toInt_eq_toNat_cond]
  split_ifs <;> omega

/-- A word read signed in [0, n) is below n unsigned. -/
theorem toNat_lt_of_signed (w : BitVec 32) (n : Nat) (hn : n < 2 ^ 31) (h0 : IntOp.cmpi .sge w 0#32 = 1#1)
    (h1 : IntOp.cmpi .slt w (BitVec.ofNat 32 n) = 1#1) : w.toNat < n := by
  have hw := w.isLt
  have hn' : (BitVec.ofNat 32 n).toNat = n := by
    rw [BitVec.toNat_ofNat]; exact Nat.mod_eq_of_lt (by omega)
  have a0 : (0#32).sle w = true := by
    by_contra hc
    simp only [Bool.not_eq_true] at hc
    simp [IntOp.cmpi, hc] at h0
  have a1 : w.slt (BitVec.ofNat 32 n) = true := by
    by_contra hc
    simp only [Bool.not_eq_true] at hc
    simp [IntOp.cmpi, hc] at h1
  simp only [BitVec.sle, BitVec.slt, BitVec.toInt_eq_toNat_cond, hn', decide_eq_true_eq] at a0 a1
  simp at a0
  split_ifs at a0 a1 <;> omega

theorem andi_eq_one (a b : BitVec 1) : IntOp.andi a b = 1#1 ↔ a = 1#1 ∧ b = 1#1 := by
  revert a b; decide

end Cert.Ints

end
-- ==== Proof.KerTables.lean ====
/-
  The two prefetched tables, word by word. The clipped slot of a sample is the clip of its floor-divided index word. The
  grid's order is the stable argsort of the clipped slots: a permutation σ of the 64 samples, table word t being σ(t);
  the other table's word t is the clipped slot of sample σ(t).
-/
import proofs.«429784_j90872918049138_3_alg».proof.Proof.KerTerm
import proofs.«429784_j90872918049138_3_alg».proof.Proof.Ints
import Idealize.ShloMosaic.Lib.ValueIdx
import Idealize.ShloMosaic.Lib.SortFacts

noncomputable section

namespace Cert.KernelIdeal.Hand

open Cert.KernelIdeal Cert.KernelIdeal.Gen Idealize.ShloMosaic Idealize.ShloMosaic.ValueIdx

set_option maxHeartbeats 50000 in
theorem q_word (a1 : IVec S64 32) (b : Fin 64) : kerQ a1 (ix1 b) = Cert.Ints.fdiv12 (a1 (ix1 b)) := by
  rfl

set_option maxHeartbeats 50000 in
theorem clip_word (a1 : IVec S64 32) (b : Fin 64) :
    kerClip a1 (ix1 b) = IntOp.minsi 23#32 (IntOp.maxsi 0#32 (kerQ a1 (ix1 b))) := by
  rfl

/-! ### A sort and a gather of a rank-1 array, read at an index -/

/-- The rank-1 index at a coordinate, in its two spellings. -/
private theorem ofFin_eq_ix1 {n : Nat} (k : Fin n) : Shape.Idx.ofFin k = ix1 k := by
  funext a; match a with | ⟨0, _⟩ => exact Fin.ext rfl

/-- The second result of a two-operand sort of rank-1 arrays reads the second operand at the sorted position. -/
private theorem sort2_snd_rank1 {n : Nat} {α β : Type} (cmp : α × β → α × β → BitVec 1)
    (x : (⟨1, ![n]⟩ : Shape).Idx → α) (y : (⟨1, ![n]⟩ : Shape).Idx → β) (t : Fin n) :
    (Host.sort2 ⟨1, ![n]⟩ 0 cmp x y).2 (ix1 t)
      = y (ix1 (sortedFrom (fun k k' => cmp (x (ix1 k), y (ix1 k)) (x (ix1 k'), y (ix1 k')) == 1#1) t)) := by
  unfold Host.sort2
  simp [ofFin_eq_ix1]

/-- The order in which the grid visits the samples. -/
def order (a1 : IVec S64 32) : Fin 64 → Fin 64 :=
  sortedFrom (fun k k' => comparator_i32_i32_d0 (kerClip a1 (ix1 k), iotaInDim S64 32 0 (ix1 k))
    (kerClip a1 (ix1 k'), iotaInDim S64 32 0 (ix1 k')) == 1#1)

theorem order_bijective (a1 : IVec S64 32) : Function.Bijective (order a1) :=
  ⟨sortedFrom_injective _, sortedFrom_surjective _⟩

/- The order table is the second result of the sort of the clipped slots with the positions, the sort left closed. -/
attribute [local irreducible] Host.sort2 in
set_option maxHeartbeats 50000 in
private theorem perm_chain (a1 : IVec S64 32) :
    kerPerm a1 = (Host.sort2 S64 0 comparator_i32_i32_d0 (kerClip a1) (iotaInDim S64 32 0)).2 := rfl

set_option maxHeartbeats 50000 in
theorem perm_word (a1 : IVec S64 32) (t : Fin 64) : kerPerm a1 (ix1 t) = BitVec.ofNat 32 (order a1 t).val := by
  rw [perm_chain, sort2_snd_rank1]
  rfl

/-- A vector as a column, at (t, 0): the vector at t. -/
private theorem col_apply {α : Type} (x : S64.Idx → α) (t : Fin 64) :
    broadcastInDim S64x1 ![0] bcast_S64_S64x1_0 x (ix2 t 0) = x (ix1 t) := by
  unfold broadcastInDim
  refine congrArg x (funext fun a => Fin.ext ?_)
  match a with
  | ⟨0, _⟩ =>
    rw [dif_neg (by decide +revert)]
    rfl

/-- The gather of single words of a rank-1 array at a column of start words, at t: the array at the start word of t,
    read signed and clamped into [0, 63]. -/
private theorem gather_word {α : Type} {w : Nat} (x : S64.Idx → α) (idx : IVec S64x1 w) (t k : Fin 64)
    (hk : min (idx (ix2 t 0)).toInt.toNat 63 = k.val) :
    Host.gather gather_S64_S64x1_S64_n_0_n_n_0_1_1 x idx (ix1 t) = x (ix1 k) := by
  unfold Host.gather
  refine congrArg x ?_
  funext a
  obtain rfl : a = 0 := Subsingleton.elim _ _
  refine Fin.ext ?_
  rw [← hk]
  show gather_S64_S64x1_S64_n_0_n_n_0_1_1.start (ix1 t) idx 0 + gather_S64_S64x1_S64_n_0_n_n_0_1_1.batchCoord (ix1 t) 0
    + gather_S64_S64x1_S64_n_0_n_n_0_1_1.offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S64_S64x1_S64_n_0_n_n_0_1_1.startIndexMap from List.mem_singleton.mpr rfl)]
  have hsi : gather_S64_S64x1_S64_n_0_n_n_0_1_1.siIdx (ix1 t)
      ⟨List.idxOf (0 : Fin 1) gather_S64_S64x1_S64_n_0_n_n_0_1_1.startIndexMap,
        List.idxOf_lt_length_iff.2 (List.mem_singleton.mpr rfl)⟩ = ix2 t 0 := by
    funext b; refine Fin.ext ?_
    match b with
    | ⟨0, _⟩ => rfl
    | ⟨1, _⟩ => rfl
  rw [hsi]
  rfl

/-- The wrap of a negative index word, at an index. -/
private theorem wrap_apply (p : IVec S64 32) (j : S64.Idx) :
    select (cmpi .slt p (broadcastInDim S64 ![] bcast_S_S64 (constantI S_ 32 0#32)))
      (addi p (broadcastInDim S64 ![] bcast_S_S64 (constantI S_ 32 64#32))) p j
      = Scalar.select (IntOp.cmpi .slt (p j) 0#32) (IntOp.addi (p j) 64#32) (p j) := rfl

/-- A word below 64 read signed and clamped into [0, 63] is itself. -/
private theorem clamp_word (k : Fin 64) : min (BitVec.ofNat 32 k.val).toInt.toNat 63 = k.val := by
  have hk := k.isLt
  have hn : (BitVec.ofNat 32 k.val).toNat = k.val := by
    rw [BitVec.toNat_ofNat]; omega
  rw [Cert.Ints.toInt_eq_toNat _ (by rw [hn]; omega), hn, Int.toNat_natCast]
  omega

/- The slot table is the gather of the clipped slots at the wrapped order words, spread to a column: the chain of the
   operations, the sort and the gather left closed. -/
attribute [local irreducible] Host.gather Host.sort2 in
set_option maxHeartbeats 50000 in
private theorem iis_chain (a1 : IVec S64 32) :
    kerIis a1 = Host.gather gather_S64_S64x1_S64_n_0_n_n_0_1_1 (kerClip a1)
      (broadcastInDim S64x1 ![0] bcast_S64_S64x1_0
        (select (cmpi .slt (kerPerm a1) (broadcastInDim S64 ![] bcast_S_S64 (constantI S_ 32 0#32)))
          (addi (kerPerm a1) (broadcastInDim S64 ![] bcast_S_S64 (constantI S_ 32 64#32))) (kerPerm a1))) := rfl

set_option maxHeartbeats 50000 in
theorem iis_word (a1 : IVec S64 32) (t : Fin 64) : kerIis a1 (ix1 t) = kerClip a1 (ix1 (order a1 t)) := by
  rw [iis_chain]
  refine gather_word _ _ t (order a1 t) ?_
  rw [col_apply, wrap_apply, perm_word]
  generalize order a1 t = k
  have hk := k.isLt
  rw [Cert.Ints.wrap_eq _ _ (by rw [BitVec.toNat_ofNat]; omega)]
  exact clamp_word k

attribute [irreducible] order

end Cert.KernelIdeal.Hand

end
-- ==== Proof.OkOfPre.lean ====
/-
  The pipeline's side condition on the prefetched tables holds of every input: a word of the order table is a sample
  below 64, a word of the slot table is a clipped slot below 24, so every table-indexed block lies inside its array.
-/
import proofs.«429784_j90872918049138_3_alg».proof.Proof.Gen.KernelIdeal.Frame
import proofs.«429784_j90872918049138_3_alg».proof.Proof.KerHost
import proofs.«429784_j90872918049138_3_alg».proof.Proof.KerTables

noncomputable section

namespace Cert.KernelIdeal.Hand

open Cert.KernelIdeal Cert.KernelIdeal.Gen Idealize.ShloMosaic Idealize.ShloMosaic.TcCoe Idealize.SL.Sem Idealize.ShloMosaic.ValueIdx

variable {F : FTy → Type} [FloatOps F] (m : (ℓ : Loc nD τ sig) → Buf (Elt F) ℓ)

/-- Tables whose slot words are below 24 and whose order words are below 64 put every table-indexed block inside its
    array; the one half-word window takes every row of its slab. -/
theorem ok0_of_bounds (pf : pre0.Contents (Elt F)) (h0 : ∀ x, (pf 0 x).toNat < 24) (h1 : ∀ x, (pf 1 x).toNat < 64) :
    ok0 (F := F) pf := by
  refine ⟨fun i => ?_, fun i => ?_, fun i => ?_, fun i => ?_⟩
  · obtain ⟨w, hw, e⟩ : ∃ w : BitVec 32, w.toNat < 64 ∧
        cc0_transform_0 k0_off1_inb numel1_S1 pf i = ![w.toNat, 0, 0, 0] := ⟨_, h1 _, rfl⟩
    refine ⟨fun a => ?_, Or.inl rfl⟩
    rw [e]
    fin_cases a <;> simp [S1x1x1024x64, S64x2x1024x64] <;> omega
  · obtain ⟨w, hw, e⟩ : ∃ w : BitVec 32, w.toNat < 24 ∧
        cc0_transform_1 k0_off1_inb numel1_S1 pf i = ![w.toNat, 0, 0] := ⟨_, h0 _, rfl⟩
    refine ⟨fun a => ?_, Or.inr (Or.inr ⟨by decide, rfl, ?_, rfl⟩)⟩
    · rw [e]
      fin_cases a <;> simp [S1x2048x1024, S24x2048x1024] <;> omega
    · show cc0_transform_1 k0_off1_inb numel1_S1 pf i _ * _ = 0
      rw [e]
      exact Nat.zero_mul _
  · obtain ⟨w, hw, e⟩ : ∃ w : BitVec 32, w.toNat < 24 ∧
        cc0_transform_2 k0_off1_inb numel1_S1 pf i = ![w.toNat, 0, 0] := ⟨_, h0 _, rfl⟩
    refine ⟨fun a => ?_, Or.inl rfl⟩
    rw [e]
    fin_cases a <;> simp [S1x1024x2, S24x1024x2] <;> omega
  · obtain ⟨w, hw, e⟩ : ∃ w : BitVec 32, w.toNat < 64 ∧
        cc0_transform_3 k0_off1_inb numel1_S1 pf i = ![w.toNat, 0, 0] := ⟨_, h1 _, rfl⟩
    refine ⟨fun a => ?_, Or.inl rfl⟩
    rw [e]
    fin_cases a <;> simp [S1x1024x64, S64x1024x64] <;> omega

/-- A word of the slot table is a clipped slot: below 24. -/
theorem tbl_iis_lt (x : S64.Idx) : ((tbl m 0 : IVec S64 32) x).toNat < 24 := by
  obtain ⟨t, rfl⟩ : ∃ t, x = ix1 t := ⟨x 0, eq_ix1 x⟩
  have e : (tbl m 0 : IVec S64 32) = kerIis (m (((0 : Dev nD).tc : Thread nD τ).loc main_arg1)) := V_iis m 0
  rw [e, iis_word, clip_word]
  exact Cert.Ints.clip_lt _

/-- A word of the order table is a sample: below 64. -/
theorem tbl_perm_lt (x : S64.Idx) : ((tbl m 1 : IVec S64 32) x).toNat < 64 := by
  obtain ⟨t, rfl⟩ : ∃ t, x = ix1 t := ⟨x 0, eq_ix1 x⟩
  have e : (tbl m 1 : IVec S64 32) = kerPerm (m (((0 : Dev nD).tc : Thread nD τ).loc main_arg1)) := V_perm m 0
  have hk := (order (m (((0 : Dev nD).tc : Thread nD τ).loc main_arg1)) t).isLt
  rw [e, perm_word, BitVec.toNat_ofNat]
  omega

theorem ok : Ok m :=
  ok0_of_bounds (tbl m) (tbl_iis_lt m) (tbl_perm_lt m)

end Cert.KernelIdeal.Hand

end
-- ==== Proof.KerTermW.lean ====
import proofs.«429784_j90872918049138_3_alg».proof.Proof.Gen.Kernel

noncomputable section

namespace Cert.Kernel.Hand

open Cert.Kernel Cert.Kernel.Gen Idealize.ShloMosaic

variable {F : FTy → Type} [FloatOps F]

/-- The sample's index word floor-divided by twelve, as the kernel's host operations compute it. -/
def kerQ (a1 : IVec S64 32) : IVec S64 32 :=
  let main_c := (constantI S_ 32 12#32)
  let main_call0_v0 := id main_c
  let main_call0_v1 := (broadcastInDim S64 ![] bcast_S_S64) main_call0_v0
  let main_call0_v2 := Host.divsi a1 main_call0_v1
  let main_call0_v3 := signi a1
  let main_call0_v4 := signi main_call0_v0
  let main_call0_v5 := (broadcastInDim S64 ![] bcast_S_S64) main_call0_v4
  let main_call0_v6 := (cmpi .ne) main_call0_v3 main_call0_v5
  let main_call0_v7 := (broadcastInDim S64 ![] bcast_S_S64) main_call0_v0
  let main_call0_v8 := Host.remsi a1 main_call0_v7
  let main_call0_c := (constantI S_ 32 0#32)
  let main_call0_v9 := (broadcastInDim S64 ![] bcast_S_S64) main_call0_c
  let main_call0_v10 := (cmpi .ne) main_call0_v8 main_call0_v9
  let main_call0_v11 := andi main_call0_v6 main_call0_v10
  let main_call0_c_0 := (constantI S_ 32 1#32)
  let main_call0_v12 := (broadcastInDim S64 ![] bcast_S_S64) main_call0_c_0
  let main_call0_v13 := subi main_call0_v2 main_call0_v12
  let main_v0 := select main_call0_v11 main_call0_v13 main_call0_v2
  main_v0

/-- That quotient clipped into the slot range. -/
def kerClip (a1 : IVec S64 32) : IVec S64 32 :=
  let main_c := (constantI S_ 32 12#32)
  let main_call0_v0 := id main_c
  let main_call0_v1 := (broadcastInDim S64 ![] bcast_S_S64) main_call0_v0
  let main_call0_v2 := Host.divsi a1 main_call0_v1
  let main_call0_v3 := signi a1
  let main_call0_v4 := signi main_call0_v0
  let main_call0_v5 := (broadcastInDim S64 ![] bcast_S_S64) main_call0_v4
  let main_call0_v6 := (cmpi .ne) main_call0_v3 main_call0_v5
  let main_call0_v7 := (broadcastInDim S64 ![] bcast_S_S64) main_call0_v0
  let main_call0_v8 := Host.remsi a1 main_call0_v7
  let main_call0_c := (constantI S_ 32 0#32)
  let main_call0_v9 := (broadcastInDim S64 ![] bcast_S_S64) main_call0_c
  let main_call0_v10 := (cmpi .ne) main_call0_v8 main_call0_v9
  let main_call0_v11 := andi main_call0_v6 main_call0_v10
  let main_call0_c_0 := (constantI S_ 32 1#32)
  let main_call0_v12 := (broadcastInDim S64 ![] bcast_S_S64) main_call0_c_0
  let main_call0_v13 := subi main_call0_v2 main_call0_v12
  let main_v0 := select main_call0_v11 main_call0_v13 main_call0_v2
  let main_c_0 := (constantI S_ 32 0#32)
  let main_c_1 := (constantI S_ 32 23#32)
  let main_call1_v0 := id main_c_0
  let main_call1_v1 := (broadcastInDim S64 ![] bcast_S_S64) main_call1_v0
  let main_call1_v2 := maxsi main_call1_v1 main_v0
  let main_call1_v3 := id main_c_1
  let main_call1_v4 := (broadcastInDim S64 ![] bcast_S_S64) main_call1_v3
  let main_v1 := minsi main_call1_v4 main_call1_v2
  main_v1

/-- The stable argsort of the clipped slots: the order in which the grid visits the samples. -/
def kerPerm (a1 : IVec S64 32) : IVec S64 32 :=
  let main_c := (constantI S_ 32 12#32)
  let main_call0_v0 := id main_c
  let main_call0_v1 := (broadcastInDim S64 ![] bcast_S_S64) main_call0_v0
  let main_call0_v2 := Host.divsi a1 main_call0_v1
  let main_call0_v3 := signi a1
  let main_call0_v4 := signi main_call0_v0
  let main_call0_v5 := (broadcastInDim S64 ![] bcast_S_S64) main_call0_v4
  let main_call0_v6 := (cmpi .ne) main_call0_v3 main_call0_v5
  let main_call0_v7 := (broadcastInDim S64 ![] bcast_S_S64) main_call0_v0
  let main_call0_v8 := Host.remsi a1 main_call0_v7
  let main_call0_c := (constantI S_ 32 0#32)
  let main_call0_v9 := (broadcastInDim S64 ![] bcast_S_S64) main_call0_c
  let main_call0_v10 := (cmpi .ne) main_call0_v8 main_call0_v9
  let main_call0_v11 := andi main_call0_v6 main_call0_v10
  let main_call0_c_0 := (constantI S_ 32 1#32)
  let main_call0_v12 := (broadcastInDim S64 ![] bcast_S_S64) main_call0_c_0
  let main_call0_v13 := subi main_call0_v2 main_call0_v12
  let main_v0 := select main_call0_v11 main_call0_v13 main_call0_v2
  let main_c_0 := (constantI S_ 32 0#32)
  let main_c_1 := (constantI S_ 32 23#32)
  let main_call1_v0 := id main_c_0
  let main_call1_v1 := (broadcastInDim S64 ![] bcast_S_S64) main_call1_v0
  let main_call1_v2 := maxsi main_call1_v1 main_v0
  let main_call1_v3 := id main_c_1
  let main_call1_v4 := (broadcastInDim S64 ![] bcast_S_S64) main_call1_v3
  let main_v1 := minsi main_call1_v4 main_call1_v2
  let main_call2_v0 := (iotaInDim S64 32 0)
  let main_v85 := (fun x y => (Host.sort2 S64 0 comparator_i32_i32_d0 x y).2) main_v1 main_call2_v0
  main_v85

/-- The clipped slots gathered in that order: the slot of the sample each grid point visits. -/
def kerIis (a1 : IVec S64 32) : IVec S64 32 :=
  let main_c := (constantI S_ 32 12#32)
  let main_call0_v0 := id main_c
  let main_call0_v1 := (broadcastInDim S64 ![] bcast_S_S64) main_call0_v0
  let main_call0_v2 := Host.divsi a1 main_call0_v1
  let main_call0_v3 := signi a1
  let main_call0_v4 := signi main_call0_v0
  let main_call0_v5 := (broadcastInDim S64 ![] bcast_S_S64) main_call0_v4
  let main_call0_v6 := (cmpi .ne) main_call0_v3 main_call0_v5
  let main_call0_v7 := (broadcastInDim S64 ![] bcast_S_S64) main_call0_v0
  let main_call0_v8 := Host.remsi a1 main_call0_v7
  let main_call0_c := (constantI S_ 32 0#32)
  let main_call0_v9 := (broadcastInDim S64 ![] bcast_S_S64) main_call0_c
  let main_call0_v10 := (cmpi .ne) main_call0_v8 main_call0_v9
  let main_call0_v11 := andi main_call0_v6 main_call0_v10
  let main_call0_c_0 := (constantI S_ 32 1#32)
  let main_call0_v12 := (broadcastInDim S64 ![] bcast_S_S64) main_call0_c_0
  let main_call0_v13 := subi main_call0_v2 main_call0_v12
  let main_v0 := select main_call0_v11 main_call0_v13 main_call0_v2
  let main_c_0 := (constantI S_ 32 0#32)
  let main_c_1 := (constantI S_ 32 23#32)
  let main_call1_v0 := id main_c_0
  let main_call1_v1 := (broadcastInDim S64 ![] bcast_S_S64) main_call1_v0
  let main_call1_v2 := maxsi main_call1_v1 main_v0
  let main_call1_v3 := id main_c_1
  let main_call1_v4 := (broadcastInDim S64 ![] bcast_S_S64) main_call1_v3
  let main_v1 := minsi main_call1_v4 main_call1_v2
  let main_call2_v0 := (iotaInDim S64 32 0)
  let main_v85 := (fun x y => (Host.sort2 S64 0 comparator_i32_i32_d0 x y).2) main_v1 main_call2_v0
  let main_c_25 := (constantI S_ 32 0#32)
  let main_v86 := (broadcastInDim S64 ![] bcast_S_S64) main_c_25
  let main_v87 := (cmpi .slt) main_v85 main_v86
  let main_c_26 := (constantI S_ 32 64#32)
  let main_v88 := (broadcastInDim S64 ![] bcast_S_S64) main_c_26
  let main_v89 := addi main_v85 main_v88
  let main_v90 := select main_v87 main_v89 main_v85
  let main_v91 := (broadcastInDim S64x1 ![0] bcast_S64_S64x1_0) main_v90
  let main_v92 := (fun x i => Host.gather gather_S64_S64x1_S64_n_0_n_n_0_1_1 x i) main_v1 main_v91
  main_v92

end Cert.Kernel.Hand

end
-- ==== Proof.KerHostW.lean ====
/-
  The arrays the region finds, as the chains of @main's host operations over the argument arrays: the grid's order and
  the slot word of each grid point (the two prefetched tables).
-/
import proofs.«429784_j90872918049138_3_alg».proof.Proof.Gen.Kernel.Frame
import proofs.«429784_j90872918049138_3_alg».proof.Proof.KerTermW

noncomputable section

namespace Cert.Kernel.Hand

open Cert.Kernel Cert.Kernel.Gen Idealize.ShloMosaic Idealize.ShloMosaic.TcCoe Idealize.SL.Sem
open Idealize.ShloMosaic.StableHlo

variable {F : FTy → Type} [FloatOps F] (m : (ℓ : Loc nD τ sig) → Buf (Elt F) ℓ)

/- The valuation at the region's entry is the fold of the host operations over the launch contents. Read at one buffer,
   an operation's result is its function's value at its own buffer and what was there at any other; so the buffer holds
   the composition of the functions of the operations it depends on, applied to the argument arrays, which is the stated
   chain. The sort and the gather enter only as whole functions. -/
attribute [local irreducible] Host.gather Host.scatterAdd Host.sort2 concatenate in
set_option maxRecDepth 16384 in
set_option maxHeartbeats 4000000 in
theorem V_perm (c : Dev nD) : (V m c main_v85 : IVec S64 32) = kerPerm (m ((c.tc : Thread nD τ).loc main_arg1)) := by
  dsimp only [Gen.V]
  simp only [hostOps0, hostOps0_1, hostOps0_2, hostOps0_3, hostOps0_4, hostOps0_5, hostOps0_6, List.flatten_cons, List.flatten_nil, List.append_nil, List.cons_append, List.nil_append]
  after_results_simp
  rfl

attribute [local irreducible] Host.gather Host.scatterAdd Host.sort2 concatenate in
set_option maxRecDepth 16384 in
set_option maxHeartbeats 4000000 in
theorem V_iis (c : Dev nD) : (V m c main_v92 : IVec S64 32) = kerIis (m ((c.tc : Thread nD τ).loc main_arg1)) := by
  dsimp only [Gen.V]
  simp only [hostOps0, hostOps0_1, hostOps0_2, hostOps0_3, hostOps0_4, hostOps0_5, hostOps0_6, List.flatten_cons, List.flatten_nil, List.append_nil, List.cons_append, List.nil_append]
  after_results_simp
  rfl

end Cert.Kernel.Hand

end
-- ==== Proof.KerTablesW.lean ====
/-
  The two prefetched tables, word by word. The clipped slot of a sample is the clip of its floor-divided index word. The
  grid's order is the stable argsort of the clipped slots: a permutation σ of the 64 samples, table word t being σ(t);
  the other table's word t is the clipped slot of sample σ(t).
-/
import proofs.«429784_j90872918049138_3_alg».proof.Proof.KerTermW
import proofs.«429784_j90872918049138_3_alg».proof.Proof.Ints
import Idealize.ShloMosaic.Lib.ValueIdx
import Idealize.ShloMosaic.Lib.SortFacts

noncomputable section

namespace Cert.Kernel.Hand

open Cert.Kernel Cert.Kernel.Gen Idealize.ShloMosaic Idealize.ShloMosaic.ValueIdx

set_option maxHeartbeats 50000 in
theorem q_word (a1 : IVec S64 32) (b : Fin 64) : kerQ a1 (ix1 b) = Cert.Ints.fdiv12 (a1 (ix1 b)) := by
  rfl

set_option maxHeartbeats 50000 in
theorem clip_word (a1 : IVec S64 32) (b : Fin 64) :
    kerClip a1 (ix1 b) = IntOp.minsi 23#32 (IntOp.maxsi 0#32 (kerQ a1 (ix1 b))) := by
  rfl

/-! ### A sort and a gather of a rank-1 array, read at an index -/

/-- The rank-1 index at a coordinate, in its two spellings. -/
private theorem ofFin_eq_ix1 {n : Nat} (k : Fin n) : Shape.Idx.ofFin k = ix1 k := by
  funext a; match a with | ⟨0, _⟩ => exact Fin.ext rfl

/-- The second result of a two-operand sort of rank-1 arrays reads the second operand at the sorted position. -/
private theorem sort2_snd_rank1 {n : Nat} {α β : Type} (cmp : α × β → α × β → BitVec 1)
    (x : (⟨1, ![n]⟩ : Shape).Idx → α) (y : (⟨1, ![n]⟩ : Shape).Idx → β) (t : Fin n) :
    (Host.sort2 ⟨1, ![n]⟩ 0 cmp x y).2 (ix1 t)
      = y (ix1 (sortedFrom (fun k k' => cmp (x (ix1 k), y (ix1 k)) (x (ix1 k'), y (ix1 k')) == 1#1) t)) := by
  unfold Host.sort2
  simp [ofFin_eq_ix1]

/-- The order in which the grid visits the samples. -/
def order (a1 : IVec S64 32) : Fin 64 → Fin 64 :=
  sortedFrom (fun k k' => comparator_i32_i32_d0 (kerClip a1 (ix1 k), iotaInDim S64 32 0 (ix1 k))
    (kerClip a1 (ix1 k'), iotaInDim S64 32 0 (ix1 k')) == 1#1)

theorem order_bijective (a1 : IVec S64 32) : Function.Bijective (order a1) :=
  ⟨sortedFrom_injective _, sortedFrom_surjective _⟩

/- The order table is the second result of the sort of the clipped slots with the positions, the sort left closed. -/
attribute [local irreducible] Host.sort2 in
set_option maxHeartbeats 50000 in
private theorem perm_chain (a1 : IVec S64 32) :
    kerPerm a1 = (Host.sort2 S64 0 comparator_i32_i32_d0 (kerClip a1) (iotaInDim S64 32 0)).2 := rfl

set_option maxHeartbeats 50000 in
theorem perm_word (a1 : IVec S64 32) (t : Fin 64) : kerPerm a1 (ix1 t) = BitVec.ofNat 32 (order a1 t).val := by
  rw [perm_chain, sort2_snd_rank1]
  rfl

/-- A vector as a column, at (t, 0): the vector at t. -/
private theorem col_apply {α : Type} (x : S64.Idx → α) (t : Fin 64) :
    broadcastInDim S64x1 ![0] bcast_S64_S64x1_0 x (ix2 t 0) = x (ix1 t) := by
  unfold broadcastInDim
  refine congrArg x (funext fun a => Fin.ext ?_)
  match a with
  | ⟨0, _⟩ =>
    rw [dif_neg (by decide +revert)]
    rfl

/-- The gather of single words of a rank-1 array at a column of start words, at t: the array at the start word of t,
    read signed and clamped into [0, 63]. -/
private theorem gather_word {α : Type} {w : Nat} (x : S64.Idx → α) (idx : IVec S64x1 w) (t k : Fin 64)
    (hk : min (idx (ix2 t 0)).toInt.toNat 63 = k.val) :
    Host.gather gather_S64_S64x1_S64_n_0_n_n_0_1_1 x idx (ix1 t) = x (ix1 k) := by
  unfold Host.gather
  refine congrArg x ?_
  funext a
  obtain rfl : a = 0 := Subsingleton.elim _ _
  refine Fin.ext ?_
  rw [← hk]
  show gather_S64_S64x1_S64_n_0_n_n_0_1_1.start (ix1 t) idx 0 + gather_S64_S64x1_S64_n_0_n_n_0_1_1.batchCoord (ix1 t) 0
    + gather_S64_S64x1_S64_n_0_n_n_0_1_1.offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S64_S64x1_S64_n_0_n_n_0_1_1.startIndexMap from List.mem_singleton.mpr rfl)]
  have hsi : gather_S64_S64x1_S64_n_0_n_n_0_1_1.siIdx (ix1 t)
      ⟨List.idxOf (0 : Fin 1) gather_S64_S64x1_S64_n_0_n_n_0_1_1.startIndexMap,
        List.idxOf_lt_length_iff.2 (List.mem_singleton.mpr rfl)⟩ = ix2 t 0 := by
    funext b; refine Fin.ext ?_
    match b with
    | ⟨0, _⟩ => rfl
    | ⟨1, _⟩ => rfl
  rw [hsi]
  rfl

/-- The wrap of a negative index word, at an index. -/
private theorem wrap_apply (p : IVec S64 32) (j : S64.Idx) :
    select (cmpi .slt p (broadcastInDim S64 ![] bcast_S_S64 (constantI S_ 32 0#32)))
      (addi p (broadcastInDim S64 ![] bcast_S_S64 (constantI S_ 32 64#32))) p j
      = Scalar.select (IntOp.cmpi .slt (p j) 0#32) (IntOp.addi (p j) 64#32) (p j) := rfl

/-- A word below 64 read signed and clamped into [0, 63] is itself. -/
private theorem clamp_word (k : Fin 64) : min (BitVec.ofNat 32 k.val).toInt.toNat 63 = k.val := by
  have hk := k.isLt
  have hn : (BitVec.ofNat 32 k.val).toNat = k.val := by
    rw [BitVec.toNat_ofNat]; omega
  rw [Cert.Ints.toInt_eq_toNat _ (by rw [hn]; omega), hn, Int.toNat_natCast]
  omega

/- The slot table is the gather of the clipped slots at the wrapped order words, spread to a column: the chain of the
   operations, the sort and the gather left closed. -/
attribute [local irreducible] Host.gather Host.sort2 in
set_option maxHeartbeats 50000 in
private theorem iis_chain (a1 : IVec S64 32) :
    kerIis a1 = Host.gather gather_S64_S64x1_S64_n_0_n_n_0_1_1 (kerClip a1)
      (broadcastInDim S64x1 ![0] bcast_S64_S64x1_0
        (select (cmpi .slt (kerPerm a1) (broadcastInDim S64 ![] bcast_S_S64 (constantI S_ 32 0#32)))
          (addi (kerPerm a1) (broadcastInDim S64 ![] bcast_S_S64 (constantI S_ 32 64#32))) (kerPerm a1))) := rfl

set_option maxHeartbeats 50000 in
theorem iis_word (a1 : IVec S64 32) (t : Fin 64) : kerIis a1 (ix1 t) = kerClip a1 (ix1 (order a1 t)) := by
  rw [iis_chain]
  refine gather_word _ _ t (order a1 t) ?_
  rw [col_apply, wrap_apply, perm_word]
  generalize order a1 t = k
  have hk := k.isLt
  rw [Cert.Ints.wrap_eq _ _ (by rw [BitVec.toNat_ofNat]; omega)]
  exact clamp_word k

attribute [irreducible] order

end Cert.Kernel.Hand

end
-- ==== Proof.OkOfPreW.lean ====
/-
  The pipeline's side condition on the prefetched tables holds of every input: a word of the order table is a sample
  below 64, a word of the slot table is a clipped slot below 24, so every table-indexed block lies inside its array.
-/
import proofs.«429784_j90872918049138_3_alg».proof.Proof.Gen.Kernel.Frame
import proofs.«429784_j90872918049138_3_alg».proof.Proof.KerHostW
import proofs.«429784_j90872918049138_3_alg».proof.Proof.KerTablesW

noncomputable section

namespace Cert.Kernel.Hand

open Cert.Kernel Cert.Kernel.Gen Idealize.ShloMosaic Idealize.ShloMosaic.TcCoe Idealize.SL.Sem Idealize.ShloMosaic.ValueIdx

variable {F : FTy → Type} [FloatOps F] (m : (ℓ : Loc nD τ sig) → Buf (Elt F) ℓ)

/-- Tables whose slot words are below 24 and whose order words are below 64 put every table-indexed block inside its
    array; the one half-word window takes every row of its slab. -/
theorem ok0_of_bounds (pf : pre0.Contents (Elt F)) (h0 : ∀ x, (pf 0 x).toNat < 24) (h1 : ∀ x, (pf 1 x).toNat < 64) :
    ok0 (F := F) pf := by
  refine ⟨fun i => ?_, fun i => ?_, fun i => ?_, fun i => ?_⟩
  · obtain ⟨w, hw, e⟩ : ∃ w : BitVec 32, w.toNat < 64 ∧
        cc0_transform_0 k0_off1_inb numel1_S1 pf i = ![w.toNat, 0, 0, 0] := ⟨_, h1 _, rfl⟩
    refine ⟨fun a => ?_, Or.inl rfl⟩
    rw [e]
    fin_cases a <;> simp [S1x1x1024x64, S64x2x1024x64] <;> omega
  · obtain ⟨w, hw, e⟩ : ∃ w : BitVec 32, w.toNat < 24 ∧
        cc0_transform_1 k0_off1_inb numel1_S1 pf i = ![w.toNat, 0, 0] := ⟨_, h0 _, rfl⟩
    refine ⟨fun a => ?_, Or.inr (Or.inr ⟨by decide, rfl, ?_, rfl⟩)⟩
    · rw [e]
      fin_cases a <;> simp [S1x2048x1024, S24x2048x1024] <;> omega
    · show cc0_transform_1 k0_off1_inb numel1_S1 pf i _ * _ = 0
      rw [e]
      exact Nat.zero_mul _
  · obtain ⟨w, hw, e⟩ : ∃ w : BitVec 32, w.toNat < 24 ∧
        cc0_transform_2 k0_off1_inb numel1_S1 pf i = ![w.toNat, 0, 0] := ⟨_, h0 _, rfl⟩
    refine ⟨fun a => ?_, Or.inl rfl⟩
    rw [e]
    fin_cases a <;> simp [S1x1024x2, S24x1024x2] <;> omega
  · obtain ⟨w, hw, e⟩ : ∃ w : BitVec 32, w.toNat < 64 ∧
        cc0_transform_3 k0_off1_inb numel1_S1 pf i = ![w.toNat, 0, 0] := ⟨_, h1 _, rfl⟩
    refine ⟨fun a => ?_, Or.inl rfl⟩
    rw [e]
    fin_cases a <;> simp [S1x1024x64, S64x1024x64] <;> omega

/-- A word of the slot table is a clipped slot: below 24. -/
theorem tbl_iis_lt (x : S64.Idx) : ((tbl m 0 : IVec S64 32) x).toNat < 24 := by
  obtain ⟨t, rfl⟩ : ∃ t, x = ix1 t := ⟨x 0, eq_ix1 x⟩
  have e : (tbl m 0 : IVec S64 32) = kerIis (m (((0 : Dev nD).tc : Thread nD τ).loc main_arg1)) := V_iis m 0
  rw [e, iis_word, clip_word]
  exact Cert.Ints.clip_lt _

/-- A word of the order table is a sample: below 64. -/
theorem tbl_perm_lt (x : S64.Idx) : ((tbl m 1 : IVec S64 32) x).toNat < 64 := by
  obtain ⟨t, rfl⟩ : ∃ t, x = ix1 t := ⟨x 0, eq_ix1 x⟩
  have e : (tbl m 1 : IVec S64 32) = kerPerm (m (((0 : Dev nD).tc : Thread nD τ).loc main_arg1)) := V_perm m 0
  have hk := (order (m (((0 : Dev nD).tc : Thread nD τ).loc main_arg1)) t).isLt
  rw [e, perm_word, BitVec.toNat_ofNat]
  omega

theorem ok : Ok m :=
  ok0_of_bounds (tbl m) (tbl_iis_lt m) (tbl_perm_lt m)

end Cert.Kernel.Hand

end
-- ==== Proof.Spec.lean ====
/-
  What both programs compute, as one function of the eight argument arrays over the extended reals.

  A sample b has a time slot s = ind[b] / 12 among 24. The edge list (edge_i[e], edge_j[e]), e < 32768, on 1024 nodes,
  with slot s's weights w[s, ·], gives a weighted adjacency A[i, j] = Σ { w[s, e] : edge e runs from i to j }, its
  column sums deg[j] = Σ { w[s, e] : edge e ends at j }, and the Laplacian L = diag(deg) − A. The reaction Laplacian
  takes edges from edge_i to edge_j with the reaction weights; the diffusion Laplacian takes them from edge_j to edge_i
  with the diffusion weights. With x = inputs[b, 0] (a 1024 × 64 matrix) the result's row b is
      tanh(L_react · x + bias_reaction[s] 1ᵀ) + (L_diff · x + bias_diffusion[s] 1ᵀ) + x.
-/
import Idealize.ShloMosaic.PureOps.Ideal
import Idealize.ShloMosaic.Lib.ValueIdx
import Mathlib.Algebra.BigOperators.Group.Finset.Basic

noncomputable section

namespace Cert.Spec

open Idealize.ShloMosaic Idealize.ShloMosaic.ValueIdx
open scoped BigOperators

/-- The time slot of a sample's index word: the word divided by twelve, among twenty-four slots. -/
def slot (v : BitVec 32) : Fin 24 := ⟨(v.toNat / 12) % 24, Nat.mod_lt _ (by decide)⟩

/-- A node word as one of the 1024 nodes. -/
def node (v : BitVec 32) : Fin 1024 := ⟨v.toNat % 1024, Nat.mod_lt _ (by decide)⟩

/-- The weighted adjacency of an edge list: entry (i, j) sums the weights of the edges from i to j. -/
def adj (src dst : Fin 32768 → Fin 1024) (w : Fin 32768 → EReal) (i j : Fin 1024) : EReal :=
  ∑ e ∈ Finset.univ.filter (fun e => src e = i ∧ dst e = j), w e

/-- Its column sums: entry j sums the weights of the edges that end at j. -/
def deg (dst : Fin 32768 → Fin 1024) (w : Fin 32768 → EReal) (j : Fin 1024) : EReal :=
  ∑ e ∈ Finset.univ.filter (fun e => dst e = j), w e

/-- The Laplacian diag(deg) − A at (i, j). -/
def lap (src dst : Fin 32768 → Fin 1024) (w : Fin 32768 → EReal) (i j : Fin 1024) : EReal :=
  (if i = j then deg dst w i else 0) - adj src dst w i j

/-- The three integer arguments are indices into the axes they index: a sample's word below 288 (so its slot is
    below 24), an edge's two words below 1024. (Unsigned: a word read signed in [0, n) is below n unsigned.) -/
structure InRange (ind : IVec ⟨1, ![64]⟩ 32) (ei ej : IVec ⟨1, ![32768]⟩ 32) : Prop where
  ind : ∀ b : Fin 64, (ind (ix1 b)).toNat < 288
  ei : ∀ e : Fin 32768, (ei (ix1 e)).toNat < 1024
  ej : ∀ e : Fin 32768, (ej (ix1 e)).toNat < 1024

section
variable (X : (⟨4, ![64, 2, 1024, 64]⟩ : Shape).Idx → EReal) (ind : IVec ⟨1, ![64]⟩ 32) (ei ej : IVec ⟨1, ![32768]⟩ 32)
  (wr wd : (⟨2, ![24, 32768]⟩ : Shape).Idx → EReal) (br bd : (⟨2, ![24, 1024]⟩ : Shape).Idx → EReal)

/-- Edge e's two ends. -/
def src (e : Fin 32768) : Fin 1024 := node (ei (ix1 e))
def dst (e : Fin 32768) : Fin 1024 := node (ej (ix1 e))

/-- The reaction Laplacian of slot s at (i, j), and the diffusion Laplacian (the edges reversed). -/
def lapR (s : Fin 24) (i j : Fin 1024) : EReal := lap (src ei) (dst ej) (fun e => wr (ix2 s e)) i j
def lapD (s : Fin 24) (i j : Fin 1024) : EReal := lap (dst ej) (src ei) (fun e => wd (ix2 s e)) i j

/-- The result at sample b, node w, feature l. -/
def outAt (b : Fin 64) (w : Fin 1024) (l : Fin 64) : EReal :=
  Ideal.tanh ((∑ v : Fin 1024, lapR ei ej wr (slot (ind (ix1 b))) w v * X (ix4 b 0 v l)) + br (ix2 (slot (ind (ix1 b))) w))
    + ((∑ v : Fin 1024, lapD ei ej wd (slot (ind (ix1 b))) w v * X (ix4 b 0 v l)) + bd (ix2 (slot (ind (ix1 b))) w))
    + X (ix4 b 0 w l)

/-- The result array. -/
def out : (⟨3, ![64, 1024, 64]⟩ : Shape).Idx → EReal := fun j => outAt X ind ei ej wr wd br bd (j 0) (j 1) (j 2)

theorem out_ix3 (b : Fin 64) (w : Fin 1024) (l : Fin 64) :
    out X ind ei ej wr wd br bd (ix3 b w l) = outAt X ind ei ej wr wd br bd b w l := rfl
end

/-! ## The three small laws that join either program's arrangement to the Laplacian -/

/-- Summing the adjacency's column j over all rows gives the column sum: every edge that ends at j starts somewhere. -/
theorem sum_adj_eq_deg (src dst : Fin 32768 → Fin 1024) (w : Fin 32768 → EReal) (j : Fin 1024) :
    ∑ i : Fin 1024, adj src dst w i j = deg dst w j := by
  unfold adj deg
  simp only [Finset.sum_filter]
  rw [Finset.sum_comm]
  refine Finset.sum_congr rfl fun e _ => ?_
  by_cases h : dst e = j
  · simp only [h, and_true, Finset.sum_ite_eq, Finset.mem_univ, if_true]
  · simp only [h, and_false, if_false, Finset.sum_const_zero]

/-- The column sums spread along rows and masked by the identity matrix, less the adjacency, is the Laplacian. -/
theorem mul_eye_sub (d a : EReal) (i j : Fin 1024) :
    d * (if i = j then (1 : EReal) else 0) - a = (if i = j then d else 0) - a := by
  split_ifs <;> simp

/-- The negated adjacency with the column sums added on the diagonal is the Laplacian. -/
theorem neg_add_diag (a d : EReal) : -a + d = d - a := by
  rw [sub_eq_add_neg, add_comm]

end Cert.Spec

end
-- ==== Proof.PreDecode.lean ====
/-
  The precondition read at the integer arguments: every sample's index word is in [0, 288) and every edge's two node
  words are in [0, 1024), signed; so each is below its bound unsigned.
-/
import proofs.«429784_j90872918049138_3_alg».proof.Defs
import proofs.«429784_j90872918049138_3_alg».proof.Proof.Gen.Pre_finite_inputs
import proofs.«429784_j90872918049138_3_alg».proof.Proof.Gen.KernelIdeal
import proofs.«429784_j90872918049138_3_alg».proof.Proof.Spec
import proofs.«429784_j90872918049138_3_alg».proof.Proof.Ints
import Idealize.ShloMosaic.Lib.ReduceAll

noncomputable section

namespace Cert.PreDecode

open Idealize.ShloMosaic Idealize.ShloMosaic.TcCoe Idealize.SL.Sem Cert.KernelIdeal

/-- Under the precondition the three integer arguments index inside their axes. -/
theorem inRange_of_pre (m : (ℓ : Loc nD τ sig) → Buf (Elt Ideal) ℓ)
    (h : Cert.Pre_KernelIdeal (hPre_finite_inputs := Cert.Pre_finite_inputs.Gen.facts) m) (c : Dev nD) :
    Cert.Spec.InRange (m ((c.tc : Thread nD τ).loc main_arg1)) (m ((c.tc : Thread nD τ).loc main_arg2))
      (m ((c.tc : Thread nD τ).loc main_arg3)) := by
  haveI : Subsingleton Cert.Pre_finite_inputs.S_.Idx := ⟨fun a b => funext fun d => d.elim0⟩
  have e := congrFun (h c) ValueIdx.ix0
  dsimp only [Cert.Pre_finite_inputs.fn, Cert.Pre_finite_inputs.fn_part1, Cert.Pre_finite_inputs.fn_part2] at e
  simp only [Idealize.ShloMosaic.andi, Cert.Ints.andi_eq_one] at e
  obtain ⟨⟨⟨⟨⟨⟨_, h26⟩, h30⟩, h34⟩, h38⟩, h42⟩, h46⟩ := e
  refine ⟨fun b => ?_, fun k => ?_, fun k => ?_⟩
  · have a0 := Host.reduce_andi_all _ _ _ _ _ h26 (ValueIdx.ix1 b)
    have a1 := Host.reduce_andi_all _ _ _ _ _ h30 (ValueIdx.ix1 b)
    dsimp only [Idealize.ShloMosaic.cmpi, broadcastInDim, constantI] at a0 a1
    exact Cert.Ints.toNat_lt_of_signed _ 288 (by decide) a0 a1
  · have a0 := Host.reduce_andi_all _ _ _ _ _ h34 (ValueIdx.ix1 k)
    have a1 := Host.reduce_andi_all _ _ _ _ _ h38 (ValueIdx.ix1 k)
    dsimp only [Idealize.ShloMosaic.cmpi, broadcastInDim, constantI] at a0 a1
    exact Cert.Ints.toNat_lt_of_signed _ 1024 (by decide) a0 a1
  · have a0 := Host.reduce_andi_all _ _ _ _ _ h42 (ValueIdx.ix1 k)
    have a1 := Host.reduce_andi_all _ _ _ _ _ h46 (ValueIdx.ix1 k)
    dsimp only [Idealize.ShloMosaic.cmpi, broadcastInDim, constantI] at a0 a1
    exact Cert.Ints.toNat_lt_of_signed _ 1024 (by decide) a0 a1

end Cert.PreDecode

end
-- ==== Proof.LibEdgeScatter.lean ====
/-
  The accumulating scatters both programs use, read at an index over the extended reals, for arbitrary sizes.
  An EDGE scatter adds, for every edge e and every slot t, update (t, e) into entry (t, i, j) of a [T, N, N] operand, where
  (i, j) are the two start words of e read signed; an update whose start words fall outside [0, N)² lands nowhere. A
  NODE scatter does the same into a [T, N] operand at the one start word of e. Each reads, at an index, as the operand's
  entry plus the sum of the updates whose start words are that index.
-/
import Idealize.ShloMosaic.PureOps.Ideal
import Idealize.ShloMosaic.PureOps.Contract
import Idealize.ShloMosaic.Lib.ValueIdx
import Mathlib.Algebra.BigOperators.Group.Finset.Basic
import Mathlib.Algebra.BigOperators.Fin

noncomputable section

open scoped BigOperators

namespace Cert.ScatterLib

open Idealize.ShloMosaic Idealize.ShloMosaic.ValueIdx

/-- The dimension numbers of the edge scatter: the slot axis a window axis, the two node axes inserted and indexed by
    the two columns of the [E, 2] start words. -/
abbrev edgeScatter (T N E : Nat)
    (wf : ScatterDims.WF ⟨3, ![T, N, N]⟩ ⟨2, ![E, 2]⟩ ⟨2, ![T, E]⟩ [0] [1, 2] [1, 2] 1) :
    ScatterDims ⟨3, ![T, N, N]⟩ ⟨2, ![E, 2]⟩ ⟨2, ![T, E]⟩ where
  updateWindowDims := [0]
  insertedWindowDims := [1, 2]
  scatterDimsToOperandDims := [1, 2]
  indexVectorDim := 1
  wf := wf

section Edge

variable {T N E w : Nat}
  (wf : ScatterDims.WF ⟨3, ![T, N, N]⟩ ⟨2, ![E, 2]⟩ ⟨2, ![T, E]⟩ [0] [1, 2] [1, 2] 1)
  (idx : IVec ⟨2, ![E, 2]⟩ w)

/-- On the slot axis the window of update (t', e) starts at 0 … -/
private theorem edgeScatter_start_zero (t' : Fin T) (e : Fin E) :
    (edgeScatter T N E wf).start (ix2 t' e) idx 0 = 0 := by
  unfold ScatterDims.start
  rw [dif_neg (show (0 : Fin 3) ∉ [(1 : Fin 3), 2] by decide)]

/-- … on the first node axis at the first start word of e, read signed … -/
private theorem edgeScatter_start_one (t' : Fin T) (e : Fin E) :
    (edgeScatter T N E wf).start (ix2 t' e) idx 1 = (idx (ix2 e 0)).toInt := by
  unfold ScatterDims.start
  have hm : (1 : Fin 3) ∈ (edgeScatter T N E wf).scatterDimsToOperandDims := by
    show (1 : Fin 3) ∈ [(1 : Fin 3), 2]
    decide
  rw [dif_pos hm]
  have hsi : (edgeScatter T N E wf).siIdx (ix2 t' e) ⟨List.idxOf (1 : Fin 3) (edgeScatter T N E wf).scatterDimsToOperandDims,
      List.idxOf_lt_length_iff.2 hm⟩ = ix2 e 0 := by
    funext b; refine Fin.ext ?_
    match b with
    | ⟨0, _⟩ => rfl
    | ⟨1, _⟩ => rfl
  rw [hsi]

/-- … and on the second node axis at the second start word of e, read signed. -/
private theorem edgeScatter_start_two (t' : Fin T) (e : Fin E) :
    (edgeScatter T N E wf).start (ix2 t' e) idx 2 = (idx (ix2 e 1)).toInt := by
  unfold ScatterDims.start
  have hm : (2 : Fin 3) ∈ (edgeScatter T N E wf).scatterDimsToOperandDims := by
    show (2 : Fin 3) ∈ [(1 : Fin 3), 2]
    decide
  rw [dif_pos hm]
  have hsi : (edgeScatter T N E wf).siIdx (ix2 t' e) ⟨List.idxOf (2 : Fin 3) (edgeScatter T N E wf).scatterDimsToOperandDims,
      List.idxOf_lt_length_iff.2 hm⟩ = ix2 e 1 := by
    funext b; refine Fin.ext ?_
    match b with
    | ⟨0, _⟩ => rfl
    | ⟨1, _⟩ => rfl
  rw [hsi]

/-- The window coordinate of update (t', e) is t' on the slot axis … -/
private theorem edgeScatter_window_zero (t' : Fin T) (e : Fin E) :
    (edgeScatter T N E wf).window (ix2 t' e) 0 = t'.val := by
  unfold ScatterDims.window
  have h0 : (0 : Fin 3) ∈ (edgeScatter T N E wf).sKept := by
    show (0 : Fin 3) ∈ (List.finRange 3).filter (· ∉ [(1 : Fin 3), 2])
    decide
  rw [dif_pos h0]
  rfl

/-- … and 0 on the two node axes. -/
private theorem edgeScatter_window_one (t' : Fin T) (e : Fin E) :
    (edgeScatter T N E wf).window (ix2 t' e) 1 = 0 := by
  unfold ScatterDims.window
  rw [dif_neg]
  show (1 : Fin 3) ∉ (List.finRange 3).filter (· ∉ [(1 : Fin 3), 2])
  decide

private theorem edgeScatter_window_two (t' : Fin T) (e : Fin E) :
    (edgeScatter T N E wf).window (ix2 t' e) 2 = 0 := by
  unfold ScatterDims.window
  rw [dif_neg]
  show (2 : Fin 3) ∉ (List.finRange 3).filter (· ∉ [(1 : Fin 3), 2])
  decide

/-- Update (t', e) lands at (t, i, j) exactly when t' = t and the two start words of e, read signed, are i and j. -/
private theorem edgeScatter_resultIdx_iff (t' : Fin T) (e : Fin E) (t : Fin T) (i j : Fin N) :
    (edgeScatter T N E wf).resultIdx? (ix2 t' e) idx = some (ix3 t i j)
      ↔ t' = t ∧ (idx (ix2 e 0)).toInt = (i.val : ℤ) ∧ (idx (ix2 e 1)).toInt = (j.val : ℤ) := by
  unfold ScatterDims.resultIdx?
  split
  · next h =>
    rw [Option.some.injEq]
    have h1 := h 1
    have h2 := h 2
    rw [edgeScatter_start_one, edgeScatter_window_one] at h1
    rw [edgeScatter_start_two, edgeScatter_window_two] at h2
    constructor
    · intro hf
      have e0 := congrArg (fun f => (f 0).val) hf
      have e1 := congrArg (fun f => (f 1).val) hf
      have e2 := congrArg (fun f => (f 2).val) hf
      simp only [edgeScatter_start_zero, edgeScatter_window_zero, edgeScatter_start_one, edgeScatter_window_one,
        edgeScatter_start_two, edgeScatter_window_two] at e0 e1 e2
      refine ⟨Fin.ext ?_, ?_, ?_⟩
      · have : ((ix3 t i j : (⟨3, ![T, N, N]⟩ : Shape).Idx) 0).val = t.val := rfl
        omega
      · have : ((ix3 t i j : (⟨3, ![T, N, N]⟩ : Shape).Idx) 1).val = i.val := rfl
        omega
      · have : ((ix3 t i j : (⟨3, ![T, N, N]⟩ : Shape).Idx) 2).val = j.val := rfl
        omega
    · rintro ⟨rfl, hi, hj⟩
      funext a
      refine Fin.ext ?_
      match a with
      | ⟨0, _⟩ =>
        show ((edgeScatter T N E wf).start (ix2 t' e) idx 0 + ((edgeScatter T N E wf).window (ix2 t' e) 0 : ℕ)).toNat = t'.val
        rw [edgeScatter_start_zero, edgeScatter_window_zero]
        omega
      | ⟨1, _⟩ =>
        show ((edgeScatter T N E wf).start (ix2 t' e) idx 1 + ((edgeScatter T N E wf).window (ix2 t' e) 1 : ℕ)).toNat = i.val
        rw [edgeScatter_start_one, edgeScatter_window_one]
        omega
      | ⟨2, _⟩ =>
        show ((edgeScatter T N E wf).start (ix2 t' e) idx 2 + ((edgeScatter T N E wf).window (ix2 t' e) 2 : ℕ)).toNat = j.val
        rw [edgeScatter_start_two, edgeScatter_window_two]
        omega
  · next h =>
    constructor
    · intro hf
      exact absurd hf (by simp)
    · rintro ⟨rfl, hi, hj⟩
      exfalso
      apply h
      intro a
      match a with
      | ⟨0, _⟩ =>
        show 0 ≤ (edgeScatter T N E wf).start (ix2 t' e) idx 0 + ((edgeScatter T N E wf).window (ix2 t' e) 0 : ℕ)
          ∧ (edgeScatter T N E wf).start (ix2 t' e) idx 0 + ((edgeScatter T N E wf).window (ix2 t' e) 0 : ℕ) < (T : ℤ)
        rw [edgeScatter_start_zero, edgeScatter_window_zero]
        have := t'.isLt
        omega
      | ⟨1, _⟩ =>
        show 0 ≤ (edgeScatter T N E wf).start (ix2 t' e) idx 1 + ((edgeScatter T N E wf).window (ix2 t' e) 1 : ℕ)
          ∧ (edgeScatter T N E wf).start (ix2 t' e) idx 1 + ((edgeScatter T N E wf).window (ix2 t' e) 1 : ℕ) < (N : ℤ)
        rw [edgeScatter_start_one, edgeScatter_window_one]
        have := i.isLt
        omega
      | ⟨2, _⟩ =>
        show 0 ≤ (edgeScatter T N E wf).start (ix2 t' e) idx 2 + ((edgeScatter T N E wf).window (ix2 t' e) 2 : ℕ)
          ∧ (edgeScatter T N E wf).start (ix2 t' e) idx 2 + ((edgeScatter T N E wf).window (ix2 t' e) 2 : ℕ) < (N : ℤ)
        rw [edgeScatter_start_two, edgeScatter_window_two]
        have := j.isLt
        omega

end Edge

/-- THE EDGE SCATTER AT (t, i, j): the operand's entry plus the sum of update (t, e) over the edges e whose two start
    words, read signed, are i and j. -/
theorem edgeScatterAdd_apply {T N E w : Nat}
    (wf : ScatterDims.WF ⟨3, ![T, N, N]⟩ ⟨2, ![E, 2]⟩ ⟨2, ![T, E]⟩ [0] [1, 2] [1, 2] 1)
    (idx : IVec ⟨2, ![E, 2]⟩ w) {φ : FTy} (x : FVec Ideal ⟨3, ![T, N, N]⟩ φ) (upd : FVec Ideal ⟨2, ![T, E]⟩ φ)
    (t : Fin T) (i j : Fin N) :
    Host.scatterAdd (F := Ideal) (edgeScatter T N E wf) x idx upd (ix3 t i j)
      = x (ix3 t i j) + ∑ e ∈ Finset.univ.filter (fun e : Fin E =>
          (idx (ix2 e 0)).toInt = (i.val : ℤ) ∧ (idx (ix2 e 1)).toInt = (j.val : ℤ)), upd (ix2 t e) := by
  show Ideal.hostScatterAdd (edgeScatter T N E wf) x idx upd (ix3 t i j) = _
  unfold Ideal.hostScatterAdd
  congr 1
  rw [Finset.sum_filter, sum_idx2, Finset.sum_filter]
  simp only [edgeScatter_resultIdx_iff]
  rw [Finset.sum_eq_single t]
  · refine Finset.sum_congr rfl fun e _ => ?_
    simp only [true_and]
  · intro t' _ ht'
    refine Finset.sum_eq_zero fun e _ => ?_
    rw [if_neg (fun hc => ht' hc.1)]
  · intro hc
    exact absurd (Finset.mem_univ t) hc

/-- The dimension numbers of the node scatter: the slot axis a window axis, the node axis inserted and indexed by the
    one column of the [E, 1] start words. -/
abbrev nodeScatter (T N E : Nat)
    (wf : ScatterDims.WF ⟨2, ![T, N]⟩ ⟨2, ![E, 1]⟩ ⟨2, ![T, E]⟩ [0] [1] [1] 1) :
    ScatterDims ⟨2, ![T, N]⟩ ⟨2, ![E, 1]⟩ ⟨2, ![T, E]⟩ where
  updateWindowDims := [0]
  insertedWindowDims := [1]
  scatterDimsToOperandDims := [1]
  indexVectorDim := 1
  wf := wf

section Node

variable {T N E w : Nat}
  (wf : ScatterDims.WF ⟨2, ![T, N]⟩ ⟨2, ![E, 1]⟩ ⟨2, ![T, E]⟩ [0] [1] [1] 1)
  (idx : IVec ⟨2, ![E, 1]⟩ w)

/-- On the slot axis the window of update (t', e) starts at 0 … -/
private theorem nodeScatter_start_zero (t' : Fin T) (e : Fin E) :
    (nodeScatter T N E wf).start (ix2 t' e) idx 0 = 0 := by
  unfold ScatterDims.start
  rw [dif_neg (show (0 : Fin 2) ∉ [(1 : Fin 2)] by decide)]

/-- … and on the node axis at the start word of e, read signed. -/
private theorem nodeScatter_start_one (t' : Fin T) (e : Fin E) :
    (nodeScatter T N E wf).start (ix2 t' e) idx 1 = (idx (ix2 e 0)).toInt := by
  unfold ScatterDims.start
  have hm : (1 : Fin 2) ∈ (nodeScatter T N E wf).scatterDimsToOperandDims := List.mem_singleton.mpr rfl
  rw [dif_pos hm]
  have hsi : (nodeScatter T N E wf).siIdx (ix2 t' e) ⟨List.idxOf (1 : Fin 2) (nodeScatter T N E wf).scatterDimsToOperandDims,
      List.idxOf_lt_length_iff.2 hm⟩ = ix2 e 0 := by
    funext b; refine Fin.ext ?_
    match b with
    | ⟨0, _⟩ => rfl
    | ⟨1, _⟩ => rfl
  rw [hsi]

/-- The window coordinate of update (t', e) is t' on the slot axis … -/
private theorem nodeScatter_window_zero (t' : Fin T) (e : Fin E) :
    (nodeScatter T N E wf).window (ix2 t' e) 0 = t'.val := by
  unfold ScatterDims.window
  have h0 : (0 : Fin 2) ∈ (nodeScatter T N E wf).sKept := by
    show (0 : Fin 2) ∈ (List.finRange 2).filter (· ∉ [(1 : Fin 2)])
    decide
  rw [dif_pos h0]
  rfl

/-- … and 0 on the node axis. -/
private theorem nodeScatter_window_one (t' : Fin T) (e : Fin E) :
    (nodeScatter T N E wf).window (ix2 t' e) 1 = 0 := by
  unfold ScatterDims.window
  rw [dif_neg]
  show (1 : Fin 2) ∉ (List.finRange 2).filter (· ∉ [(1 : Fin 2)])
  decide

/-- Update (t', e) lands at (t, n) exactly when t' = t and the start word of e, read signed, is n. -/
private theorem nodeScatter_resultIdx_iff (t' : Fin T) (e : Fin E) (t : Fin T) (n : Fin N) :
    (nodeScatter T N E wf).resultIdx? (ix2 t' e) idx = some (ix2 t n)
      ↔ t' = t ∧ (idx (ix2 e 0)).toInt = (n.val : ℤ) := by
  unfold ScatterDims.resultIdx?
  split
  · next h =>
    rw [Option.some.injEq]
    have h1 := h 1
    rw [nodeScatter_start_one, nodeScatter_window_one] at h1
    constructor
    · intro hf
      have e0 := congrArg (fun f => (f 0).val) hf
      have e1 := congrArg (fun f => (f 1).val) hf
      simp only [nodeScatter_start_zero, nodeScatter_window_zero, nodeScatter_start_one, nodeScatter_window_one] at e0 e1
      refine ⟨Fin.ext ?_, ?_⟩
      · have : ((ix2 t n : (⟨2, ![T, N]⟩ : Shape).Idx) 0).val = t.val := rfl
        omega
      · have : ((ix2 t n : (⟨2, ![T, N]⟩ : Shape).Idx) 1).val = n.val := rfl
        omega
    · rintro ⟨rfl, hn⟩
      funext a
      refine Fin.ext ?_
      match a with
      | ⟨0, _⟩ =>
        show ((nodeScatter T N E wf).start (ix2 t' e) idx 0 + ((nodeScatter T N E wf).window (ix2 t' e) 0 : ℕ)).toNat = t'.val
        rw [nodeScatter_start_zero, nodeScatter_window_zero]
        omega
      | ⟨1, _⟩ =>
        show ((nodeScatter T N E wf).start (ix2 t' e) idx 1 + ((nodeScatter T N E wf).window (ix2 t' e) 1 : ℕ)).toNat = n.val
        rw [nodeScatter_start_one, nodeScatter_window_one]
        omega
  · next h =>
    constructor
    · intro hf
      exact absurd hf (by simp)
    · rintro ⟨rfl, hn⟩
      exfalso
      apply h
      intro a
      match a with
      | ⟨0, _⟩ =>
        show 0 ≤ (nodeScatter T N E wf).start (ix2 t' e) idx 0 + ((nodeScatter T N E wf).window (ix2 t' e) 0 : ℕ)
          ∧ (nodeScatter T N E wf).start (ix2 t' e) idx 0 + ((nodeScatter T N E wf).window (ix2 t' e) 0 : ℕ) < (T : ℤ)
        rw [nodeScatter_start_zero, nodeScatter_window_zero]
        have := t'.isLt
        omega
      | ⟨1, _⟩ =>
        show 0 ≤ (nodeScatter T N E wf).start (ix2 t' e) idx 1 + ((nodeScatter T N E wf).window (ix2 t' e) 1 : ℕ)
          ∧ (nodeScatter T N E wf).start (ix2 t' e) idx 1 + ((nodeScatter T N E wf).window (ix2 t' e) 1 : ℕ) < (N : ℤ)
        rw [nodeScatter_start_one, nodeScatter_window_one]
        have := n.isLt
        omega

end Node

/-- THE NODE SCATTER AT (t, n): the operand's entry plus the sum of update (t, e) over the edges e whose start word,
    read signed, is n. -/
theorem nodeScatterAdd_apply {T N E w : Nat}
    (wf : ScatterDims.WF ⟨2, ![T, N]⟩ ⟨2, ![E, 1]⟩ ⟨2, ![T, E]⟩ [0] [1] [1] 1)
    (idx : IVec ⟨2, ![E, 1]⟩ w) {φ : FTy} (x : FVec Ideal ⟨2, ![T, N]⟩ φ) (upd : FVec Ideal ⟨2, ![T, E]⟩ φ)
    (t : Fin T) (n : Fin N) :
    Host.scatterAdd (F := Ideal) (nodeScatter T N E wf) x idx upd (ix2 t n)
      = x (ix2 t n) + ∑ e ∈ Finset.univ.filter (fun e : Fin E => (idx (ix2 e 0)).toInt = (n.val : ℤ)), upd (ix2 t e) := by
  show Ideal.hostScatterAdd (nodeScatter T N E wf) x idx upd (ix2 t n) = _
  unfold Ideal.hostScatterAdd
  congr 1
  rw [Finset.sum_filter, sum_idx2, Finset.sum_filter]
  simp only [nodeScatter_resultIdx_iff]
  rw [Finset.sum_eq_single t]
  · refine Finset.sum_congr rfl fun e _ => ?_
    simp only [true_and]
  · intro t' _ ht'
    refine Finset.sum_eq_zero fun e _ => ?_
    rw [if_neg (fun hc => ht' hc.1)]
  · intro hc
    exact absurd (Finset.mem_univ t) hc

end Cert.ScatterLib

end
-- ==== Proof.LibRowGatherScatter.lean ====
/-
  GENERAL LEMMAS: two indexed host operations, the broadcasts that feed them, and two small companions, each READ AT AN
  INDEX over the extended reals, for ARBITRARY extents N (table rows), E (edges) and D (features).

  * the row gather (`x[idx]` of an [N, D] table at a column [E, 1] of start words: `rowGather`, `rowGather_apply`):
    result (e, q) is the table at (the start word of edge e read signed and clamped into the rows [0, N − 1], q);
  * the accumulating row scatter (`segment_sum` / `.at[idx].add` of [E, D] updates into an [N, D] operand at a column
    [E, 1] of start words: `rowScatter`, `rowScatter_resultIdx_iff`, `rowScatterAdd_apply`): update (e, q') lands at
    (the start word of edge e read signed and NOT clamped, q'), or nowhere when that is no row; so result (d, q) is the
    operand's entry plus the sum over the edges whose word, read signed, is d of update (e, q);
  * a scalar, a vector as a column, a column over the features, a vector as a row and a row over the rows, each
    broadcast read at an index (`bcastScalar_apply` … `bcastRows_apply`);
  * jnp's index normalisation as a select (`wrap_select`: a negative word counts from the end) and the maximum with a
    broadcast zero (`reluOps_apply`).
  Nothing here mentions a program: the dimension-number records are built from a well-formedness fact the caller has.
-/
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

/-! ## The row gather -/

section Gather
variable {α : Type}

/-- The dimension numbers of a gather of whole rows of an [N, D] table at a column [E, 1] of start words:
    the row axis collapsed and indexed, the feature axis an offset axis. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, q): the table at the clamped signed start word of e, feature q. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGather N E D wf).start (ix2 e q) idx 0 + (rowGather N E D wf).batchCoord (ix2 e q) 0
      + (rowGather N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e q) idx 1 + (rowGather N E D wf).batchCoord (ix2 e q) 1
      + (rowGather N E D wf).offCoord (ix2 e q) 1 = q.val
    have h1 : (1 : Fin 2) ∉ (rowGather N E D wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same with the start word of e named: the form a caller uses when the start words are themselves computed. -/
theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  exact rowGather_apply hN wf x idx e q

end Gather

/-! ## The accumulating row scatter -/

section Scatter

/-- The dimension numbers of a scatter of whole rows [E, D] into an [N, D] operand at a column [E, 1] of start
    words: the feature axis a window axis, the row axis inserted and indexed. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

/-- On the row axis the window of update (e, q') starts at the start word of e, read signed … -/
theorem rowScatter_start_zero (e : Fin E) (q' : Fin D) :
    (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the feature axis at 0. -/
theorem rowScatter_start_one (e : Fin E) (q' : Fin D) :
    (rowScatter N E D wf).start (ix2 e q') idx 1 = 0 := by
  unfold ScatterDims.start
  rw [dif_neg (show (1 : Fin 2) ∉ [(0 : Fin 2)] by decide)]

/-- The window coordinate of update (e, q') is 0 on the row axis … -/
theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

/-- … and q' on the feature axis. -/
theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

/-- Update (e, q') lands at (d, q) exactly when the start word of e, read signed, is d and q' = q. -/
theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  unfold ScatterDims.resultIdx?
  split
  · next h =>
    rw [Option.some.injEq]
    have h0 := h 0
    have h1 := h 1
    rw [rowScatter_start_zero, rowScatter_window_zero] at h0
    constructor
    · intro hf
      have e0 := congrArg (fun f => (f 0).val) hf
      have e1 := congrArg (fun f => (f 1).val) hf
      simp only [rowScatter_start_zero, rowScatter_window_zero, rowScatter_start_one, rowScatter_window_one] at e0 e1
      refine ⟨?_, Fin.ext ?_⟩
      · have : ((ix2 d q : (⟨2, ![N, D]⟩ : Shape).Idx) 0).val = d.val := rfl
        omega
      · have : ((ix2 d q : (⟨2, ![N, D]⟩ : Shape).Idx) 1).val = q.val := rfl
        omega
    · rintro ⟨hd, rfl⟩
      funext a
      refine Fin.ext ?_
      match a with
      | ⟨0, _⟩ =>
        show ((rowScatter N E D wf).start (ix2 e q') idx 0 + ((rowScatter N E D wf).window (ix2 e q') 0 : ℕ)).toNat = d.val
        rw [rowScatter_start_zero, rowScatter_window_zero]
        omega
      | ⟨1, _⟩ =>
        show ((rowScatter N E D wf).start (ix2 e q') idx 1 + ((rowScatter N E D wf).window (ix2 e q') 1 : ℕ)).toNat = q'.val
        rw [rowScatter_start_one, rowScatter_window_one]
        omega
  · next h =>
    constructor
    · intro hf
      exact absurd hf (by simp)
    · rintro ⟨hd, rfl⟩
      exfalso
      apply h
      intro a
      match a with
      | ⟨0, _⟩ =>
        show 0 ≤ (rowScatter N E D wf).start (ix2 e q') idx 0 + ((rowScatter N E D wf).window (ix2 e q') 0 : ℕ)
          ∧ (rowScatter N E D wf).start (ix2 e q') idx 0 + ((rowScatter N E D wf).window (ix2 e q') 0 : ℕ) < (N : ℤ)
        rw [rowScatter_start_zero, rowScatter_window_zero]
        have := d.isLt
        omega
      | ⟨1, _⟩ =>
        show 0 ≤ (rowScatter N E D wf).start (ix2 e q') idx 1 + ((rowScatter N E D wf).window (ix2 e q') 1 : ℕ)
          ∧ (rowScatter N E D wf).start (ix2 e q') idx 1 + ((rowScatter N E D wf).window (ix2 e q') 1 : ℕ) < (D : ℤ)
        rw [rowScatter_start_one, rowScatter_window_one]
        have := q'.isLt
        omega

/-- THE ACCUMULATING ROW SCATTER AT (d, q): the operand's entry plus the sum, over the edges whose start word read
    signed is d, of update (e, q). The sum over the rank-2 update indices that land at (d, q) is split by
    coordinates; in the inner sum over features only q' = q survives. -/
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Scatter

/-! ## Broadcasts read at an index -/

section Broadcasts
variable {α : Type}

/-- A scalar spread over any shape reads the scalar everywhere. -/
theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

/-- A vector as a column [E, 1], at (e, 0): the vector at e. -/
theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

/-- A column [E, 1] spread over D features, at (e, q): the column at (e, 0). -/
theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) := by
  refine broadcastInDim_apply _ h v _ (ix2 e 0) fun a => ?_
  match a with
  | ⟨0, _⟩ =>
    show e.val = if E = 1 then 0 else e.val
    have := e.isLt
    split <;> omega
  | ⟨1, _⟩ =>
    show 0 = if 1 = 1 then 0 else q.val
    rfl

/-- A vector [D] as a row [1, D], at (0, q): the vector at q. -/
theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) := by
  refine broadcastInDim_apply _ h v _ (ix1 q) fun a => ?_
  match a with
  | ⟨0, _⟩ =>
    show q.val = if D = 1 then 0 else q.val
    have := q.isLt
    split <;> omega

/-- A row [1, D] spread over N rows, at (d, q): the row at (0, q). -/
theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) := by
  refine broadcastInDim_apply _ h v _ (ix2 0 q) fun a => ?_
  match a with
  | ⟨0, _⟩ =>
    show 0 = if 1 = 1 then 0 else d.val
    rfl
  | ⟨1, _⟩ =>
    show q.val = if D = 1 then 0 else q.val
    have := q.isLt
    split <;> omega

end Broadcasts

/-! ## The start word of a row lookup: a negative word counts from the end -/

/-- The select on "the word is negative" between the word plus the row count and the word itself. -/
theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

/-! ## The rectifier read at an index -/

/-- The maximum with a zero scalar spread over the shape is the maximum with 0, entry by entry. -/
theorem reluOps_apply {t : Shape} (hz : (⟨0, ![]⟩ : Shape).BroadcastsInDim t ![]) (x : FVec Ideal t .f32) (i : t.Idx) :
    maximumf x (broadcastInDim t ![] hz (constant (F := Ideal) ⟨0, ![]⟩ .f32 0x00000000#32)) i = max (x i) 0 := by
  rw [maximumf_apply, bcastScalar_apply, constant_apply, Ideal.ofBits_zero_f32]

end Cert.ReferenceIdeal.Hand

end
-- ==== Proof.KerTable.lean ====
/-
  The stacked tables the kernel's host operations build, read at an index: slot s's rows below 1024 hold the reaction
  Laplacian of slot s, rows from 1024 on the diffusion Laplacian (each the negated adjacency scatter with the column-sum
  scatter added on the diagonal); the bias stack holds the two bias tables side by side.
-/
import proofs.«429784_j90872918049138_3_alg».proof.Proof.KerTerm
import proofs.«429784_j90872918049138_3_alg».proof.Proof.Spec
import proofs.«429784_j90872918049138_3_alg».proof.Proof.LibEdgeScatter
import proofs.«429784_j90872918049138_3_alg».proof.Proof.Ints
import proofs.«429784_j90872918049138_3_alg».proof.Proof.LibRowGatherScatter
import Idealize.ShloMosaic.Lib.Pipeline.Value
import Idealize.ShloMosaic.Lib.IdealHost

noncomputable section

open scoped BigOperators

namespace Cert.KernelIdeal.Hand

open Cert.KernelIdeal Cert.KernelIdeal.Gen Idealize.ShloMosaic Idealize.ShloMosaic.ValueIdx
open Cert.ReferenceIdeal.Hand (bcastScalar_apply bcastCol_apply)

/-! ## Layout pieces read at an index -/

section Pieces
variable {α : Type}

/-- Two columns [E, 1] side by side, read in column 0: the first column. -/
private theorem cols_zero {E : Nat}
    (h : Shape.Concatenates [(⟨2, ![E, 1]⟩ : Shape), ⟨2, ![E, 1]⟩] ⟨2, ![E, 2]⟩ 1)
    (x y : (⟨2, ![E, 1]⟩ : Shape).Idx → α) (e : Fin E) :
    concatenate ⟨2, ![E, 2]⟩ 1 [⟨⟨2, ![E, 1]⟩, x⟩, ⟨⟨2, ![E, 1]⟩, y⟩] h (ix2 e 0) = x (ix2 e 0) := by
  refine concatenate_pair_apply_left 1 x y h (ix2 e 0) rfl (ix2 e 0) fun b => ?_
  match b with
  | ⟨0, _⟩ => rfl
  | ⟨1, _⟩ => rfl

/-- Two columns [E, 1] side by side, read in column 1: the second column. -/
private theorem cols_one {E : Nat}
    (h : Shape.Concatenates [(⟨2, ![E, 1]⟩ : Shape), ⟨2, ![E, 1]⟩] ⟨2, ![E, 2]⟩ 1)
    (x y : (⟨2, ![E, 1]⟩ : Shape).Idx → α) (e : Fin E) :
    concatenate ⟨2, ![E, 2]⟩ 1 [⟨⟨2, ![E, 1]⟩, x⟩, ⟨⟨2, ![E, 1]⟩, y⟩] h (ix2 e 1) = y (ix2 e 0) := by
  refine concatenate_pair_apply_right 1 x y h (ix2 e 1) rfl rfl (ix2 e 0) (fun b hb => ?_) rfl
  match b with
  | ⟨0, _⟩ => rfl
  | ⟨1, _⟩ => exact absurd rfl hb

/-- Two [T, N, M] tables stacked along the middle axis, read in a row below N: the first table. -/
private theorem rows_lo {T N K M : Nat}
    (h : Shape.Concatenates [(⟨3, ![T, N, M]⟩ : Shape), ⟨3, ![T, N, M]⟩] ⟨3, ![T, K, M]⟩ 1)
    (x y : (⟨3, ![T, N, M]⟩ : Shape).Idx → α) (t : Fin T) (i : Fin N) (hi : i.val < K) (j : Fin M) :
    concatenate ⟨3, ![T, K, M]⟩ 1 [⟨⟨3, ![T, N, M]⟩, x⟩, ⟨⟨3, ![T, N, M]⟩, y⟩] h (ix3 t ⟨i.val, hi⟩ j) = x (ix3 t i j) := by
  refine concatenate_pair_apply_left 1 x y h (ix3 t ⟨i.val, hi⟩ j) rfl (ix3 t i j) fun b => ?_
  match b with
  | ⟨0, _⟩ => rfl
  | ⟨1, _⟩ => rfl
  | ⟨2, _⟩ => rfl

/-- The same stack read in row N + i: the second table at row i. -/
private theorem rows_hi {T N K M : Nat}
    (h : Shape.Concatenates [(⟨3, ![T, N, M]⟩ : Shape), ⟨3, ![T, N, M]⟩] ⟨3, ![T, K, M]⟩ 1)
    (x y : (⟨3, ![T, N, M]⟩ : Shape).Idx → α) (t : Fin T) (i : Fin N) (hi : N + i.val < K) (j : Fin M) :
    concatenate ⟨3, ![T, K, M]⟩ 1 [⟨⟨3, ![T, N, M]⟩, x⟩, ⟨⟨3, ![T, N, M]⟩, y⟩] h (ix3 t ⟨N + i.val, hi⟩ j) = y (ix3 t i j) := by
  refine concatenate_pair_apply_right 1 x y h (ix3 t ⟨N + i.val, hi⟩ j) rfl rfl (ix3 t i j) (fun b hb => ?_)
    (Nat.add_comm _ _)
  match b with
  | ⟨0, _⟩ => rfl
  | ⟨1, _⟩ => exact absurd rfl hb
  | ⟨2, _⟩ => rfl

/-- Two [T, N, 1] tables side by side along the last axis, read at 0: the first. -/
private theorem last_zero {T N : Nat}
    (h : Shape.Concatenates [(⟨3, ![T, N, 1]⟩ : Shape), ⟨3, ![T, N, 1]⟩] ⟨3, ![T, N, 2]⟩ 2)
    (x y : (⟨3, ![T, N, 1]⟩ : Shape).Idx → α) (t : Fin T) (n : Fin N) :
    concatenate ⟨3, ![T, N, 2]⟩ 2 [⟨⟨3, ![T, N, 1]⟩, x⟩, ⟨⟨3, ![T, N, 1]⟩, y⟩] h (ix3 t n 0) = x (ix3 t n 0) := by
  refine concatenate_pair_apply_left 2 x y h (ix3 t n 0) rfl (ix3 t n 0) fun b => ?_
  match b with
  | ⟨0, _⟩ => rfl
  | ⟨1, _⟩ => rfl
  | ⟨2, _⟩ => rfl

/-- The same pair read at 1: the second. -/
private theorem last_one {T N : Nat}
    (h : Shape.Concatenates [(⟨3, ![T, N, 1]⟩ : Shape), ⟨3, ![T, N, 1]⟩] ⟨3, ![T, N, 2]⟩ 2)
    (x y : (⟨3, ![T, N, 1]⟩ : Shape).Idx → α) (t : Fin T) (n : Fin N) :
    concatenate ⟨3, ![T, N, 2]⟩ 2 [⟨⟨3, ![T, N, 1]⟩, x⟩, ⟨⟨3, ![T, N, 1]⟩, y⟩] h (ix3 t n 1) = y (ix3 t n 0) := by
  refine concatenate_pair_apply_right 2 x y h (ix3 t n 1) rfl rfl (ix3 t n 0) (fun b hb => ?_) rfl
  match b with
  | ⟨0, _⟩ => rfl
  | ⟨1, _⟩ => rfl
  | ⟨2, _⟩ => exact absurd rfl hb

/-- A [T, N] table given a trailing unit axis, at (t, n, 0): the table at (t, n). -/
private theorem bcastLast_apply {T N : Nat}
    (h : (⟨2, ![T, N]⟩ : Shape).BroadcastsInDim ⟨3, ![T, N, 1]⟩ ![0, 1])
    (v : (⟨2, ![T, N]⟩ : Shape).Idx → α) (t : Fin T) (n : Fin N) (z : Fin 1) :
    broadcastInDim ⟨3, ![T, N, 1]⟩ ![0, 1] h v (ix3 t n z) = v (ix2 t n) := by
  refine broadcastInDim_apply _ h v _ (ix2 t n) fun a => ?_
  match a with
  | ⟨0, _⟩ =>
    show t.val = if T = 1 then 0 else t.val
    have := t.isLt
    split <;> omega
  | ⟨1, _⟩ =>
    show n.val = if N = 1 then 0 else n.val
    have := n.isLt
    split <;> omega

end Pieces

/-! ## The index words -/

section Words

/-- A word below 1024, read signed, is the number of node i exactly when the node it names is i. -/
private theorem toInt_eq_iff_node (x : BitVec 32) (hx : x.toNat < 1024) (i : Fin 1024) :
    x.toInt = (i.val : ℤ) ↔ Cert.Spec.node x = i := by
  rw [Cert.Ints.toInt_eq_toNat x (Nat.lt_trans hx (by norm_num))]
  constructor
  · intro h
    apply Fin.ext
    show x.toNat % 1024 = i.val
    rw [Nat.mod_eq_of_lt hx]
    exact_mod_cast h
  · intro h
    have h' : x.toNat % 1024 = i.val := congrArg Fin.val h
    rw [Nat.mod_eq_of_lt hx] at h'
    exact_mod_cast h'

/-- The word of a number below 1024, read signed, is the number. -/
private theorem ofNat_toInt_eq_iff (n i : Fin 1024) : (BitVec.ofNat 32 n.val).toInt = (i.val : ℤ) ↔ n = i := by
  have hn : (BitVec.ofNat 32 n.val).toNat = n.val := by
    rw [BitVec.toNat_ofNat]
    exact Nat.mod_eq_of_lt (by have := n.isLt; omega)
  rw [Cert.Ints.toInt_eq_toNat _ (by rw [hn]; have := n.isLt; omega), hn]
  constructor
  · intro h
    exact Fin.ext (by exact_mod_cast h)
  · intro h
    rw [h]

/-- The column of wrapped words at (e, 0): a word below 2³¹ is not negative, so the wrap leaves it. -/
private theorem wrapCol_apply {E : Nat} {hb0 hb1 : (⟨0, ![]⟩ : Shape).BroadcastsInDim ⟨1, ![E]⟩ ![]}
    {hc : (⟨1, ![E]⟩ : Shape).BroadcastsInDim ⟨2, ![E, 1]⟩ ![0]}
    (a : IVec ⟨1, ![E]⟩ 32) (m : BitVec 32) (e : Fin E) (z : Fin 1) (ha : (a (ix1 e)).toNat < 2 ^ 31) :
    broadcastInDim ⟨2, ![E, 1]⟩ ![0] hc
      (select (cmpi .slt a (broadcastInDim ⟨1, ![E]⟩ ![] hb0 (constantI ⟨0, ![]⟩ 32 0#32)))
        (addi a (broadcastInDim ⟨1, ![E]⟩ ![] hb1 (constantI ⟨0, ![]⟩ 32 m))) a) (ix2 e z) = a (ix1 e) := by
  rw [bcastCol_apply, select_apply]
  show Scalar.select
      (IntOp.cmpi .slt (a (ix1 e)) (broadcastInDim ⟨1, ![E]⟩ ![] hb0 (constantI ⟨0, ![]⟩ 32 0#32) (ix1 e)))
      (IntOp.addi (a (ix1 e)) (broadcastInDim ⟨1, ![E]⟩ ![] hb1 (constantI ⟨0, ![]⟩ 32 m) (ix1 e))) (a (ix1 e)) = a (ix1 e)
  rw [bcastScalar_apply, bcastScalar_apply]
  exact Cert.Ints.wrap_eq _ _ ha

/-- The same for an edge list whose words are all below 1024. -/
private theorem wrapCol_lt {hb0 hb1 : (⟨0, ![]⟩ : Shape).BroadcastsInDim ⟨1, ![32768]⟩ ![]}
    {hc : (⟨1, ![32768]⟩ : Shape).BroadcastsInDim ⟨2, ![32768, 1]⟩ ![0]}
    (a : IVec ⟨1, ![32768]⟩ 32) (ha : ∀ e : Fin 32768, (a (ix1 e)).toNat < 1024) (m : BitVec 32) (e : Fin 32768) (z : Fin 1) :
    broadcastInDim ⟨2, ![32768, 1]⟩ ![0] hc
      (select (cmpi .slt a (broadcastInDim ⟨1, ![32768]⟩ ![] hb0 (constantI ⟨0, ![]⟩ 32 0#32)))
        (addi a (broadcastInDim ⟨1, ![32768]⟩ ![] hb1 (constantI ⟨0, ![]⟩ 32 m))) a) (ix2 e z) = a (ix1 e) :=
  wrapCol_apply a m e z (Nat.lt_trans (ha e) (by norm_num))

/-- The column of wrapped counting words at (n, 0): the word of n. -/
private theorem iotaCol_apply {hb0 hb1 : (⟨0, ![]⟩ : Shape).BroadcastsInDim ⟨1, ![1024]⟩ ![]}
    {hc : (⟨1, ![1024]⟩ : Shape).BroadcastsInDim ⟨2, ![1024, 1]⟩ ![0]} (m : BitVec 32) (n : Fin 1024) (z : Fin 1) :
    broadcastInDim ⟨2, ![1024, 1]⟩ ![0] hc
      (select (cmpi .slt (iotaInDim ⟨1, ![1024]⟩ 32 0) (broadcastInDim ⟨1, ![1024]⟩ ![] hb0 (constantI ⟨0, ![]⟩ 32 0#32)))
        (addi (iotaInDim ⟨1, ![1024]⟩ 32 0) (broadcastInDim ⟨1, ![1024]⟩ ![] hb1 (constantI ⟨0, ![]⟩ 32 m)))
        (iotaInDim ⟨1, ![1024]⟩ 32 0)) (ix2 n z) = BitVec.ofNat 32 n.val := by
  rw [wrapCol_apply]
  · rfl
  · show (BitVec.ofNat 32 n.val).toNat < 2 ^ 31
    rw [BitVec.toNat_ofNat]
    have := n.isLt
    have h2 : n.val % 2 ^ 32 = n.val := Nat.mod_eq_of_lt (by omega)
    omega

end Words

/-! ## The Laplacian from the three sums the scatters give -/

section Sums

/-- The scalar zero spread over a shape reads 0. -/
private theorem zeros_apply {t : Shape} (h : (⟨0, ![]⟩ : Shape).BroadcastsInDim t ![]) (j : t.Idx) :
    broadcastInDim t ![] h (constant (F := Ideal) ⟨0, ![]⟩ .f32 0x00000000#32) j = (0 : EReal) := by
  rw [bcastScalar_apply, constant_apply, Ideal.ofBits_zero_f32]

/-- The host's negation at an index. -/
private theorem hostNegf_apply {s : Shape} {φ : FTy} (a : FVec Ideal s φ) (i : s.Idx) : Host.negf a i = -(a i) := rfl

/-- The negated sum over the edges from i to j, plus the sum over the nodes n that are both i and j of the sum over the
    edges that end at n, is the Laplacian at (i, j): the second sum is the column sum of i when i = j and empty
    otherwise. -/
private theorem lap_of_sums (p q : IVec ⟨1, ![32768]⟩ 32) (hp : ∀ e : Fin 32768, (p (ix1 e)).toNat < 1024)
    (hq : ∀ e : Fin 32768, (q (ix1 e)).toNat < 1024) (wt : Fin 32768 → EReal) (i j : Fin 1024) :
    -(∑ e ∈ Finset.univ.filter (fun e : Fin 32768 =>
          (p (ix1 e)).toInt = (i.val : ℤ) ∧ (q (ix1 e)).toInt = (j.val : ℤ)), wt e)
      + ∑ n ∈ Finset.univ.filter (fun n : Fin 1024 =>
          (BitVec.ofNat 32 n.val).toInt = (i.val : ℤ) ∧ (BitVec.ofNat 32 n.val).toInt = (j.val : ℤ)),
          ∑ e ∈ Finset.univ.filter (fun e : Fin 32768 => (q (ix1 e)).toInt = (n.val : ℤ)), wt e
      = Cert.Spec.lap (fun e => Cert.Spec.node (p (ix1 e))) (fun e => Cert.Spec.node (q (ix1 e))) wt i j := by
  rw [Cert.Spec.neg_add_diag]
  unfold Cert.Spec.lap Cert.Spec.adj Cert.Spec.deg
  refine congrArg₂ (fun x y : EReal => x - y) ?_ ?_
  · by_cases hij : i = j
    · subst hij
      rw [if_pos rfl]
      have hf : (Finset.univ.filter fun n : Fin 1024 =>
          (BitVec.ofNat 32 n.val).toInt = (i.val : ℤ) ∧ (BitVec.ofNat 32 n.val).toInt = (i.val : ℤ)) = {i} := by
        ext n
        simp only [Finset.mem_filter, Finset.mem_univ, true_and, Finset.mem_singleton, and_self, ofNat_toInt_eq_iff]
      rw [hf, Finset.sum_singleton]
      refine Finset.sum_congr (Finset.filter_congr fun e _ => ?_) fun _ _ => rfl
      exact toInt_eq_iff_node _ (hq e) i
    · rw [if_neg hij]
      refine Finset.sum_eq_zero fun n hn => absurd ?_ hij
      have hn' := (Finset.mem_filter.mp hn).2
      exact ((ofNat_toInt_eq_iff n i).mp hn'.1).symm.trans ((ofNat_toInt_eq_iff n j).mp hn'.2)
  · refine Finset.sum_congr (Finset.filter_congr fun e _ => ?_) fun _ _ => rfl
    rw [toInt_eq_iff_node _ (hp e) i, toInt_eq_iff_node _ (hq e) j]

/-- The same with the two index sets and the column sums given up to pointwise agreement. -/
private theorem lap_of_sums' (P : Fin 32768 → Prop) [DecidablePred P] (Q : Fin 1024 → Prop) [DecidablePred Q]
    (C : Fin 1024 → EReal) (p q : IVec ⟨1, ![32768]⟩ 32) (hp : ∀ e : Fin 32768, (p (ix1 e)).toNat < 1024)
    (hq : ∀ e : Fin 32768, (q (ix1 e)).toNat < 1024) (wt : Fin 32768 → EReal) (i j : Fin 1024)
    (hP : ∀ e, P e ↔ ((p (ix1 e)).toInt = (i.val : ℤ) ∧ (q (ix1 e)).toInt = (j.val : ℤ)))
    (hQ : ∀ n : Fin 1024, Q n ↔ ((BitVec.ofNat 32 n.val).toInt = (i.val : ℤ) ∧ (BitVec.ofNat 32 n.val).toInt = (j.val : ℤ)))
    (hC : ∀ n : Fin 1024, C n = ∑ e ∈ Finset.univ.filter (fun e : Fin 32768 => (q (ix1 e)).toInt = (n.val : ℤ)), wt e) :
    -(∑ e ∈ Finset.univ.filter P, wt e) + ∑ n ∈ Finset.univ.filter Q, C n
      = Cert.Spec.lap (fun e => Cert.Spec.node (p (ix1 e))) (fun e => Cert.Spec.node (q (ix1 e))) wt i j := by
  rw [Finset.filter_congr (fun e _ => hP e), Finset.filter_congr (fun n _ => hQ n),
    Finset.sum_congr rfl (fun n _ => hC n)]
  exact lap_of_sums p q hp hq wt i j

end Sums

/-! ## The stacked Laplacian tables -/

section Lstack
variable (a2 a3 : IVec S32768 32) (a4 a5 : FVec Ideal S24x32768 .f32)

/-- The three scatters' dimension numbers are the edge scatter's and the node scatter's. -/
private theorem edge_dims : scatter_S24x1024x1024_S32768x2_S24x32768_0_12_12_1
    = Cert.ScatterLib.edgeScatter 24 1024 32768 scatter_S24x1024x1024_S32768x2_S24x32768_0_12_12_1_wf := rfl

private theorem node_dims : scatter_S24x1024_S32768x1_S24x32768_0_1_1_1
    = Cert.ScatterLib.nodeScatter 24 1024 32768 scatter_S24x1024_S32768x1_S24x32768_0_1_1_1_wf := rfl

private theorem diag_dims : scatter_S24x1024x1024_S1024x2_S24x1024_0_12_12_1
    = Cert.ScatterLib.edgeScatter 24 1024 1024 scatter_S24x1024x1024_S1024x2_S24x1024_0_12_12_1_wf := rfl

theorem lstack_lo (h2 : ∀ e : Fin 32768, (a2 (ix1 e)).toNat < 1024) (h3 : ∀ e : Fin 32768, (a3 (ix1 e)).toNat < 1024)
    (s : Fin 24) (w v : Fin 1024) :
    kerLstack (F := Ideal) a2 a3 a4 a5 (ix3 s ⟨w.val, by omega⟩ v) = Cert.Spec.lapR a2 a3 a4 s w v := by
  unfold kerLstack
  dsimp only
  rw [rows_lo, truncf_apply, diag_dims, edge_dims, node_dims, Cert.ScatterLib.edgeScatterAdd_apply, hostNegf_apply,
    Cert.ScatterLib.edgeScatterAdd_apply, zeros_apply, zero_add]
  refine lap_of_sums' _ _ _ a2 a3 h2 h3 (fun e => a4 (ix2 s e)) w v (fun e => ?_) (fun n => ?_) (fun n => ?_)
  · rw [cols_zero, cols_one, wrapCol_lt a2 h2, wrapCol_lt a3 h3]
  · rw [cols_zero, cols_one, iotaCol_apply]
  · rw [Cert.ScatterLib.nodeScatterAdd_apply, zeros_apply, zero_add]
    refine Finset.sum_congr (Finset.filter_congr fun e _ => ?_) fun _ _ => rfl
    rw [wrapCol_lt a3 h3]

theorem lstack_hi (h2 : ∀ e : Fin 32768, (a2 (ix1 e)).toNat < 1024) (h3 : ∀ e : Fin 32768, (a3 (ix1 e)).toNat < 1024)
    (s : Fin 24) (w v : Fin 1024) :
    kerLstack (F := Ideal) a2 a3 a4 a5 (ix3 s ⟨1024 + w.val, by omega⟩ v) = Cert.Spec.lapD a2 a3 a5 s w v := by
  unfold kerLstack
  dsimp only
  rw [rows_hi, truncf_apply, diag_dims, edge_dims, node_dims, Cert.ScatterLib.edgeScatterAdd_apply, hostNegf_apply,
    Cert.ScatterLib.edgeScatterAdd_apply, zeros_apply, zero_add]
  refine lap_of_sums' _ _ _ a3 a2 h3 h2 (fun e => a5 (ix2 s e)) w v (fun e => ?_) (fun n => ?_) (fun n => ?_)
  · rw [cols_zero, cols_one, wrapCol_lt a2 h2, wrapCol_lt a3 h3]
  · rw [cols_zero, cols_one, iotaCol_apply]
  · rw [Cert.ScatterLib.nodeScatterAdd_apply, zeros_apply, zero_add]
    refine Finset.sum_congr (Finset.filter_congr fun e _ => ?_) fun _ _ => rfl
    rw [wrapCol_lt a2 h2]

end Lstack

section Bias
variable (a6 a7 : FVec Ideal S24x1024 .f32)

theorem bias_zero (s : Fin 24) (w : Fin 1024) : kerBias (F := Ideal) a6 a7 (ix3 s w 0) = a6 (ix2 s w) := by
  unfold kerBias
  dsimp only
  rw [last_zero, bcastLast_apply]

theorem bias_one (s : Fin 24) (w : Fin 1024) : kerBias (F := Ideal) a6 a7 (ix3 s w 1) = a7 (ix2 s w) := by
  unfold kerBias
  dsimp only
  rw [last_one, bcastLast_apply]

end Bias

end Cert.KernelIdeal.Hand

end
-- ==== Proof.KerBody.lean ====
/-
  The kernel body's one store, read at an index over the extended reals: with x the sample's 1024 × 64 block, T the slot's
  stacked 2048 × 1024 table and β its 1024 × 2 bias block, entry (w, l) of the stored block is
      tanh(Σ_v T[w, v] x[v, l] + β[w, 0]) + (Σ_v T[1024 + w, v] x[v, l] + β[w, 1]) + x[w, l].
-/
import proofs.«429784_j90872918049138_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-! ## The product's index maps, axis by axis -/

/-- The product's left operand is read at the result's row … -/
private theorem dot_lhs_0 (j : S2048x64.Idx) (k : dot_S2048x1024_S1024x64_S2048x64_1_0_0_1_n_n.contr.Idx) :
    (dot_S2048x1024_S1024x64_S2048x64_1_0_0_1_n_n.lhsIdx j k 0 : ℕ) = j 0 := by
  simp [DotDims.lhsIdx, dot_S2048x1024_S1024x64_S2048x64_1_0_0_1_n_n]; rfl
/-- … and at the contracted coordinate; -/
private theorem dot_lhs_1 (j : S2048x64.Idx) (k : dot_S2048x1024_S1024x64_S2048x64_1_0_0_1_n_n.contr.Idx) :
    (dot_S2048x1024_S1024x64_S2048x64_1_0_0_1_n_n.lhsIdx j k 1 : ℕ) = k ⟨0, by decide⟩ := by
  simp [DotDims.lhsIdx, dot_S2048x1024_S1024x64_S2048x64_1_0_0_1_n_n]; rfl
/-- the right operand at the contracted coordinate … -/
private theorem dot_rhs_0 (j : S2048x64.Idx) (k : dot_S2048x1024_S1024x64_S2048x64_1_0_0_1_n_n.contr.Idx) :
    (dot_S2048x1024_S1024x64_S2048x64_1_0_0_1_n_n.rhsIdx j k 0 : ℕ) = k ⟨0, by decide⟩ := by
  simp [DotDims.rhsIdx, dot_S2048x1024_S1024x64_S2048x64_1_0_0_1_n_n]; rfl
/-- … and at the result's column. -/
private theorem dot_rhs_1 (j : S2048x64.Idx) (k : dot_S2048x1024_S1024x64_S2048x64_1_0_0_1_n_n.contr.Idx) :
    (dot_S2048x1024_S1024x64_S2048x64_1_0_0_1_n_n.rhsIdx j k 1 : ℕ) = j 1 := by
  simp [DotDims.rhsIdx, dot_S2048x1024_S1024x64_S2048x64_1_0_0_1_n_n]; rfl

/-- The 2048 × 1024 by 1024 × 64 product into a zero accumulator, at (r, c): Σ_v A[r, v] B[v, c]. -/
private theorem mm_apply (A : FVec Ideal S2048x1024 .bf16) (B : FVec Ideal S1024x64 .bf16) (r : Fin 2048) (c : Fin 64) :
    FloatOps.matmul dot_S2048x1024_S1024x64_S2048x64_1_0_0_1_n_n none A B (constant (F := Ideal) S2048x64 .f32 0x00000000#32) (ix2 r c)
      = ∑ v : Fin 1024, A (ix2 r v) * B (ix2 v c) := by
  rw [Ideal.matmul_constant_zero_apply,
    ← Equiv.sum_comp (contrEquiv1 dot_S2048x1024_S1024x64_S2048x64_1_0_0_1_n_n 1024 rfl rfl).symm]
  refine Finset.sum_congr rfl fun v _ => ?_
  have cv := contrEquiv1_symm_val dot_S2048x1024_S1024x64_S2048x64_1_0_0_1_n_n 1024 rfl rfl v
  have hl : dot_S2048x1024_S1024x64_S2048x64_1_0_0_1_n_n.lhsIdx (ix2 r c)
      ((contrEquiv1 dot_S2048x1024_S1024x64_S2048x64_1_0_0_1_n_n 1024 rfl rfl).symm v) = ix2 r v := by
    funext ax; apply Fin.ext
    match ax with
    | ⟨0, _⟩ => exact dot_lhs_0 _ _
    | ⟨1, _⟩ => exact (dot_lhs_1 _ _).trans cv
  have hr : dot_S2048x1024_S1024x64_S2048x64_1_0_0_1_n_n.rhsIdx (ix2 r c)
      ((contrEquiv1 dot_S2048x1024_S1024x64_S2048x64_1_0_0_1_n_n 1024 rfl rfl).symm v) = ix2 v c := by
    funext ax; apply Fin.ext
    match ax with
    | ⟨0, _⟩ => exact (dot_rhs_0 _ _).trans cv
    | ⟨1, _⟩ => exact dot_rhs_1 _ _
  rw [hl, hr]

/-! ## The layout operations at explicit coordinates -/

/-- The sample's block with its two unit axes dropped, at (a, b): the block at (0, 0, a, b). -/
private theorem x_apply (v0 : Vec Ideal S1x1x1024x64 .f32) (a : Fin 1024) (b : Fin 64) :
    shapeCast S1024x64 v0 shapeCasts_S1x1x1024x64_S1024x64 (ix2 a b) = v0 (ix4 0 0 a b) :=
  shapeCast_apply v0 _ _ _ (by
    rw [Shape.rowMajor_val_four, Shape.rowMajor_val_two]
    show ((0 * 1 + 0) * 1024 + a.val) * 64 + b.val = a.val * 64 + b.val
    simp only [Nat.zero_mul, Nat.zero_add])

/-- A column broadcast over 64 columns, at (w, l): the column at (w, 0). -/
private theorem bcast_col_apply (Y : FVec Ideal S1024x1 .f32) (w : Fin 1024) (l : Fin 64) :
    broadcastTo S1024x64 Y broadcasts_S1024x1_S1024x64 (ix2 w l) = Y (ix2 w (0 : Fin 1)) := by
  refine broadcastTo_apply Y _ (ix2 w l) (ix2 w (0 : Fin 1)) fun ax => ?_
  match ax with
  | ⟨0, _⟩ => rfl
  | ⟨1, _⟩ => rfl

/-- The first bias column, broadcast, at (w, l): the bias block at (0, w, 0). -/
private theorem bias0_apply (v6 : Vec Ideal S1x1024x2 .f32) (w : Fin 1024) (l : Fin 64) :
    broadcastTo S1024x64
        (extractStridedSlice S1024x1 ![0, 0] (shapeCast S1024x2 v6 shapeCasts_S1x1024x2_S1024x2) slices_S1024x2_o0_0_S1024x1)
        broadcasts_S1024x1_S1024x64 (ix2 w l)
      = v6 (ix3 0 w 0) :=
  (bcast_col_apply _ w l).trans <|
    (slice2_axis1_apply 0 _ slices_S1024x2_o0_0_S1024x1 w (0 : Fin 1) (0 : Fin 2) rfl).trans <|
      shapeCast_1ab_ab_apply v6 _ w 0

/-- The second bias column, broadcast, at (w, l): the bias block at (0, w, 1). -/
private theorem bias1_apply (v6 : Vec Ideal S1x1024x2 .f32) (w : Fin 1024) (l : Fin 64) :
    broadcastTo S1024x64
        (extractStridedSlice S1024x1 ![0, 1] (shapeCast S1024x2 v6 shapeCasts_S1x1024x2_S1024x2) slices_S1024x2_o0_1_S1024x1)
        broadcasts_S1024x1_S1024x64 (ix2 w l)
      = v6 (ix3 0 w 1) :=
  (bcast_col_apply _ w l).trans <|
    (slice2_axis1_apply 1 _ slices_S1024x2_o0_1_S1024x1 w (0 : Fin 1) (1 : Fin 2) rfl).trans <|
      shapeCast_1ab_ab_apply v6 _ w 1

/-- The stacked product at (r, l): Σ_v T[r, v] x[v, l]. -/
private theorem prod_apply (v0 : Vec Ideal S1x1x1024x64 .f32) (v3 : Vec Ideal S1x2048x1024 .bf16) (r : Fin 2048) (l : Fin 64) :
    matmul (F := Ideal) (φ₁ := .bf16) (φ₂ := .bf16) dot_S2048x1024_S1024x64_S2048x64_1_0_0_1_n_n none
        (shapeCast S2048x1024 v3 shapeCasts_S1x2048x1024_S2048x1024)
        (truncf .bf16 (shapeCast S1024x64 v0 shapeCasts_S1x1x1024x64_S1024x64) bitsLt_bf16_f32)
        (constant S2048x64 .f32 0x00000000#32) (ix2 r l)
      = ∑ v : Fin 1024, (v3 (ix3 0 r v) : EReal) * v0 (ix4 0 0 v l) := by
  refine (mm_apply _ _ r l).trans (Finset.sum_congr rfl fun v _ => ?_)
  have hA : (shapeCast S2048x1024 v3 shapeCasts_S1x2048x1024_S2048x1024 (ix2 r v) : EReal) = v3 (ix3 0 r v) :=
    shapeCast_1ab_ab_apply v3 _ r v
  have hB : ((truncf .bf16 (shapeCast S1024x64 v0 shapeCasts_S1x1x1024x64_S1024x64 : FVec Ideal S1024x64 .f32) bitsLt_bf16_f32
      : FVec Ideal S1024x64 .bf16) (ix2 v l) : EReal) = v0 (ix4 0 0 v l) :=
    (truncf_apply (φ := .f32) (ψ := .bf16) _ bitsLt_bf16_f32 (ix2 v l)).trans (x_apply v0 v l)
  exact congrArg₂ (· * ·) hA hB

/-- Its first 1024 rows at (w, l): row w of the stacked product. -/
private theorem prod_lo_apply (v0 : Vec Ideal S1x1x1024x64 .f32) (v3 : Vec Ideal S1x2048x1024 .bf16) (w : Fin 1024) (l : Fin 64) :
    extractStridedSlice S1024x64 ![0, 0]
        (matmul (F := Ideal) (φ₁ := .bf16) (φ₂ := .bf16) dot_S2048x1024_S1024x64_S2048x64_1_0_0_1_n_n none
          (shapeCast S2048x1024 v3 shapeCasts_S1x2048x1024_S2048x1024)
          (truncf .bf16 (shapeCast S1024x64 v0 shapeCasts_S1x1x1024x64_S1024x64) bitsLt_bf16_f32)
          (constant S2048x64 .f32 0x00000000#32))
        slices_S2048x64_o0_0_S1024x64 (ix2 w l)
      = ∑ v : Fin 1024, (v3 (ix3 0 ⟨w.val, by omega⟩ v) : EReal) * v0 (ix4 0 0 v l) :=
  (slice2_axis0_apply 0 _ slices_S2048x64_o0_0_S1024x64 w l ⟨w.val, by omega⟩ (Nat.zero_add _).symm).trans
    (prod_apply v0 v3 _ l)

/-- Its last 1024 rows at (w, l): row 1024 + w of the stacked product. -/
private theorem prod_hi_apply (v0 : Vec Ideal S1x1x1024x64 .f32) (v3 : Vec Ideal S1x2048x1024 .bf16) (w : Fin 1024) (l : Fin 64) :
    extractStridedSlice S1024x64 ![1024, 0]
        (matmul (F := Ideal) (φ₁ := .bf16) (φ₂ := .bf16) dot_S2048x1024_S1024x64_S2048x64_1_0_0_1_n_n none
          (shapeCast S2048x1024 v3 shapeCasts_S1x2048x1024_S2048x1024)
          (truncf .bf16 (shapeCast S1024x64 v0 shapeCasts_S1x1x1024x64_S1024x64) bitsLt_bf16_f32)
          (constant S2048x64 .f32 0x00000000#32))
        slices_S2048x64_o1024_0_S1024x64 (ix2 w l)
      = ∑ v : Fin 1024, (v3 (ix3 0 ⟨1024 + w.val, by omega⟩ v) : EReal) * v0 (ix4 0 0 v l) :=
  (slice2_axis0_apply 1024 _ slices_S2048x64_o1024_0_S1024x64 w l ⟨1024 + w.val, by omega⟩ rfl).trans
    (prod_apply v0 v3 _ l)

/-- The hyperbolic tangent of a block at an index is that of the element. -/
private theorem tanh_apply {s : Shape} {φ : FTy} (a : FVec Ideal s φ) (i : s.Idx) : tanh a i = Ideal.tanh (a i) := rfl

/-! ## The payload at an index -/

theorem pay_apply (v0 : Vec Ideal S1x1x1024x64 .f32) (v3 : Vec Ideal S1x2048x1024 .bf16) (v6 : Vec Ideal S1x1024x2 .f32)
    (w : Fin 1024) (l : Fin 64) :
    k0_pay1 (F := Ideal) v0 v3 v6 (ix3 0 w l)
      = Ideal.tanh ((∑ v : Fin 1024, (v3 (ix3 0 ⟨w.val, by omega⟩ v) : EReal) * v0 (ix4 0 0 v l)) + v6 (ix3 0 w 0))
        + ((∑ v : Fin 1024, (v3 (ix3 0 ⟨1024 + w.val, by omega⟩ v) : EReal) * v0 (ix4 0 0 v l)) + v6 (ix3 0 w 1))
        + v0 (ix4 0 0 w l) := by
  unfold k0_pay1
  refine (shapeCast_ab_1ab_apply _ _ 0 w l).trans ?_
  refine (addf_apply _ _ _).trans ?_
  refine congrArg₂ (· + ·) ?_ (x_apply v0 w l)
  refine (addf_apply _ _ _).trans ?_
  refine congrArg₂ (· + ·) ?_ ?_
  · refine (tanh_apply _ _).trans (congrArg Ideal.tanh ?_)
    refine (addf_apply _ _ _).trans ?_
    exact congrArg₂ (· + ·) (prod_lo_apply v0 v3 w l) (bias0_apply v6 w l)
  · refine (addf_apply _ _ _).trans ?_
    exact congrArg₂ (· + ·) (prod_hi_apply v0 v3 w l) (bias1_apply v6 w l)

end Cert.KernelIdeal.Hand

end
-- ==== Proof.KerIndex.lean ====
/-
  The four windows' index maps at a grid point, for any contents of the two prefetched tables: window 0 and the output
  window 3 sit at block (order-table word of the point, 0, …), windows 1 and 2 at block (slot-table word of the point, 0, 0).
-/
import proofs.«429784_j90872918049138_3_alg».proof.Defs
import proofs.«429784_j90872918049138_3_alg».proof.Proof.Gen.KernelIdeal.Frame
import Idealize.ShloMosaic.Lib.Pipeline.Value
import Idealize.ShloMosaic.Lib.ValueIdx

noncomputable section

set_option maxRecDepth 16384

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

/-! ## The windows' index maps, the tables' contents a variable -/

/-- The one index of the unit rectangle at offset n of a 64-word table is n. -/
theorem point_idx (n : Nat) (hn : n < 64) (inb : ∀ a, (![n] : Fin 1 → Nat) a + S1.size a ≤ S64.size a) (h1 : 0 < S1.numel) :
    (Rect.unit (s := S64) ![n] S1.size inb).emb (Shape.Idx.first h1) = ix1 ⟨n, hn⟩ := by
  funext k
  refine Fin.ext ?_
  rw [Rect.emb_apply]
  match k with
  | ⟨0, _⟩ => show n + 1 * 0 = n; omega

theorem coord_toNat (i : grid0.Coords) : (Scalar.indexCast (BitVec.ofNat 32 (i 0).val)).toNat = (i 0).val := by
  have h := (i 0).isLt
  have hb : grid0.bound 0 = 64 := rfl
  show (BitVec.ofNat 32 (i 0).val).toNat = (i 0).val
  rw [BitVec.toNat_ofNat]
  omega

/-- The table word an index map reads at a grid point is the table at that point. -/
theorem at_point0 (pf : pre0.Contents (Elt Ideal)) (i : grid0.Coords) :
    pf.at 0 (Rect.unit (s := S64) ![(Scalar.indexCast (BitVec.ofNat 32 (i 0).val)).toNat] S1.size (k0_off1_inb i)) numel1_S1
      = (pf 0 : IVec S64 32) (ix1 (i 0)) := by
  show (pf 0 : IVec S64 32) _ = _
  refine congrArg (pf 0 : IVec S64 32) ?_
  refine (point_idx _ (by rw [coord_toNat]; exact (i 0).isLt) _ _).trans ?_
  refine congrArg ix1 (Fin.ext ?_)
  exact coord_toNat i

theorem at_point1 (pf : pre0.Contents (Elt Ideal)) (i : grid0.Coords) :
    pf.at 1 (Rect.unit (s := S64) ![(Scalar.indexCast (BitVec.ofNat 32 (i 0).val)).toNat] S1.size (k0_off1_inb i)) numel1_S1
      = (pf 1 : IVec S64 32) (ix1 (i 0)) := by
  show (pf 1 : IVec S64 32) _ = _
  refine congrArg (pf 1 : IVec S64 32) ?_
  refine (point_idx _ (by rw [coord_toNat]; exact (i 0).isLt) _ _).trans ?_
  refine congrArg ix1 (Fin.ext ?_)
  exact coord_toNat i

theorem transform0_eq (pf : pre0.Contents (Elt Ideal)) (i : grid0.Coords) :
    cc0_transform_0 k0_off1_inb numel1_S1 pf i = ![((pf 1 : IVec S64 32) (ix1 (i 0))).toNat, 0, 0, 0] := by
  unfold cc0_transform_0
  dsimp only
  rw [at_point1]
  rfl

theorem transform1_eq (pf : pre0.Contents (Elt Ideal)) (i : grid0.Coords) :
    cc0_transform_1 k0_off1_inb numel1_S1 pf i = ![((pf 0 : IVec S64 32) (ix1 (i 0))).toNat, 0, 0] := by
  unfold cc0_transform_1
  dsimp only
  rw [at_point0]
  rfl

theorem transform2_eq (pf : pre0.Contents (Elt Ideal)) (i : grid0.Coords) :
    cc0_transform_2 k0_off1_inb numel1_S1 pf i = ![((pf 0 : IVec S64 32) (ix1 (i 0))).toNat, 0, 0] := by
  unfold cc0_transform_2
  dsimp only
  rw [at_point0]
  rfl

theorem transform3_eq (pf : pre0.Contents (Elt Ideal)) (i : grid0.Coords) :
    cc0_transform_3 k0_off1_inb numel1_S1 pf i = ![((pf 1 : IVec S64 32) (ix1 (i 0))).toNat, 0, 0] := by
  unfold cc0_transform_3
  dsimp only
  rw [at_point1]
  rfl

theorem index0 (a : (pcfg0 (F := Ideal)).Adm) (t : Fin (cfg0 a).N) :
    ((cfg0 a).win 0).index t = cc0_transform_0 k0_off1_inb numel1_S1 a.1 (grid0.coords t) := rfl
theorem index1 (a : (pcfg0 (F := Ideal)).Adm) (t : Fin (cfg0 a).N) :
    ((cfg0 a).win 1).index t = cc0_transform_1 k0_off1_inb numel1_S1 a.1 (grid0.coords t) := rfl
theorem index2 (a : (pcfg0 (F := Ideal)).Adm) (t : Fin (cfg0 a).N) :
    ((cfg0 a).win 2).index t = cc0_transform_2 k0_off1_inb numel1_S1 a.1 (grid0.coords t) := rfl
theorem index3 (a : (pcfg0 (F := Ideal)).Adm) (t : Fin (cfg0 a).N) :
    ((cfg0 a).win 3).index t = cc0_transform_3 k0_off1_inb numel1_S1 a.1 (grid0.coords t) := rfl

end Cert.KernelIdeal.Hand

end
-- ==== Proof.KerCover.lean ====
/-
  The output window's blocks cover the result array: when the order table is a bijection of the 64 grid points onto the
  64 samples, consecutive points write different blocks (so every point writes its block back), and every row of the
  result is the block of the one point the bijection sends to it.
-/
import proofs.«429784_j90872918049138_3_alg».proof.Defs
import proofs.«429784_j90872918049138_3_alg».proof.Proof.Gen.KernelIdeal.Frame
import proofs.«429784_j90872918049138_3_alg».proof.Proof.KerIndex
import Idealize.ShloMosaic.Lib.Pipeline.Value
import Idealize.ShloMosaic.Lib.ValueIdx

noncomputable section

set_option maxRecDepth 16384

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

/-- The grid's one coordinate at point t is t. -/
private theorem coords_val (t : Fin grid0.N) : (grid0.coords t 0).val = t.val := by
  have ht : t.val < 64 := t.isLt
  show t.val / grid0.stride 0 % grid0.bound 0 = t.val
  have hs : grid0.stride 0 = 1 := by decide
  have hb : grid0.bound 0 = 64 := rfl
  rw [hs, hb, Nat.div_one, Nat.mod_eq_of_lt ht]

/-- The output window's block index at point s is (σ s, 0, 0). -/
private theorem index3_val (a : (pcfg0 (F := Ideal)).Adm) (σ : Fin 64 → Fin 64)
    (hp : ∀ t : Fin 64, ((a.1 1 : IVec S64 32) (ix1 t)).toNat = (σ t).val) (s : Fin 64) :
    ((cfg0 a).win 3).index ⟨s.val, s.isLt⟩ = ![(σ s).val, 0, 0] := by
  refine (index3 a _).trans ((transform3_eq a.1 _).trans ?_)
  have hc : (grid0.coords ⟨s.val, s.isLt⟩ 0 : Fin 64) = s := Fin.ext (coords_val _)
  exact congrArg (fun n : Nat => ![n, 0, 0])
    ((congrArg (fun j : Fin 64 => ((a.1 1 : IVec S64 32) (ix1 j)).toNat) hc).trans (hp s))

/-- Every index of the result array lies in the block some point writes back. -/
theorem cover_of (a : (pcfg0 (F := Ideal)).Adm) (σ : Fin 64 → Fin 64) (hσ : Function.Bijective σ)
    (hp : ∀ t : Fin 64, ((a.1 1 : IVec S64 32) (ix1 t)).toNat = (σ t).val) (i : S64x1024x64.Idx) :
    ∃ t : Fin (cfg0 a).N, ((cfg0 a).win 3).flush t = true ∧ i ∈ (((cfg0 a).win 3).blk t).view.set := by
  obtain ⟨s, hs⟩ := hσ.2 ⟨(i 0).val, (i 0).isLt⟩
  have e0 := index3_val a σ hp s
  refine ⟨⟨s.val, s.isLt⟩, ?_, ?_⟩
  · -- consecutive points write different blocks, the bijection being injective
    unfold Pipeline.Window.flush
    refine Bool.and_eq_true_iff.mpr ⟨rfl, Bool.or_eq_true_iff.mpr ?_⟩
    by_cases hl : s.val + 1 = (cfg0 a).grid.N
    · exact Or.inl (decide_eq_true hl)
    · have hN : (cfg0 a).grid.N = 64 := rfl
      have hlt : s.val + 1 < 64 := by have := s.isLt; omega
      refine Or.inr (decide_eq_true ⟨hlt, fun he => ?_⟩)
      have e1 := index3_val a σ hp ⟨s.val + 1, hlt⟩
      have h01 : (σ ⟨s.val + 1, hlt⟩).val = (σ s).val :=
        congrFun (e1.symm.trans (he.trans e0)) (0 : Fin 3)
      have hss := congrArg Fin.val (hσ.1 (Fin.ext h01))
      exact absurd hss (Nat.succ_ne_self _)
  · -- the row's block is the one the bijection sends to it
    have hset : (((cfg0 a).win 3).blk ⟨s.val, s.isLt⟩).view.set
        = (((cfg0 a).win 3).rect ⟨s.val, s.isLt⟩ : Rect S64x1024x64).set :=
      View.set_slice_whole main_v93 _
    refine (Finset.ext_iff.mp hset i).mpr ?_
    refine Rect.mem_set_unit.mpr fun ax => ?_
    match ax with
    | ⟨0, h⟩ =>
      have h0 : ((cfg0 a).win 3).index ⟨s.val, s.isLt⟩ ⟨0, h⟩ = (σ s).val := congrFun e0 ⟨0, h⟩
      have hz : ((cfg0 a).win 3).size ⟨0, h⟩ = 1 := rfl
      have hx : ((cfg0 a).win 3).xsize ((cfg0 a).grid.coords ⟨s.val, s.isLt⟩) ⟨0, h⟩ = 1 := rfl
      have hs0 : (σ s).val = (i ⟨0, h⟩).val := congrArg Fin.val hs
      rw [h0, hz, hx]
      show (σ s).val * 1 ≤ (i ⟨0, h⟩).val ∧ (i ⟨0, h⟩).val < (σ s).val * 1 + 1
      omega
    | ⟨1, h⟩ =>
      have h0 : ((cfg0 a).win 3).index ⟨s.val, s.isLt⟩ ⟨1, h⟩ = 0 := congrFun e0 ⟨1, h⟩
      have hz : ((cfg0 a).win 3).size ⟨1, h⟩ = 1024 := rfl
      have hx : ((cfg0 a).win 3).xsize ((cfg0 a).grid.coords ⟨s.val, s.isLt⟩) ⟨1, h⟩ = 1024 := rfl
      have hi : (i ⟨1, h⟩).val < 1024 := (i ⟨1, h⟩).isLt
      rw [h0, hz, hx]
      show 0 * 1024 ≤ (i ⟨1, h⟩).val ∧ (i ⟨1, h⟩).val < 0 * 1024 + 1024
      omega
    | ⟨2, h⟩ =>
      have h0 : ((cfg0 a).win 3).index ⟨s.val, s.isLt⟩ ⟨2, h⟩ = 0 := congrFun e0 ⟨2, h⟩
      have hz : ((cfg0 a).win 3).size ⟨2, h⟩ = 64 := rfl
      have hx : ((cfg0 a).win 3).xsize ((cfg0 a).grid.coords ⟨s.val, s.isLt⟩) ⟨2, h⟩ = 64 := rfl
      have hi : (i ⟨2, h⟩).val < 64 := (i ⟨2, h⟩).isLt
      rw [h0, hz, hx]
      show 0 * 64 ≤ (i ⟨2, h⟩).val ∧ (i ⟨2, h⟩).val < 0 * 64 + 64
      omega

end Cert.KernelIdeal.Hand

end
-- ==== Proof.KerSlots.lean ====
/-
  The two table words of a grid point as naturals: the order table's word t is the sample σ(t) the point visits; the slot
  table's word t is that sample's time slot (its index word divided by twelve), when the index word is below 288.
-/
import proofs.«429784_j90872918049138_3_alg».proof.Proof.KerTables
import proofs.«429784_j90872918049138_3_alg».proof.Proof.Ints
import proofs.«429784_j90872918049138_3_alg».proof.Proof.Spec

noncomputable section

namespace Cert.KernelIdeal.Hand

open Cert.KernelIdeal Cert.KernelIdeal.Gen Idealize.ShloMosaic Idealize.ShloMosaic.ValueIdx

theorem perm_toNat (a1 : IVec S64 32) (t : Fin 64) : (kerPerm a1 (ix1 t)).toNat = (order a1 t).val := by
  have hk := (order a1 t).isLt
  rw [perm_word, BitVec.toNat_ofNat]
  exact Nat.mod_eq_of_lt (by omega)

theorem iis_toNat (a1 : IVec S64 32) (h : ∀ b : Fin 64, (a1 (ix1 b)).toNat < 288) (t : Fin 64) :
    (kerIis a1 (ix1 t)).toNat = (Cert.Spec.slot (a1 (ix1 (order a1 t)))).val := by
  have hv := h (order a1 t)
  have hlt : (BitVec.ofNat 32 ((a1 (ix1 (order a1 t))).toNat / 12)).toNat < 24 := by
    rw [BitVec.toNat_ofNat]; omega
  rw [iis_word, clip_word, q_word, Cert.Ints.fdiv12_eq _ hv, Cert.Ints.clip_eq _ hlt, BitVec.toNat_ofNat]
  dsimp only [Cert.Spec.slot]
  omega

end Cert.KernelIdeal.Hand

end
-- ==== Proof.KerPoint.lean ====
/-
  One grid point's stored block against the specification: when the three loaded blocks are sample b of the input, the
  stacked Laplacian tables of sample b's slot and that slot's bias block, entry (w, l) of the stored block is the
  specification's result at (b, w, l).
-/
import proofs.«429784_j90872918049138_3_alg».proof.Proof.KerBody
import proofs.«429784_j90872918049138_3_alg».proof.Proof.KerTable
import proofs.«429784_j90872918049138_3_alg».proof.Proof.Spec

noncomputable section

namespace Cert.KernelIdeal.Hand

open Cert.KernelIdeal Cert.KernelIdeal.Gen Idealize.ShloMosaic Idealize.ShloMosaic.ValueIdx
open scoped BigOperators

theorem point_value (X : FVec Ideal S64x2x1024x64 .f32) (a1 : IVec S64 32) (a2 a3 : IVec S32768 32)
    (a4 a5 : FVec Ideal S24x32768 .f32) (a6 a7 : FVec Ideal S24x1024 .f32)
    (h2 : ∀ e : Fin 32768, (a2 (ix1 e)).toNat < 1024) (h3 : ∀ e : Fin 32768, (a3 (ix1 e)).toNat < 1024)
    (x0 : Vec Ideal S1x1x1024x64 .f32) (x1 : Vec Ideal S1x2048x1024 .bf16) (x2 : Vec Ideal S1x1024x2 .f32)
    (b : Fin 64)
    (h0 : ∀ (v : Fin 1024) (l : Fin 64), x0 (ix4 0 0 v l) = X (ix4 b 0 v l))
    (h1 : ∀ (r : Fin 2048) (v : Fin 1024), x1 (ix3 0 r v) = kerLstack (F := Ideal) a2 a3 a4 a5 (ix3 (Cert.Spec.slot (a1 (ix1 b))) r v))
    (hb : ∀ (w : Fin 1024) (k : Fin 2), x2 (ix3 0 w k) = kerBias (F := Ideal) a6 a7 (ix3 (Cert.Spec.slot (a1 (ix1 b))) w k))
    (w : Fin 1024) (l : Fin 64) :
    k0_pay1 (F := Ideal) x0 x1 x2 (ix3 0 w l) = Cert.Spec.outAt X a1 a2 a3 a4 a5 a6 a7 b w l := by
  refine (pay_apply x0 x1 x2 w l).trans ?_
  unfold Cert.Spec.outAt
  have hlo : (∑ v : Fin 1024, (x1 (ix3 0 ⟨w.val, by omega⟩ v) : EReal) * x0 (ix4 0 0 v l))
      = ∑ v : Fin 1024, Cert.Spec.lapR a2 a3 a4 (Cert.Spec.slot (a1 (ix1 b))) w v * X (ix4 b 0 v l) :=
    Finset.sum_congr rfl fun v _ => by rw [h0, h1, lstack_lo a2 a3 a4 a5 h2 h3]
  have hhi : (∑ v : Fin 1024, (x1 (ix3 0 ⟨1024 + w.val, by omega⟩ v) : EReal) * x0 (ix4 0 0 v l))
      = ∑ v : Fin 1024, Cert.Spec.lapD a2 a3 a5 (Cert.Spec.slot (a1 (ix1 b))) w v * X (ix4 b 0 v l) :=
    Finset.sum_congr rfl fun v _ => by rw [h0, h1, lstack_hi a2 a3 a4 a5 h2 h3]
  rw [hlo, hhi, hb w 0, hb w 1, bias_zero, bias_one, h0 w l]

end Cert.KernelIdeal.Hand

end
-- ==== Proof.KerValue.lean ====
/-
  The kernel's run with its result named. Grid point t visits sample σ(t) (the order table) with the tables of that
  sample's clipped slot (the slot table): the block it writes back is row σ(t) of the result function, and σ is onto, so
  the blocks cover the array.
-/
import proofs.«429784_j90872918049138_3_alg».proof.Defs
import proofs.«429784_j90872918049138_3_alg».proof.Proof.Gen.KernelIdeal.Frame
import proofs.«429784_j90872918049138_3_alg».proof.Proof.OkOfPre
import proofs.«429784_j90872918049138_3_alg».proof.Proof.KerHost
import proofs.«429784_j90872918049138_3_alg».proof.Proof.KerTables
import proofs.«429784_j90872918049138_3_alg».proof.Proof.KerTable
import proofs.«429784_j90872918049138_3_alg».proof.Proof.KerBody
import proofs.«429784_j90872918049138_3_alg».proof.Proof.Spec
import proofs.«429784_j90872918049138_3_alg».proof.Proof.KerIndex
import proofs.«429784_j90872918049138_3_alg».proof.Proof.KerCover
import proofs.«429784_j90872918049138_3_alg».proof.Proof.KerSlots
import proofs.«429784_j90872918049138_3_alg».proof.Proof.KerPoint
import Idealize.ShloMosaic.Lib.Pipeline.Value

noncomputable section

set_option maxRecDepth 16384

namespace Cert.KernelIdeal.Hand

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- What the body leaves in the output's staging buffer is its one store's payload of the three loaded blocks. -/
theorem out0_eq (c : Dev nD) (i : grid0.Coords) (arg3 : Memref sig .tc .vmem S1x1x1024x64 .f32) (harg3 : arg3.IsWhole) (arg4 : Memref sig .tc .vmem S1x2048x1024 .bf16) (harg4 : arg4.IsWhole) (arg5 : Memref sig .tc .vmem S1x1024x2 .f32) (harg5 : arg5.IsWhole) (arg6 : Memref sig .tc .vmem S1x1024x64 .f32) (harg6 : arg6.IsWhole)
    (x0 : Vec Ideal S1x1x1024x64 .f32) (x1 : Vec Ideal S1x2048x1024 .bf16) (x2 : Vec Ideal S1x1024x2 .f32) (xt0 : TbBuf0 (F := Ideal) c tbM0_0) (xt1 : TbBuf0 (F := Ideal) c tbM0_1) :
    out0_A_3 c i arg3 harg3 arg4 harg4 arg5 harg5 arg6 harg6 x0 x1 x2 xt0 xt1 = k0_pay1 x0 x1 x2 := by
  unfold out0_A_3
  rw [View.read_writes_eq_canon _ _ _ (cover0_A_3 c _ _ _ _ _ _ _ _ _ _ _ _ _ _)]
  unfold kernelRun0_A
  dsimp only
  rw [View.canon_unit_zero (S := S1x1024x64) hz3]
  simp only [View.readAt_eq_ld, harg3.read_unread, harg4.read_unread, harg5.read_unread,
    View.ld_unit_zero (S := S1x1x1024x64) hz4, View.ld_unit_zero (S := S1x2048x1024) hz3, View.ld_unit_zero (S := S1x1024x2) hz3]

/-! ## The blocks read at an index -/

/-- Window 0's block at a point is the sample the order table names there, read whole. -/
theorem blk0_apply (a : (pcfg0 (F := Ideal)).Adm) (pf : pre0.Contents (Elt Ideal)) (hpf : a.1 = pf) (t : Fin (cfg0 a).N) (X : Vec Ideal S64x2x1024x64 .f32)
    (p : Fin 64) (hp : ((pf 1 : IVec S64 32) (ix1 (grid0.coords t 0))).toNat = p.val) (v : Fin 1024) (l : Fin 64) :
    (((cfg0 a).win 0).blk t).view.read (Elt Ideal) X (ix4 0 0 v l) = X (ix4 p 0 v l) := by
  subst hpf
  refine (View.read_apply (Val := Elt Ideal) (v := (((cfg0 a).win 0).blk t).view) X (ix4 0 0 v l)).trans ?_
  show X _ = X _
  refine congrArg X ?_
  refine funext fun (k : Fin 4) => Fin.ext ?_
  show ((cfg0 a).win 0).index t k * S1x1x1024x64.size k + 1 * (ix4 (0 : Fin 1) (0 : Fin 1) v l k).val = _
  rw [index0, transform0_eq, hp]
  match k with
  | ⟨0, _⟩ => show p.val * 1 + 1 * 0 = p.val; omega
  | ⟨1, _⟩ => show 0 * 1 + 1 * 0 = 0; omega
  | ⟨2, _⟩ => show 0 * 1024 + 1 * v.val = v.val; omega
  | ⟨3, _⟩ => show 0 * 64 + 1 * l.val = l.val; omega

/-- Window 1's block at a point is the stacked table of the slot the slot table names there. -/
theorem blk1_apply (a : (pcfg0 (F := Ideal)).Adm) (pf : pre0.Contents (Elt Ideal)) (hpf : a.1 = pf) (t : Fin (cfg0 a).N) (X : Vec Ideal S24x2048x1024 .bf16)
    (s : Fin 24) (hs : ((pf 0 : IVec S64 32) (ix1 (grid0.coords t 0))).toNat = s.val) (r : Fin 2048) (v : Fin 1024) :
    (((cfg0 a).win 1).blk t).view.read (Elt Ideal) X (ix3 0 r v) = X (ix3 s r v) := by
  subst hpf
  refine (View.read_apply (Val := Elt Ideal) (v := (((cfg0 a).win 1).blk t).view) X (ix3 0 r v)).trans ?_
  show X _ = X _
  refine congrArg X ?_
  refine funext fun (k : Fin 3) => Fin.ext ?_
  show ((cfg0 a).win 1).index t k * S1x2048x1024.size k + 1 * (ix3 (0 : Fin 1) r v k).val = _
  rw [index1, transform1_eq, hs]
  match k with
  | ⟨0, _⟩ => show s.val * 1 + 1 * 0 = s.val; omega
  | ⟨1, _⟩ => show 0 * 2048 + 1 * r.val = r.val; omega
  | ⟨2, _⟩ => show 0 * 1024 + 1 * v.val = v.val; omega

/-- Window 2's block at a point is the bias block of the slot the slot table names there. -/
theorem blk2_apply (a : (pcfg0 (F := Ideal)).Adm) (pf : pre0.Contents (Elt Ideal)) (hpf : a.1 = pf) (t : Fin (cfg0 a).N) (X : Vec Ideal S24x1024x2 .f32)
    (s : Fin 24) (hs : ((pf 0 : IVec S64 32) (ix1 (grid0.coords t 0))).toNat = s.val) (w : Fin 1024) (k2 : Fin 2) :
    (((cfg0 a).win 2).blk t).view.read (Elt Ideal) X (ix3 0 w k2) = X (ix3 s w k2) := by
  subst hpf
  refine (View.read_apply (Val := Elt Ideal) (v := (((cfg0 a).win 2).blk t).view) X (ix3 0 w k2)).trans ?_
  show X _ = X _
  refine congrArg X ?_
  refine funext fun (k : Fin 3) => Fin.ext ?_
  show ((cfg0 a).win 2).index t k * S1x1024x2.size k + 1 * (ix3 (0 : Fin 1) w k2 k).val = _
  rw [index2, transform2_eq, hs]
  match k with
  | ⟨0, _⟩ => show s.val * 1 + 1 * 0 = s.val; omega
  | ⟨1, _⟩ => show 0 * 1024 + 1 * w.val = w.val; omega
  | ⟨2, _⟩ => show 0 * 2 + 1 * k2.val = k2.val; omega

/-- The output window's block at a point is the row of the result the order table names there. -/
theorem blk3_apply (a : (pcfg0 (F := Ideal)).Adm) (pf : pre0.Contents (Elt Ideal)) (hpf : a.1 = pf) (t : Fin (cfg0 a).N) (X : Vec Ideal S64x1024x64 .f32)
    (p : Fin 64) (hp : ((pf 1 : IVec S64 32) (ix1 (grid0.coords t 0))).toNat = p.val) (w : Fin 1024) (l : Fin 64) :
    (((cfg0 a).win 3).blk t).view.read (Elt Ideal) X (ix3 0 w l) = X (ix3 p w l) := by
  subst hpf
  refine (View.read_apply (Val := Elt Ideal) (v := (((cfg0 a).win 3).blk t).view) X (ix3 0 w l)).trans ?_
  show X _ = X _
  refine congrArg X ?_
  refine funext fun (k : Fin 3) => Fin.ext ?_
  show ((cfg0 a).win 3).index t k * S1x1024x64.size k + 1 * (ix3 (0 : Fin 1) w l k).val = _
  rw [index3, transform3_eq, hp]
  match k with
  | ⟨0, _⟩ => show p.val * 1 + 1 * 0 = p.val; omega
  | ⟨1, _⟩ => show 0 * 1024 + 1 * w.val = w.val; omega
  | ⟨2, _⟩ => show 0 * 64 + 1 * l.val = l.val; omega

/-! ## The tables and the staged arrays as the region finds them -/

theorem tbl1_eq (c : Dev nD) : (tbl m 1 : IVec S64 32) = kerPerm (m ((c.tc : Thread nD τ).loc main_arg1)) :=
  (V_pre m c 1).symm.trans (V_perm m c)

theorem tbl0_eq (c : Dev nD) : (tbl m 0 : IVec S64 32) = kerIis (m ((c.tc : Thread nD τ).loc main_arg1)) :=
  (V_pre m c 0).symm.trans (V_iis m c)

/-- The sample a grid point visits. -/
abbrev smp (c : Dev nD) (hO : Ok m) (t : Fin (cfgM m hO).N) : Fin 64 :=
  order (m ((c.tc : Thread nD τ).loc main_arg1)) (grid0.coords t 0)

theorem word_congr (f g : IVec S64 32) (e : f = g) (i : Fin 64) : (f (ix1 i)).toNat = (g (ix1 i)).toNat := by
  rw [e]

/-- The order table's word at point i is the sample the order sends i to. -/
theorem perm_word_at (c : Dev nD) (i : Fin 64) :
    ((tbl m 1 : IVec S64 32) (ix1 i)).toNat = (order (m ((c.tc : Thread nD τ).loc main_arg1)) i).val :=
  (word_congr (tbl m 1) (kerPerm (m ((c.tc : Thread nD τ).loc main_arg1))) (tbl1_eq m c) i).trans
    (perm_toNat (m ((c.tc : Thread nD τ).loc main_arg1)) i)

/-- The slot table's word at point i is the time slot of that sample. -/
theorem iis_word_at (c : Dev nD) (h : ∀ b : Fin 64, (m ((c.tc : Thread nD τ).loc main_arg1) (ix1 b)).toNat < 288) (i : Fin 64) :
    ((tbl m 0 : IVec S64 32) (ix1 i)).toNat
      = (Cert.Spec.slot (m ((c.tc : Thread nD τ).loc main_arg1) (ix1 (order (m ((c.tc : Thread nD τ).loc main_arg1)) i)))).val :=
  (word_congr (tbl m 0) (kerIis (m ((c.tc : Thread nD τ).loc main_arg1))) (tbl0_eq m c) i).trans
    (iis_toNat (m ((c.tc : Thread nD τ).loc main_arg1)) h i)

/-! ## The three input blocks of a point -/

theorem iblk0_apply (c : Dev nD) (hO : Ok m) (t : Fin (cfgM m hO).N) (v : Fin 1024) (l : Fin 64) :
    iblk m hO c 0 t (ix4 0 0 v l) = m ((c.tc : Thread nD τ).loc main_arg0) (ix4 (smp m c hO t) 0 v l) := by
  refine (blk0_apply (adm m hO) (tbl m) rfl t (V m c main_arg0) (smp m c hO t) (perm_word_at m c (grid0.coords t 0)) v l).trans ?_
  exact congrFun (V_main_arg0 m c) _

theorem iblk1_apply (c : Dev nD) (hO : Ok m) (t : Fin (cfgM m hO).N)
    (h : ∀ b : Fin 64, (m ((c.tc : Thread nD τ).loc main_arg1) (ix1 b)).toNat < 288) (r : Fin 2048) (v : Fin 1024) :
    iblk m hO c 1 t (ix3 0 r v)
      = kerLstack (F := Ideal) (m ((c.tc : Thread nD τ).loc main_arg2)) (m ((c.tc : Thread nD τ).loc main_arg3)) (m ((c.tc : Thread nD τ).loc main_arg4)) (m ((c.tc : Thread nD τ).loc main_arg5))
          (ix3 (Cert.Spec.slot (m ((c.tc : Thread nD τ).loc main_arg1) (ix1 (smp m c hO t)))) r v) := by
  refine (blk1_apply (adm m hO) (tbl m) rfl t (V m c main_v81) (Cert.Spec.slot (m ((c.tc : Thread nD τ).loc main_arg1) (ix1 (smp m c hO t)))) (iis_word_at m c h (grid0.coords t 0)) r v).trans ?_
  exact congrFun (V_lstack m c) _

theorem iblk2_apply (c : Dev nD) (hO : Ok m) (t : Fin (cfgM m hO).N)
    (h : ∀ b : Fin 64, (m ((c.tc : Thread nD τ).loc main_arg1) (ix1 b)).toNat < 288) (w : Fin 1024) (k : Fin 2) :
    iblk m hO c 2 t (ix3 0 w k)
      = kerBias (F := Ideal) (m ((c.tc : Thread nD τ).loc main_arg6)) (m ((c.tc : Thread nD τ).loc main_arg7))
          (ix3 (Cert.Spec.slot (m ((c.tc : Thread nD τ).loc main_arg1) (ix1 (smp m c hO t)))) w k) := by
  refine (blk2_apply (adm m hO) (tbl m) rfl t (V m c main_v84) (Cert.Spec.slot (m ((c.tc : Thread nD τ).loc main_arg1) (ix1 (smp m c hO t)))) (iis_word_at m c h (grid0.coords t 0)) w k).trans ?_
  exact congrFun (V_bias m c) _

/-! ## What a point writes back, the cover, the result -/

/-- The specification's function of the argument arrays. -/
abbrev G (c : Dev nD) : Vec Ideal S64x1024x64 .f32 :=
  Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

theorem outs_eq (hO : Ok m) (c : Dev nD) (t : Fin (cfgM m hO).N) :
    outsAt0 m hO c t = k0_pay1 (F := Ideal) (iblk m hO c 0 t) (iblk m hO c 1 t) (iblk m hO c 2 t) := by
  unfold outsAt0
  exact out0_eq c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) (tbl m 0) (tbl m 1)

/-- Entry (w, l) of what point t leaves is the result at (the sample it visits, w, l). -/
theorem outs_apply (hO : Ok m) (c : Dev nD)
    (hr : Cert.Spec.InRange (m ((c.tc : Thread nD τ).loc main_arg1)) (m ((c.tc : Thread nD τ).loc main_arg2)) (m ((c.tc : Thread nD τ).loc main_arg3)))
    (t : Fin (cfgM m hO).N) (w : Fin 1024) (l : Fin 64) :
    outsAt0 m hO c t (ix3 0 w l) = G m c (ix3 (smp m c hO t) w l) := by
  refine (congrFun (outs_eq m hO c t) (ix3 0 w l)).trans ?_
  exact point_value (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    hr.ei hr.ej (iblk m hO c 0 t) (iblk m hO c 1 t) (iblk m hO c 2 t) (smp m c hO t)
    (iblk0_apply m c hO t) (iblk1_apply m c hO t hr.ind) (iblk2_apply m c hO t hr.ind) w l

/-- What point t writes back is the result read through block t. -/
theorem flushed_eq (hO : Ok m) (c : Dev nD)
    (hr : Cert.Spec.InRange (m ((c.tc : Thread nD τ).loc main_arg1)) (m ((c.tc : Thread nD τ).loc main_arg2)) (m ((c.tc : Thread nD τ).loc main_arg3)))
    (t : Fin (cfgM m hO).N) (_ : ((cfgM m hO).win 3).flush t = true) :
    (dats m hO 0 c).flushed 3 t = (((cfgM m hO).win 3).blk t).view.read (Elt Ideal) (G m c) := by
  show ((cfgM m hO).win 3).cut ((cfgM m hO).grid.coords t) ((dats m hO 0 c).after 3 t) = _
  rw [after0_3]
  refine funext fun (j : S1x1024x64.Idx) => ?_
  obtain ⟨z, w, l, rfl⟩ : ∃ (z : Fin 1) (w : Fin 1024) (l : Fin 64), j = ix3 z w l := ⟨j 0, j 1, j 2, eq_ix3 j⟩
  obtain rfl : z = 0 := Subsingleton.elim _ _
  refine Eq.trans ?_ (blk3_apply (adm m hO) (tbl m) rfl t (G m c) (smp m c hO t) (perm_word_at m c (grid0.coords t 0)) w l).symm
  exact outs_apply m hO c hr t w l

/-- Every index of the result array lies in the block some point writes back. -/
theorem cover_pf (a : (pcfg0 (F := Ideal)).Adm) (pf : pre0.Contents (Elt Ideal)) (hpf : a.1 = pf) (σ : Fin 64 → Fin 64)
    (hσ : Function.Bijective σ) (hp : ∀ t : Fin 64, ((pf 1 : IVec S64 32) (ix1 t)).toNat = (σ t).val) (i : S64x1024x64.Idx) :
    ∃ t : Fin (cfg0 a).N, ((cfg0 a).win 3).flush t = true ∧ i ∈ (((cfg0 a).win 3).blk t).view.set := by
  subst hpf
  exact cover_of a σ hσ hp i

theorem cover (hO : Ok m) (c : Dev nD) (i : S64x1024x64.Idx) :
    ∃ t : Fin (cfgM m hO).N, ((cfgM m hO).win 3).flush t = true ∧ i ∈ (((cfgM m hO).win 3).blk t).view.set :=
  cover_pf (adm m hO) (tbl m) rfl (order (m ((c.tc : Thread nD τ).loc main_arg1))) (order_bijective (m ((c.tc : Thread nD τ).loc main_arg1)))
    (perm_word_at m c) i

/-- The result array ends holding the specification's function. -/
theorem final (hO : Ok m) (c : Dev nD)
    (hr : Cert.Spec.InRange (m ((c.tc : Thread nD τ).loc main_arg1)) (m ((c.tc : Thread nD τ).loc main_arg2)) (m ((c.tc : Thread nD τ).loc main_arg3))) :
    (dats m hO 0 c).arrAt 3 (cfgM m hO).N = G m c :=
  (dats m hO 0 c).arrAt_eq_of_cover 3 (G m c) (flushed_eq m hO c hr) (cover m hO c)

/-- THE KERNEL'S RUN: the result array ends at the specification's function of the argument arrays, the arguments unchanged. -/
theorem run (hr : ∀ c : Dev nD, Cert.Spec.InRange (m ((c.tc : Thread nD τ).loc main_arg1)) (m ((c.tc : Thread nD τ).loc main_arg2)) (m ((c.tc : Thread nD τ).loc main_arg3))) :
    θ_run defs (onTc (τ := τ) (main (F := Ideal))) ⟨m, fun _ => 0, ρ⟩ fun r => ∀ c : Dev nD,
      r.2.mem ((c.tc : Thread nD τ).loc main_v93)
        = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  have hO : Ok m := ok m
  refine (θ_run defs _ _).mono (fun _ h c => ?_) (run_main m ρ hO)
  exact ⟨((h c).1 3).trans (final m hO c (hr c)),
    ((h c).1 0).trans (((dats m hO 0 c).arrAt_in 0 rfl _).trans ((A_eq m hO c 0).trans (V_main_arg0 m c))),
    ((h c).2 main_arg1 (by decide : main_arg1 ∈ Pipeline.restRefs sig spec0)).trans (V_main_arg1 m c),
    ((h c).2 main_arg2 (by decide : main_arg2 ∈ Pipeline.restRefs sig spec0)).trans (V_main_arg2 m c),
    ((h c).2 main_arg3 (by decide : main_arg3 ∈ Pipeline.restRefs sig spec0)).trans (V_main_arg3 m c),
    ((h c).2 main_arg4 (by decide : main_arg4 ∈ Pipeline.restRefs sig spec0)).trans (V_main_arg4 m c),
    ((h c).2 main_arg5 (by decide : main_arg5 ∈ Pipeline.restRefs sig spec0)).trans (V_main_arg5 m c),
    ((h c).2 main_arg6 (by decide : main_arg6 ∈ Pipeline.restRefs sig spec0)).trans (V_main_arg6 m c),
    ((h c).2 main_arg7 (by decide : main_arg7 ∈ Pipeline.restRefs sig spec0)).trans (V_main_arg7 m c)⟩

end Cert.KernelIdeal.Hand

end
-- ==== Proof.RefOps.lean ====
import proofs.«429784_j90872918049138_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- 3 operations of main_part0, in order. -/
abbrev ops0 : List (HloOp τ sig (Elt F)) :=
  [ unary main_arg0 main_v0 ((extractStridedSlice S64x1x1024x64 ![0, 0, 0, 0] · slices_S64x2x1024x64_S64x1x1024x64_0_0_0_0) : (⟨S64x2x1024x64, .f32⟩ : BufTy).Contents (Elt F) → (⟨S64x1x1024x64, .f32⟩ : BufTy).Contents (Elt F)),
    reshape main_v0 main_v1 rfl shapeCasts_S64x1x1024x64_S64x1024x64,
    nullary main_c (constantI S_ 32 12#32) ]

/-- 16 operations of main_part0/fn_floor_divide, in order. -/
abbrev ops1 : List (HloOp τ sig (Elt F)) :=
  [ TRef.unary (.of main_c) main_call0.v0 id,
    TRef.unary main_call0.v0 main_call0.v1 (broadcastInDim S64 ![] bcast_S_S64),
    TRef.binary (.of main_arg1) main_call0.v1 main_call0.v2 Host.divsi,
    TRef.unary (.of main_arg1) main_call0.v3 signi,
    TRef.unary main_call0.v0 main_call0.v4 signi,
    TRef.unary main_call0.v4 main_call0.v5 (broadcastInDim S64 ![] bcast_S_S64),
    TRef.binary main_call0.v3 main_call0.v5 main_call0.v6 (cmpi .ne),
    TRef.unary main_call0.v0 main_call0.v7 (broadcastInDim S64 ![] bcast_S_S64),
    TRef.binary (.of main_arg1) main_call0.v7 main_call0.v8 Host.remsi,
    TRef.nullary main_call0.c (constantI S_ 32 0#32),
    TRef.unary main_call0.c main_call0.v9 (broadcastInDim S64 ![] bcast_S_S64),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S64 ![] bcast_S_S64),
    TRef.binary main_call0.v2 main_call0.v12 main_call0.v13 subi ]

/-- 1 operations of main_part0/fn_floor_divide, in order. -/
abbrev ops2 : List (HloOp τ sig (Elt F)) :=
  [ TRef.ternary main_call0.v11 main_call0.v13 main_call0.v2 main_call0.call0.v0 select ]

/-- 56 operations of main_part0, in order. -/
abbrev ops3 : List (HloOp τ sig (Elt F)) :=
  [ nullary main_c_0 (constantI S_ 32 0#32),
    unary main_c_0 main_v3 (broadcastInDim S64 ![] bcast_S_S64 : (⟨S_, .i32⟩ : BufTy).Contents (Elt F) → (⟨S64, .i32⟩ : BufTy).Contents (Elt F)),
    binary main_v2 main_v3 main_v4 (cmpi .slt : (⟨S64, .i32⟩ : BufTy).Contents (Elt F) → (⟨S64, .i32⟩ : BufTy).Contents (Elt F) → (⟨S64, .i1⟩ : BufTy).Contents (Elt F)),
    nullary main_c_1 (constantI S_ 32 24#32),
    unary main_c_1 main_v5 (broadcastInDim S64 ![] bcast_S_S64 : (⟨S_, .i32⟩ : BufTy).Contents (Elt F) → (⟨S64, .i32⟩ : BufTy).Contents (Elt F)),
    binary main_v2 main_v5 main_v6 (addi : (⟨S64, .i32⟩ : BufTy).Contents (Elt F) → (⟨S64, .i32⟩ : BufTy).Contents (Elt F) → (⟨S64, .i32⟩ : BufTy).Contents (Elt F)),
    ternary main_v4 main_v6 main_v2 main_v7 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v7 main_v8 (broadcastInDim S64x1 ![0] bcast_S64_S64x1_0 : (⟨S64, .i32⟩ : BufTy).Contents (Elt F) → (⟨S64x1, .i32⟩ : BufTy).Contents (Elt F)),
    binary main_arg4 main_v8 main_v9 ((fun x i => Host.gather gather_S24x32768_S64x1_S64x32768_1_0_n_n_0_1_132768 x i) : (⟨S24x32768, .f32⟩ : BufTy).Contents (Elt F) → (⟨S64x1, .i32⟩ : BufTy).Contents (Elt F) → (⟨S64x32768, .f32⟩ : BufTy).Contents (Elt F)),
    nullary main_cst (constant S_ .f32 0x00000000#32),
    unary main_cst main_v10 (broadcastInDim S64x1024x1024 ![] bcast_S_S64x1024x1024 : (⟨S_, .f32⟩ : BufTy).Contents (Elt F) → (⟨S64x1024x1024, .f32⟩ : BufTy).Contents (Elt F)),
    nullary main_c_2 (constantI S_ 32 0#32),
    unary main_c_2 main_v11 (broadcastInDim S32768 ![] bcast_S_S32768 : (⟨S_, .i32⟩ : BufTy).Contents (Elt F) → (⟨S32768, .i32⟩ : BufTy).Contents (Elt F)),
    binary main_arg2 main_v11 main_v12 (cmpi .slt : (⟨S32768, .i32⟩ : BufTy).Contents (Elt F) → (⟨S32768, .i32⟩ : BufTy).Contents (Elt F) → (⟨S32768, .i1⟩ : BufTy).Contents (Elt F)),
    nullary main_c_3 (constantI S_ 32 1024#32),
    unary main_c_3 main_v13 (broadcastInDim S32768 ![] bcast_S_S32768 : (⟨S_, .i32⟩ : BufTy).Contents (Elt F) → (⟨S32768, .i32⟩ : BufTy).Contents (Elt F)),
    binary main_arg2 main_v13 main_v14 (addi : (⟨S32768, .i32⟩ : BufTy).Contents (Elt F) → (⟨S32768, .i32⟩ : BufTy).Contents (Elt F) → (⟨S32768, .i32⟩ : BufTy).Contents (Elt F)),
    ternary main_v12 main_v14 main_arg2 main_v15 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    nullary main_c_4 (constantI S_ 32 0#32),
    unary main_c_4 main_v16 (broadcastInDim S32768 ![] bcast_S_S32768 : (⟨S_, .i32⟩ : BufTy).Contents (Elt F) → (⟨S32768, .i32⟩ : BufTy).Contents (Elt F)),
    binary main_arg3 main_v16 main_v17 (cmpi .slt : (⟨S32768, .i32⟩ : BufTy).Contents (Elt F) → (⟨S32768, .i32⟩ : BufTy).Contents (Elt F) → (⟨S32768, .i1⟩ : BufTy).Contents (Elt F)),
    nullary main_c_5 (constantI S_ 32 1024#32),
    unary main_c_5 main_v18 (broadcastInDim S32768 ![] bcast_S_S32768 : (⟨S_, .i32⟩ : BufTy).Contents (Elt F) → (⟨S32768, .i32⟩ : BufTy).Contents (Elt F)),
    binary main_arg3 main_v18 main_v19 (addi : (⟨S32768, .i32⟩ : BufTy).Contents (Elt F) → (⟨S32768, .i32⟩ : BufTy).Contents (Elt F) → (⟨S32768, .i32⟩ : BufTy).Contents (Elt F)),
    ternary main_v17 main_v19 main_arg3 main_v20 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v15 main_v21 (broadcastInDim S32768x1 ![0] bcast_S32768_S32768x1_0 : (⟨S32768, .i32⟩ : BufTy).Contents (Elt F) → (⟨S32768x1, .i32⟩ : BufTy).Contents (Elt F)),
    unary main_v20 main_v22 (broadcastInDim S32768x1 ![0] bcast_S32768_S32768x1_0 : (⟨S32768, .i32⟩ : BufTy).Contents (Elt F) → (⟨S32768x1, .i32⟩ : BufTy).Contents (Elt F)),
    binary main_v21 main_v22 main_v23 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    ternary main_v10 main_v23 main_v9 main_v24 ((fun x i u => Host.scatterAdd scatter_S64x1024x1024_S32768x2_S64x32768_0_12_12_1 x i u) : (⟨S64x1024x1024, .f32⟩ : BufTy).Contents (Elt F) → (⟨S32768x2, .i32⟩ : BufTy).Contents (Elt F) → (⟨S64x32768, .f32⟩ : BufTy).Contents (Elt F) → (⟨S64x1024x1024, .f32⟩ : BufTy).Contents (Elt F)),
    nullary main_cst_6 (constant S_ .f32 0x00000000#32),
    binary main_v24 main_cst_6 main_v25 ((fun x v => Host.reduceAdd x v reducesTo_S64x1024x1024_S64x1024_d1 h_S_) : (⟨S64x1024x1024, .f32⟩ : BufTy).Contents (Elt F) → (⟨S_, .f32⟩ : BufTy).Contents (Elt F) → (⟨S64x1024, .f32⟩ : BufTy).Contents (Elt F)),
    nullary main_v26 (iotaInDim S1024x1024 32 0),
    nullary main_v27 (iotaInDim S1024x1024 32 1),
    nullary main_c_7 (constantI S_ 32 0#32),
    unary main_c_7 main_v28 (broadcastInDim S1024x1024 ![] bcast_S_S1024x1024 : (⟨S_, .i32⟩ : BufTy).Contents (Elt F) → (⟨S1024x1024, .i32⟩ : BufTy).Contents (Elt F)),
    binary main_v26 main_v28 main_v29 (addi : (⟨S1024x1024, .i32⟩ : BufTy).Contents (Elt F) → (⟨S1024x1024, .i32⟩ : BufTy).Contents (Elt F) → (⟨S1024x1024, .i32⟩ : BufTy).Contents (Elt F)),
    binary main_v29 main_v27 main_v30 (cmpi .eq : (⟨S1024x1024, .i32⟩ : BufTy).Contents (Elt F) → (⟨S1024x1024, .i32⟩ : BufTy).Contents (Elt F) → (⟨S1024x1024, .i1⟩ : BufTy).Contents (Elt F)),
    unary main_v30 main_v31 (uitofp .f32 : (⟨S1024x1024, .i1⟩ : BufTy).Contents (Elt F) → (⟨S1024x1024, .f32⟩ : BufTy).Contents (Elt F)),
    unary main_v25 main_v32 (broadcastInDim S64x1024x1 ![0, 1] bcast_S64x1024_S64x1024x1_0_1 : (⟨S64x1024, .f32⟩ : BufTy).Contents (Elt F) → (⟨S64x1024x1, .f32⟩ : BufTy).Contents (Elt F)),
    unary main_v31 main_v33 (broadcastInDim S1x1024x1024 ![1, 2] bcast_S1024x1024_S1x1024x1024_1_2 : (⟨S1024x1024, .f32⟩ : BufTy).Contents (Elt F) → (⟨S1x1024x1024, .f32⟩ : BufTy).Contents (Elt F)),
    unary main_v32 main_v34 (broadcastInDim S64x1024x1024 ![0, 1, 2] bcast_S64x1024x1_S64x1024x1024_0_1_2 : (⟨S64x1024x1, .f32⟩ : BufTy).Contents (Elt F) → (⟨S64x1024x1024, .f32⟩ : BufTy).Contents (Elt F)),
    unary main_v33 main_v35 (broadcastInDim S64x1024x1024 ![0, 1, 2] bcast_S1x1024x1024_S64x1024x1024_0_1_2 : (⟨S1x1024x1024, .f32⟩ : BufTy).Contents (Elt F) → (⟨S64x1024x1024, .f32⟩ : BufTy).Contents (Elt F)),
    binary main_v34 main_v35 main_v36 (mulf : (⟨S64x1024x1024, .f32⟩ : BufTy).Contents (Elt F) → (⟨S64x1024x1024, .f32⟩ : BufTy).Contents (Elt F) → (⟨S64x1024x1024, .f32⟩ : BufTy).Contents (Elt F)),
    binary main_v36 main_v24 main_v37 (subf : (⟨S64x1024x1024, .f32⟩ : BufTy).Contents (Elt F) → (⟨S64x1024x1024, .f32⟩ : BufTy).Contents (Elt F) → (⟨S64x1024x1024, .f32⟩ : BufTy).Contents (Elt F)),
    nullary main_c_8 (constantI S_ 32 0#32),
    unary main_c_8 main_v38 (broadcastInDim S64 ![] bcast_S_S64 : (⟨S_, .i32⟩ : BufTy).Contents (Elt F) → (⟨S64, .i32⟩ : BufTy).Contents (Elt F)),
    binary main_v2 main_v38 main_v39 (cmpi .slt : (⟨S64, .i32⟩ : BufTy).Contents (Elt F) → (⟨S64, .i32⟩ : BufTy).Contents (Elt F) → (⟨S64, .i1⟩ : BufTy).Contents (Elt F)),
    nullary main_c_9 (constantI S_ 32 24#32),
    unary main_c_9 main_v40 (broadcastInDim S64 ![] bcast_S_S64 : (⟨S_, .i32⟩ : BufTy).Contents (Elt F) → (⟨S64, .i32⟩ : BufTy).Contents (Elt F)),
    binary main_v2 main_v40 main_v41 (addi : (⟨S64, .i32⟩ : BufTy).Contents (Elt F) → (⟨S64, .i32⟩ : BufTy).Contents (Elt F) → (⟨S64, .i32⟩ : BufTy).Contents (Elt F)),
    ternary main_v39 main_v41 main_v2 main_v42 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v42 main_v43 (broadcastInDim S64x1 ![0] bcast_S64_S64x1_0 : (⟨S64, .i32⟩ : BufTy).Contents (Elt F) → (⟨S64x1, .i32⟩ : BufTy).Contents (Elt F)),
    binary main_arg5 main_v43 main_v44 ((fun x i => Host.gather gather_S24x32768_S64x1_S64x32768_1_0_n_n_0_1_132768 x i) : (⟨S24x32768, .f32⟩ : BufTy).Contents (Elt F) → (⟨S64x1, .i32⟩ : BufTy).Contents (Elt F) → (⟨S64x32768, .f32⟩ : BufTy).Contents (Elt F)),
    nullary main_cst_10 (constant S_ .f32 0x00000000#32),
    unary main_cst_10 main_v45 (broadcastInDim S64x1024x1024 ![] bcast_S_S64x1024x1024 : (⟨S_, .f32⟩ : BufTy).Contents (Elt F) → (⟨S64x1024x1024, .f32⟩ : BufTy).Contents (Elt F)),
    nullary main_c_11 (constantI S_ 32 0#32) ]

/-- 60 operations of main_part1, in order. -/
abbrev ops4 : List (HloOp τ sig (Elt F)) :=
  [ unary main_c_11 main_v46 (broadcastInDim S32768 ![] bcast_S_S32768 : (⟨S_, .i32⟩ : BufTy).Contents (Elt F) → (⟨S32768, .i32⟩ : BufTy).Contents (Elt F)),
    binary main_arg3 main_v46 main_v47 (cmpi .slt : (⟨S32768, .i32⟩ : BufTy).Contents (Elt F) → (⟨S32768, .i32⟩ : BufTy).Contents (Elt F) → (⟨S32768, .i1⟩ : BufTy).Contents (Elt F)),
    nullary main_c_12 (constantI S_ 32 1024#32),
    unary main_c_12 main_v48 (broadcastInDim S32768 ![] bcast_S_S32768 : (⟨S_, .i32⟩ : BufTy).Contents (Elt F) → (⟨S32768, .i32⟩ : BufTy).Contents (Elt F)),
    binary main_arg3 main_v48 main_v49 (addi : (⟨S32768, .i32⟩ : BufTy).Contents (Elt F) → (⟨S32768, .i32⟩ : BufTy).Contents (Elt F) → (⟨S32768, .i32⟩ : BufTy).Contents (Elt F)),
    ternary main_v47 main_v49 main_arg3 main_v50 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    nullary main_c_13 (constantI S_ 32 0#32),
    unary main_c_13 main_v51 (broadcastInDim S32768 ![] bcast_S_S32768 : (⟨S_, .i32⟩ : BufTy).Contents (Elt F) → (⟨S32768, .i32⟩ : BufTy).Contents (Elt F)),
    binary main_arg2 main_v51 main_v52 (cmpi .slt : (⟨S32768, .i32⟩ : BufTy).Contents (Elt F) → (⟨S32768, .i32⟩ : BufTy).Contents (Elt F) → (⟨S32768, .i1⟩ : BufTy).Contents (Elt F)),
    nullary main_c_14 (constantI S_ 32 1024#32),
    unary main_c_14 main_v53 (broadcastInDim S32768 ![] bcast_S_S32768 : (⟨S_, .i32⟩ : BufTy).Contents (Elt F) → (⟨S32768, .i32⟩ : BufTy).Contents (Elt F)),
    binary main_arg2 main_v53 main_v54 (addi : (⟨S32768, .i32⟩ : BufTy).Contents (Elt F) → (⟨S32768, .i32⟩ : BufTy).Contents (Elt F) → (⟨S32768, .i32⟩ : BufTy).Contents (Elt F)),
    ternary main_v52 main_v54 main_arg2 main_v55 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v50 main_v56 (broadcastInDim S32768x1 ![0] bcast_S32768_S32768x1_0 : (⟨S32768, .i32⟩ : BufTy).Contents (Elt F) → (⟨S32768x1, .i32⟩ : BufTy).Contents (Elt F)),
    unary main_v55 main_v57 (broadcastInDim S32768x1 ![0] bcast_S32768_S32768x1_0 : (⟨S32768, .i32⟩ : BufTy).Contents (Elt F) → (⟨S32768x1, .i32⟩ : BufTy).Contents (Elt F)),
    binary main_v56 main_v57 main_v58 ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)),
    ternary main_v45 main_v58 main_v44 main_v59 ((fun x i u => Host.scatterAdd scatter_S64x1024x1024_S32768x2_S64x32768_0_12_12_1 x i u) : (⟨S64x1024x1024, .f32⟩ : BufTy).Contents (Elt F) → (⟨S32768x2, .i32⟩ : BufTy).Contents (Elt F) → (⟨S64x32768, .f32⟩ : BufTy).Contents (Elt F) → (⟨S64x1024x1024, .f32⟩ : BufTy).Contents (Elt F)),
    nullary main_cst_15 (constant S_ .f32 0x00000000#32),
    binary main_v59 main_cst_15 main_v60 ((fun x v => Host.reduceAdd x v reducesTo_S64x1024x1024_S64x1024_d1 h_S_) : (⟨S64x1024x1024, .f32⟩ : BufTy).Contents (Elt F) → (⟨S_, .f32⟩ : BufTy).Contents (Elt F) → (⟨S64x1024, .f32⟩ : BufTy).Contents (Elt F)),
    nullary main_v61 (iotaInDim S1024x1024 32 0),
    nullary main_v62 (iotaInDim S1024x1024 32 1),
    nullary main_c_16 (constantI S_ 32 0#32),
    unary main_c_16 main_v63 (broadcastInDim S1024x1024 ![] bcast_S_S1024x1024 : (⟨S_, .i32⟩ : BufTy).Contents (Elt F) → (⟨S1024x1024, .i32⟩ : BufTy).Contents (Elt F)),
    binary main_v61 main_v63 main_v64 (addi : (⟨S1024x1024, .i32⟩ : BufTy).Contents (Elt F) → (⟨S1024x1024, .i32⟩ : BufTy).Contents (Elt F) → (⟨S1024x1024, .i32⟩ : BufTy).Contents (Elt F)),
    binary main_v64 main_v62 main_v65 (cmpi .eq : (⟨S1024x1024, .i32⟩ : BufTy).Contents (Elt F) → (⟨S1024x1024, .i32⟩ : BufTy).Contents (Elt F) → (⟨S1024x1024, .i1⟩ : BufTy).Contents (Elt F)),
    unary main_v65 main_v66 (uitofp .f32 : (⟨S1024x1024, .i1⟩ : BufTy).Contents (Elt F) → (⟨S1024x1024, .f32⟩ : BufTy).Contents (Elt F)),
    unary main_v60 main_v67 (broadcastInDim S64x1024x1 ![0, 1] bcast_S64x1024_S64x1024x1_0_1 : (⟨S64x1024, .f32⟩ : BufTy).Contents (Elt F) → (⟨S64x1024x1, .f32⟩ : BufTy).Contents (Elt F)),
    unary main_v66 main_v68 (broadcastInDim S1x1024x1024 ![1, 2] bcast_S1024x1024_S1x1024x1024_1_2 : (⟨S1024x1024, .f32⟩ : BufTy).Contents (Elt F) → (⟨S1x1024x1024, .f32⟩ : BufTy).Contents (Elt F)),
    unary main_v67 main_v69 (broadcastInDim S64x1024x1024 ![0, 1, 2] bcast_S64x1024x1_S64x1024x1024_0_1_2 : (⟨S64x1024x1, .f32⟩ : BufTy).Contents (Elt F) → (⟨S64x1024x1024, .f32⟩ : BufTy).Contents (Elt F)),
    unary main_v68 main_v70 (broadcastInDim S64x1024x1024 ![0, 1, 2] bcast_S1x1024x1024_S64x1024x1024_0_1_2 : (⟨S1x1024x1024, .f32⟩ : BufTy).Contents (Elt F) → (⟨S64x1024x1024, .f32⟩ : BufTy).Contents (Elt F)),
    binary main_v69 main_v70 main_v71 (mulf : (⟨S64x1024x1024, .f32⟩ : BufTy).Contents (Elt F) → (⟨S64x1024x1024, .f32⟩ : BufTy).Contents (Elt F) → (⟨S64x1024x1024, .f32⟩ : BufTy).Contents (Elt F)),
    binary main_v71 main_v59 main_v72 (subf : (⟨S64x1024x1024, .f32⟩ : BufTy).Contents (Elt F) → (⟨S64x1024x1024, .f32⟩ : BufTy).Contents (Elt F) → (⟨S64x1024x1024, .f32⟩ : BufTy).Contents (Elt F)),
    binary main_v37 main_v1 main_v73 ((fun l r => Host.dotGeneral dot_S64x1024x1024_S64x1024x64_S64x1024x64_2_1_1_2_0_0 none l r) : (⟨S64x1024x1024, .f32⟩ : BufTy).Contents (Elt F) → (⟨S64x1024x64, .f32⟩ : BufTy).Contents (Elt F) → (⟨S64x1024x64, .f32⟩ : BufTy).Contents (Elt F)),
    nullary main_c_17 (constantI S_ 32 0#32),
    unary main_c_17 main_v74 (broadcastInDim S64 ![] bcast_S_S64 : (⟨S_, .i32⟩ : BufTy).Contents (Elt F) → (⟨S64, .i32⟩ : BufTy).Contents (Elt F)),
    binary main_v2 main_v74 main_v75 (cmpi .slt : (⟨S64, .i32⟩ : BufTy).Contents (Elt F) → (⟨S64, .i32⟩ : BufTy).Contents (Elt F) → (⟨S64, .i1⟩ : BufTy).Contents (Elt F)),
    nullary main_c_18 (constantI S_ 32 24#32),
    unary main_c_18 main_v76 (broadcastInDim S64 ![] bcast_S_S64 : (⟨S_, .i32⟩ : BufTy).Contents (Elt F) → (⟨S64, .i32⟩ : BufTy).Contents (Elt F)),
    binary main_v2 main_v76 main_v77 (addi : (⟨S64, .i32⟩ : BufTy).Contents (Elt F) → (⟨S64, .i32⟩ : BufTy).Contents (Elt F) → (⟨S64, .i32⟩ : BufTy).Contents (Elt F)),
    ternary main_v75 main_v77 main_v2 main_v78 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v78 main_v79 (broadcastInDim S64x1 ![0] bcast_S64_S64x1_0 : (⟨S64, .i32⟩ : BufTy).Contents (Elt F) → (⟨S64x1, .i32⟩ : BufTy).Contents (Elt F)),
    binary main_arg6 main_v79 main_v80 ((fun x i => Host.gather gather_S24x1024_S64x1_S64x1024_1_0_n_n_0_1_11024 x i) : (⟨S24x1024, .f32⟩ : BufTy).Contents (Elt F) → (⟨S64x1, .i32⟩ : BufTy).Contents (Elt F) → (⟨S64x1024, .f32⟩ : BufTy).Contents (Elt F)),
    unary main_v80 main_v81 (broadcastInDim S64x1024x1 ![0, 1] bcast_S64x1024_S64x1024x1_0_1 : (⟨S64x1024, .f32⟩ : BufTy).Contents (Elt F) → (⟨S64x1024x1, .f32⟩ : BufTy).Contents (Elt F)),
    unary main_v81 main_v82 (broadcastInDim S64x1024x64 ![0, 1, 2] bcast_S64x1024x1_S64x1024x64_0_1_2 : (⟨S64x1024x1, .f32⟩ : BufTy).Contents (Elt F) → (⟨S64x1024x64, .f32⟩ : BufTy).Contents (Elt F)),
    binary main_v73 main_v82 main_v83 (addf : (⟨S64x1024x64, .f32⟩ : BufTy).Contents (Elt F) → (⟨S64x1024x64, .f32⟩ : BufTy).Contents (Elt F) → (⟨S64x1024x64, .f32⟩ : BufTy).Contents (Elt F)),
    binary main_v72 main_v1 main_v84 ((fun l r => Host.dotGeneral dot_S64x1024x1024_S64x1024x64_S64x1024x64_2_1_1_2_0_0 none l r) : (⟨S64x1024x1024, .f32⟩ : BufTy).Contents (Elt F) → (⟨S64x1024x64, .f32⟩ : BufTy).Contents (Elt F) → (⟨S64x1024x64, .f32⟩ : BufTy).Contents (Elt F)),
    nullary main_c_19 (constantI S_ 32 0#32),
    unary main_c_19 main_v85 (broadcastInDim S64 ![] bcast_S_S64 : (⟨S_, .i32⟩ : BufTy).Contents (Elt F) → (⟨S64, .i32⟩ : BufTy).Contents (Elt F)),
    binary main_v2 main_v85 main_v86 (cmpi .slt : (⟨S64, .i32⟩ : BufTy).Contents (Elt F) → (⟨S64, .i32⟩ : BufTy).Contents (Elt F) → (⟨S64, .i1⟩ : BufTy).Contents (Elt F)),
    nullary main_c_20 (constantI S_ 32 24#32),
    unary main_c_20 main_v87 (broadcastInDim S64 ![] bcast_S_S64 : (⟨S_, .i32⟩ : BufTy).Contents (Elt F) → (⟨S64, .i32⟩ : BufTy).Contents (Elt F)),
    binary main_v2 main_v87 main_v88 (addi : (⟨S64, .i32⟩ : BufTy).Contents (Elt F) → (⟨S64, .i32⟩ : BufTy).Contents (Elt F) → (⟨S64, .i32⟩ : BufTy).Contents (Elt F)),
    ternary main_v86 main_v88 main_v2 main_v89 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v89 main_v90 (broadcastInDim S64x1 ![0] bcast_S64_S64x1_0 : (⟨S64, .i32⟩ : BufTy).Contents (Elt F) → (⟨S64x1, .i32⟩ : BufTy).Contents (Elt F)),
    binary main_arg7 main_v90 main_v91 ((fun x i => Host.gather gather_S24x1024_S64x1_S64x1024_1_0_n_n_0_1_11024 x i) : (⟨S24x1024, .f32⟩ : BufTy).Contents (Elt F) → (⟨S64x1, .i32⟩ : BufTy).Contents (Elt F) → (⟨S64x1024, .f32⟩ : BufTy).Contents (Elt F)),
    unary main_v91 main_v92 (broadcastInDim S64x1024x1 ![0, 1] bcast_S64x1024_S64x1024x1_0_1 : (⟨S64x1024, .f32⟩ : BufTy).Contents (Elt F) → (⟨S64x1024x1, .f32⟩ : BufTy).Contents (Elt F)),
    unary main_v92 main_v93 (broadcastInDim S64x1024x64 ![0, 1, 2] bcast_S64x1024x1_S64x1024x64_0_1_2 : (⟨S64x1024x1, .f32⟩ : BufTy).Contents (Elt F) → (⟨S64x1024x64, .f32⟩ : BufTy).Contents (Elt F)),
    binary main_v84 main_v93 main_v94 (addf : (⟨S64x1024x64, .f32⟩ : BufTy).Contents (Elt F) → (⟨S64x1024x64, .f32⟩ : BufTy).Contents (Elt F) → (⟨S64x1024x64, .f32⟩ : BufTy).Contents (Elt F)),
    unary main_v83 main_v95 (Host.tanh : (⟨S64x1024x64, .f32⟩ : BufTy).Contents (Elt F) → (⟨S64x1024x64, .f32⟩ : BufTy).Contents (Elt F)),
    binary main_v95 main_v94 main_v96 (addf : (⟨S64x1024x64, .f32⟩ : BufTy).Contents (Elt F) → (⟨S64x1024x64, .f32⟩ : BufTy).Contents (Elt F) → (⟨S64x1024x64, .f32⟩ : BufTy).Contents (Elt F)) ]

/-- 1 operations of main_part2, in order. -/
abbrev ops5 : List (HloOp τ sig (Elt F)) :=
  [ binary main_v96 main_v1 main_v97 (addf : (⟨S64x1024x64, .f32⟩ : BufTy).Contents (Elt F) → (⟨S64x1024x64, .f32⟩ : BufTy).Contents (Elt F) → (⟨S64x1024x64, .f32⟩ : BufTy).Contents (Elt F)) ]

/-- @main's operations, in order. -/
abbrev ops : List (HloOp τ sig (Elt F)) := ops0 ++ ops1 ++ ops2 ++ ops3 ++ ops4 ++ ops5

end Cert.ReferenceIdeal.Hand

end
-- ==== Proof.RefTerm.lean ====
import proofs.«429784_j90872918049138_3_alg».proof.Proof.Gen.ReferenceIdeal

noncomputable section

namespace Cert.ReferenceIdeal.Hand

open Cert.ReferenceIdeal Cert.ReferenceIdeal.Gen Idealize.ShloMosaic

variable {F : FTy → Type} [FloatOps F]

/-- The sample's index word floor-divided by twelve, as the reference's operations compute it. -/
def refQ (a1 : IVec S64 32) : IVec S64 32 :=
  let main_c := (constantI S_ 32 12#32)
  let main_call0_v0 := id main_c
  let main_call0_v1 := (broadcastInDim S64 ![] bcast_S_S64) main_call0_v0
  let main_call0_v2 := Host.divsi a1 main_call0_v1
  let main_call0_v3 := signi a1
  let main_call0_v4 := signi main_call0_v0
  let main_call0_v5 := (broadcastInDim S64 ![] bcast_S_S64) main_call0_v4
  let main_call0_v6 := (cmpi .ne) main_call0_v3 main_call0_v5
  let main_call0_v7 := (broadcastInDim S64 ![] bcast_S_S64) main_call0_v0
  let main_call0_v8 := Host.remsi a1 main_call0_v7
  let main_call0_c := (constantI S_ 32 0#32)
  let main_call0_v9 := (broadcastInDim S64 ![] bcast_S_S64) main_call0_c
  let main_call0_v10 := (cmpi .ne) main_call0_v8 main_call0_v9
  let main_call0_v11 := andi main_call0_v6 main_call0_v10
  let main_call0_c_0 := (constantI S_ 32 1#32)
  let main_call0_v12 := (broadcastInDim S64 ![] bcast_S_S64) main_call0_c_0
  let main_call0_v13 := subi main_call0_v2 main_call0_v12
  let main_v2 := select main_call0_v11 main_call0_v13 main_call0_v2
  main_v2

/-- The reference's result as the chain of its operations over the eight argument arrays. -/
def refOut (a0 : FVec F S64x2x1024x64 .f32) (a1 : IVec S64 32) (a2 : IVec S32768 32) (a3 : IVec S32768 32) (a4 : FVec F S24x32768 .f32) (a5 : FVec F S24x32768 .f32) (a6 : FVec F S24x1024 .f32) (a7 : FVec F S24x1024 .f32) : FVec F S64x1024x64 .f32 :=
  let main_v0 := ((extractStridedSlice S64x1x1024x64 ![0, 0, 0, 0] · slices_S64x2x1024x64_S64x1x1024x64_0_0_0_0) : (⟨S64x2x1024x64, .f32⟩ : BufTy).Contents (Elt F) → (⟨S64x1x1024x64, .f32⟩ : BufTy).Contents (Elt F)) a0
  let main_v1 := shapeCast _ main_v0 shapeCasts_S64x1x1024x64_S64x1024x64
  let main_c := (constantI S_ 32 12#32)
  let main_call0_v0 := id main_c
  let main_call0_v1 := (broadcastInDim S64 ![] bcast_S_S64) main_call0_v0
  let main_call0_v2 := Host.divsi a1 main_call0_v1
  let main_call0_v3 := signi a1
  let main_call0_v4 := signi main_call0_v0
  let main_call0_v5 := (broadcastInDim S64 ![] bcast_S_S64) main_call0_v4
  let main_call0_v6 := (cmpi .ne) main_call0_v3 main_call0_v5
  let main_call0_v7 := (broadcastInDim S64 ![] bcast_S_S64) main_call0_v0
  let main_call0_v8 := Host.remsi a1 main_call0_v7
  let main_call0_c := (constantI S_ 32 0#32)
  let main_call0_v9 := (broadcastInDim S64 ![] bcast_S_S64) main_call0_c
  let main_call0_v10 := (cmpi .ne) main_call0_v8 main_call0_v9
  let main_call0_v11 := andi main_call0_v6 main_call0_v10
  let main_call0_c_0 := (constantI S_ 32 1#32)
  let main_call0_v12 := (broadcastInDim S64 ![] bcast_S_S64) main_call0_c_0
  let main_call0_v13 := subi main_call0_v2 main_call0_v12
  let main_v2 := select main_call0_v11 main_call0_v13 main_call0_v2
  let main_c_0 := (constantI S_ 32 0#32)
  let main_v3 := (broadcastInDim S64 ![] bcast_S_S64 : (⟨S_, .i32⟩ : BufTy).Contents (Elt F) → (⟨S64, .i32⟩ : BufTy).Contents (Elt F)) main_c_0
  let main_v4 := (cmpi .slt : (⟨S64, .i32⟩ : BufTy).Contents (Elt F) → (⟨S64, .i32⟩ : BufTy).Contents (Elt F) → (⟨S64, .i1⟩ : BufTy).Contents (Elt F)) main_v2 main_v3
  let main_c_1 := (constantI S_ 32 24#32)
  let main_v5 := (broadcastInDim S64 ![] bcast_S_S64 : (⟨S_, .i32⟩ : BufTy).Contents (Elt F) → (⟨S64, .i32⟩ : BufTy).Contents (Elt F)) main_c_1
  let main_v6 := (addi : (⟨S64, .i32⟩ : BufTy).Contents (Elt F) → (⟨S64, .i32⟩ : BufTy).Contents (Elt F) → (⟨S64, .i32⟩ : BufTy).Contents (Elt F)) main_v2 main_v5
  let main_v7 := (select : (⟨S64, .i1⟩ : BufTy).Contents (Elt F) → (⟨S64, .i32⟩ : BufTy).Contents (Elt F) → (⟨S64, .i32⟩ : BufTy).Contents (Elt F) → (⟨S64, .i32⟩ : BufTy).Contents (Elt F)) main_v4 main_v6 main_v2
  let main_v8 := (broadcastInDim S64x1 ![0] bcast_S64_S64x1_0 : (⟨S64, .i32⟩ : BufTy).Contents (Elt F) → (⟨S64x1, .i32⟩ : BufTy).Contents (Elt F)) main_v7
  let main_v9 := ((fun x i => Host.gather gather_S24x32768_S64x1_S64x32768_1_0_n_n_0_1_132768 x i) : (⟨S24x32768, .f32⟩ : BufTy).Contents (Elt F) → (⟨S64x1, .i32⟩ : BufTy).Contents (Elt F) → (⟨S64x32768, .f32⟩ : BufTy).Contents (Elt F)) a4 main_v8
  let main_cst := (constant (F := F) S_ .f32 0x00000000#32)
  let main_v10 := (broadcastInDim S64x1024x1024 ![] bcast_S_S64x1024x1024 : (⟨S_, .f32⟩ : BufTy).Contents (Elt F) → (⟨S64x1024x1024, .f32⟩ : BufTy).Contents (Elt F)) main_cst
  let main_c_2 := (constantI S_ 32 0#32)
  let main_v11 := (broadcastInDim S32768 ![] bcast_S_S32768 : (⟨S_, .i32⟩ : BufTy).Contents (Elt F) → (⟨S32768, .i32⟩ : BufTy).Contents (Elt F)) main_c_2
  let main_v12 := (cmpi .slt : (⟨S32768, .i32⟩ : BufTy).Contents (Elt F) → (⟨S32768, .i32⟩ : BufTy).Contents (Elt F) → (⟨S32768, .i1⟩ : BufTy).Contents (Elt F)) a2 main_v11
  let main_c_3 := (constantI S_ 32 1024#32)
  let main_v13 := (broadcastInDim S32768 ![] bcast_S_S32768 : (⟨S_, .i32⟩ : BufTy).Contents (Elt F) → (⟨S32768, .i32⟩ : BufTy).Contents (Elt F)) main_c_3
  let main_v14 := (addi : (⟨S32768, .i32⟩ : BufTy).Contents (Elt F) → (⟨S32768, .i32⟩ : BufTy).Contents (Elt F) → (⟨S32768, .i32⟩ : BufTy).Contents (Elt F)) a2 main_v13
  let main_v15 := (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)) main_v12 main_v14 a2
  let main_c_4 := (constantI S_ 32 0#32)
  let main_v16 := (broadcastInDim S32768 ![] bcast_S_S32768 : (⟨S_, .i32⟩ : BufTy).Contents (Elt F) → (⟨S32768, .i32⟩ : BufTy).Contents (Elt F)) main_c_4
  let main_v17 := (cmpi .slt : (⟨S32768, .i32⟩ : BufTy).Contents (Elt F) → (⟨S32768, .i32⟩ : BufTy).Contents (Elt F) → (⟨S32768, .i1⟩ : BufTy).Contents (Elt F)) a3 main_v16
  let main_c_5 := (constantI S_ 32 1024#32)
  let main_v18 := (broadcastInDim S32768 ![] bcast_S_S32768 : (⟨S_, .i32⟩ : BufTy).Contents (Elt F) → (⟨S32768, .i32⟩ : BufTy).Contents (Elt F)) main_c_5
  let main_v19 := (addi : (⟨S32768, .i32⟩ : BufTy).Contents (Elt F) → (⟨S32768, .i32⟩ : BufTy).Contents (Elt F) → (⟨S32768, .i32⟩ : BufTy).Contents (Elt F)) a3 main_v18
  let main_v20 := (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)) main_v17 main_v19 a3
  let main_v21 := (broadcastInDim S32768x1 ![0] bcast_S32768_S32768x1_0 : (⟨S32768, .i32⟩ : BufTy).Contents (Elt F) → (⟨S32768x1, .i32⟩ : BufTy).Contents (Elt F)) main_v15
  let main_v22 := (broadcastInDim S32768x1 ![0] bcast_S32768_S32768x1_0 : (⟨S32768, .i32⟩ : BufTy).Contents (Elt F) → (⟨S32768x1, .i32⟩ : BufTy).Contents (Elt F)) main_v20
  let main_v23 := ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)) main_v21 main_v22
  let main_v24 := ((fun x i u => Host.scatterAdd scatter_S64x1024x1024_S32768x2_S64x32768_0_12_12_1 x i u) : (⟨S64x1024x1024, .f32⟩ : BufTy).Contents (Elt F) → (⟨S32768x2, .i32⟩ : BufTy).Contents (Elt F) → (⟨S64x32768, .f32⟩ : BufTy).Contents (Elt F) → (⟨S64x1024x1024, .f32⟩ : BufTy).Contents (Elt F)) main_v10 main_v23 main_v9
  let main_cst_6 := (constant (F := F) S_ .f32 0x00000000#32)
  let main_v25 := ((fun x v => Host.reduceAdd x v reducesTo_S64x1024x1024_S64x1024_d1 h_S_) : (⟨S64x1024x1024, .f32⟩ : BufTy).Contents (Elt F) → (⟨S_, .f32⟩ : BufTy).Contents (Elt F) → (⟨S64x1024, .f32⟩ : BufTy).Contents (Elt F)) main_v24 main_cst_6
  let main_v26 := (iotaInDim S1024x1024 32 0)
  let main_v27 := (iotaInDim S1024x1024 32 1)
  let main_c_7 := (constantI S_ 32 0#32)
  let main_v28 := (broadcastInDim S1024x1024 ![] bcast_S_S1024x1024 : (⟨S_, .i32⟩ : BufTy).Contents (Elt F) → (⟨S1024x1024, .i32⟩ : BufTy).Contents (Elt F)) main_c_7
  let main_v29 := (addi : (⟨S1024x1024, .i32⟩ : BufTy).Contents (Elt F) → (⟨S1024x1024, .i32⟩ : BufTy).Contents (Elt F) → (⟨S1024x1024, .i32⟩ : BufTy).Contents (Elt F)) main_v26 main_v28
  let main_v30 := (cmpi .eq : (⟨S1024x1024, .i32⟩ : BufTy).Contents (Elt F) → (⟨S1024x1024, .i32⟩ : BufTy).Contents (Elt F) → (⟨S1024x1024, .i1⟩ : BufTy).Contents (Elt F)) main_v29 main_v27
  let main_v31 := (uitofp .f32 : (⟨S1024x1024, .i1⟩ : BufTy).Contents (Elt F) → (⟨S1024x1024, .f32⟩ : BufTy).Contents (Elt F)) main_v30
  let main_v32 := (broadcastInDim S64x1024x1 ![0, 1] bcast_S64x1024_S64x1024x1_0_1 : (⟨S64x1024, .f32⟩ : BufTy).Contents (Elt F) → (⟨S64x1024x1, .f32⟩ : BufTy).Contents (Elt F)) main_v25
  let main_v33 := (broadcastInDim S1x1024x1024 ![1, 2] bcast_S1024x1024_S1x1024x1024_1_2 : (⟨S1024x1024, .f32⟩ : BufTy).Contents (Elt F) → (⟨S1x1024x1024, .f32⟩ : BufTy).Contents (Elt F)) main_v31
  let main_v34 := (broadcastInDim S64x1024x1024 ![0, 1, 2] bcast_S64x1024x1_S64x1024x1024_0_1_2 : (⟨S64x1024x1, .f32⟩ : BufTy).Contents (Elt F) → (⟨S64x1024x1024, .f32⟩ : BufTy).Contents (Elt F)) main_v32
  let main_v35 := (broadcastInDim S64x1024x1024 ![0, 1, 2] bcast_S1x1024x1024_S64x1024x1024_0_1_2 : (⟨S1x1024x1024, .f32⟩ : BufTy).Contents (Elt F) → (⟨S64x1024x1024, .f32⟩ : BufTy).Contents (Elt F)) main_v33
  let main_v36 := (mulf : (⟨S64x1024x1024, .f32⟩ : BufTy).Contents (Elt F) → (⟨S64x1024x1024, .f32⟩ : BufTy).Contents (Elt F) → (⟨S64x1024x1024, .f32⟩ : BufTy).Contents (Elt F)) main_v34 main_v35
  let main_v37 := (subf : (⟨S64x1024x1024, .f32⟩ : BufTy).Contents (Elt F) → (⟨S64x1024x1024, .f32⟩ : BufTy).Contents (Elt F) → (⟨S64x1024x1024, .f32⟩ : BufTy).Contents (Elt F)) main_v36 main_v24
  let main_c_8 := (constantI S_ 32 0#32)
  let main_v38 := (broadcastInDim S64 ![] bcast_S_S64 : (⟨S_, .i32⟩ : BufTy).Contents (Elt F) → (⟨S64, .i32⟩ : BufTy).Contents (Elt F)) main_c_8
  let main_v39 := (cmpi .slt : (⟨S64, .i32⟩ : BufTy).Contents (Elt F) → (⟨S64, .i32⟩ : BufTy).Contents (Elt F) → (⟨S64, .i1⟩ : BufTy).Contents (Elt F)) main_v2 main_v38
  let main_c_9 := (constantI S_ 32 24#32)
  let main_v40 := (broadcastInDim S64 ![] bcast_S_S64 : (⟨S_, .i32⟩ : BufTy).Contents (Elt F) → (⟨S64, .i32⟩ : BufTy).Contents (Elt F)) main_c_9
  let main_v41 := (addi : (⟨S64, .i32⟩ : BufTy).Contents (Elt F) → (⟨S64, .i32⟩ : BufTy).Contents (Elt F) → (⟨S64, .i32⟩ : BufTy).Contents (Elt F)) main_v2 main_v40
  let main_v42 := (select : (⟨S64, .i1⟩ : BufTy).Contents (Elt F) → (⟨S64, .i32⟩ : BufTy).Contents (Elt F) → (⟨S64, .i32⟩ : BufTy).Contents (Elt F) → (⟨S64, .i32⟩ : BufTy).Contents (Elt F)) main_v39 main_v41 main_v2
  let main_v43 := (broadcastInDim S64x1 ![0] bcast_S64_S64x1_0 : (⟨S64, .i32⟩ : BufTy).Contents (Elt F) → (⟨S64x1, .i32⟩ : BufTy).Contents (Elt F)) main_v42
  let main_v44 := ((fun x i => Host.gather gather_S24x32768_S64x1_S64x32768_1_0_n_n_0_1_132768 x i) : (⟨S24x32768, .f32⟩ : BufTy).Contents (Elt F) → (⟨S64x1, .i32⟩ : BufTy).Contents (Elt F) → (⟨S64x32768, .f32⟩ : BufTy).Contents (Elt F)) a5 main_v43
  let main_cst_10 := (constant (F := F) S_ .f32 0x00000000#32)
  let main_v45 := (broadcastInDim S64x1024x1024 ![] bcast_S_S64x1024x1024 : (⟨S_, .f32⟩ : BufTy).Contents (Elt F) → (⟨S64x1024x1024, .f32⟩ : BufTy).Contents (Elt F)) main_cst_10
  let main_c_11 := (constantI S_ 32 0#32)
  let main_v46 := (broadcastInDim S32768 ![] bcast_S_S32768 : (⟨S_, .i32⟩ : BufTy).Contents (Elt F) → (⟨S32768, .i32⟩ : BufTy).Contents (Elt F)) main_c_11
  let main_v47 := (cmpi .slt : (⟨S32768, .i32⟩ : BufTy).Contents (Elt F) → (⟨S32768, .i32⟩ : BufTy).Contents (Elt F) → (⟨S32768, .i1⟩ : BufTy).Contents (Elt F)) a3 main_v46
  let main_c_12 := (constantI S_ 32 1024#32)
  let main_v48 := (broadcastInDim S32768 ![] bcast_S_S32768 : (⟨S_, .i32⟩ : BufTy).Contents (Elt F) → (⟨S32768, .i32⟩ : BufTy).Contents (Elt F)) main_c_12
  let main_v49 := (addi : (⟨S32768, .i32⟩ : BufTy).Contents (Elt F) → (⟨S32768, .i32⟩ : BufTy).Contents (Elt F) → (⟨S32768, .i32⟩ : BufTy).Contents (Elt F)) a3 main_v48
  let main_v50 := (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)) main_v47 main_v49 a3
  let main_c_13 := (constantI S_ 32 0#32)
  let main_v51 := (broadcastInDim S32768 ![] bcast_S_S32768 : (⟨S_, .i32⟩ : BufTy).Contents (Elt F) → (⟨S32768, .i32⟩ : BufTy).Contents (Elt F)) main_c_13
  let main_v52 := (cmpi .slt : (⟨S32768, .i32⟩ : BufTy).Contents (Elt F) → (⟨S32768, .i32⟩ : BufTy).Contents (Elt F) → (⟨S32768, .i1⟩ : BufTy).Contents (Elt F)) a2 main_v51
  let main_c_14 := (constantI S_ 32 1024#32)
  let main_v53 := (broadcastInDim S32768 ![] bcast_S_S32768 : (⟨S_, .i32⟩ : BufTy).Contents (Elt F) → (⟨S32768, .i32⟩ : BufTy).Contents (Elt F)) main_c_14
  let main_v54 := (addi : (⟨S32768, .i32⟩ : BufTy).Contents (Elt F) → (⟨S32768, .i32⟩ : BufTy).Contents (Elt F) → (⟨S32768, .i32⟩ : BufTy).Contents (Elt F)) a2 main_v53
  let main_v55 := (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)) main_v52 main_v54 a2
  let main_v56 := (broadcastInDim S32768x1 ![0] bcast_S32768_S32768x1_0 : (⟨S32768, .i32⟩ : BufTy).Contents (Elt F) → (⟨S32768x1, .i32⟩ : BufTy).Contents (Elt F)) main_v50
  let main_v57 := (broadcastInDim S32768x1 ![0] bcast_S32768_S32768x1_0 : (⟨S32768, .i32⟩ : BufTy).Contents (Elt F) → (⟨S32768x1, .i32⟩ : BufTy).Contents (Elt F)) main_v55
  let main_v58 := ((fun a b => concatenate S32768x2 1 [⟨S32768x1, a⟩, ⟨S32768x1, b⟩] concatenates_S32768x1_S32768x1_S32768x2_d1) : (⟨S32768x1, .i32⟩ : BufTy).Contents (Elt F) → (⟨S32768x1, .i32⟩ : BufTy).Contents (Elt F) → (⟨S32768x2, .i32⟩ : BufTy).Contents (Elt F)) main_v56 main_v57
  let main_v59 := ((fun x i u => Host.scatterAdd scatter_S64x1024x1024_S32768x2_S64x32768_0_12_12_1 x i u) : (⟨S64x1024x1024, .f32⟩ : BufTy).Contents (Elt F) → (⟨S32768x2, .i32⟩ : BufTy).Contents (Elt F) → (⟨S64x32768, .f32⟩ : BufTy).Contents (Elt F) → (⟨S64x1024x1024, .f32⟩ : BufTy).Contents (Elt F)) main_v45 main_v58 main_v44
  let main_cst_15 := (constant (F := F) S_ .f32 0x00000000#32)
  let main_v60 := ((fun x v => Host.reduceAdd x v reducesTo_S64x1024x1024_S64x1024_d1 h_S_) : (⟨S64x1024x1024, .f32⟩ : BufTy).Contents (Elt F) → (⟨S_, .f32⟩ : BufTy).Contents (Elt F) → (⟨S64x1024, .f32⟩ : BufTy).Contents (Elt F)) main_v59 main_cst_15
  let main_v61 := (iotaInDim S1024x1024 32 0)
  let main_v62 := (iotaInDim S1024x1024 32 1)
  let main_c_16 := (constantI S_ 32 0#32)
  let main_v63 := (broadcastInDim S1024x1024 ![] bcast_S_S1024x1024 : (⟨S_, .i32⟩ : BufTy).Contents (Elt F) → (⟨S1024x1024, .i32⟩ : BufTy).Contents (Elt F)) main_c_16
  let main_v64 := (addi : (⟨S1024x1024, .i32⟩ : BufTy).Contents (Elt F) → (⟨S1024x1024, .i32⟩ : BufTy).Contents (Elt F) → (⟨S1024x1024, .i32⟩ : BufTy).Contents (Elt F)) main_v61 main_v63
  let main_v65 := (cmpi .eq : (⟨S1024x1024, .i32⟩ : BufTy).Contents (Elt F) → (⟨S1024x1024, .i32⟩ : BufTy).Contents (Elt F) → (⟨S1024x1024, .i1⟩ : BufTy).Contents (Elt F)) main_v64 main_v62
  let main_v66 := (uitofp .f32 : (⟨S1024x1024, .i1⟩ : BufTy).Contents (Elt F) → (⟨S1024x1024, .f32⟩ : BufTy).Contents (Elt F)) main_v65
  let main_v67 := (broadcastInDim S64x1024x1 ![0, 1] bcast_S64x1024_S64x1024x1_0_1 : (⟨S64x1024, .f32⟩ : BufTy).Contents (Elt F) → (⟨S64x1024x1, .f32⟩ : BufTy).Contents (Elt F)) main_v60
  let main_v68 := (broadcastInDim S1x1024x1024 ![1, 2] bcast_S1024x1024_S1x1024x1024_1_2 : (⟨S1024x1024, .f32⟩ : BufTy).Contents (Elt F) → (⟨S1x1024x1024, .f32⟩ : BufTy).Contents (Elt F)) main_v66
  let main_v69 := (broadcastInDim S64x1024x1024 ![0, 1, 2] bcast_S64x1024x1_S64x1024x1024_0_1_2 : (⟨S64x1024x1, .f32⟩ : BufTy).Contents (Elt F) → (⟨S64x1024x1024, .f32⟩ : BufTy).Contents (Elt F)) main_v67
  let main_v70 := (broadcastInDim S64x1024x1024 ![0, 1, 2] bcast_S1x1024x1024_S64x1024x1024_0_1_2 : (⟨S1x1024x1024, .f32⟩ : BufTy).Contents (Elt F) → (⟨S64x1024x1024, .f32⟩ : BufTy).Contents (Elt F)) main_v68
  let main_v71 := (mulf : (⟨S64x1024x1024, .f32⟩ : BufTy).Contents (Elt F) → (⟨S64x1024x1024, .f32⟩ : BufTy).Contents (Elt F) → (⟨S64x1024x1024, .f32⟩ : BufTy).Contents (Elt F)) main_v69 main_v70
  let main_v72 := (subf : (⟨S64x1024x1024, .f32⟩ : BufTy).Contents (Elt F) → (⟨S64x1024x1024, .f32⟩ : BufTy).Contents (Elt F) → (⟨S64x1024x1024, .f32⟩ : BufTy).Contents (Elt F)) main_v71 main_v59
  let main_v73 := ((fun l r => Host.dotGeneral dot_S64x1024x1024_S64x1024x64_S64x1024x64_2_1_1_2_0_0 none l r) : (⟨S64x1024x1024, .f32⟩ : BufTy).Contents (Elt F) → (⟨S64x1024x64, .f32⟩ : BufTy).Contents (Elt F) → (⟨S64x1024x64, .f32⟩ : BufTy).Contents (Elt F)) main_v37 main_v1
  let main_c_17 := (constantI S_ 32 0#32)
  let main_v74 := (broadcastInDim S64 ![] bcast_S_S64 : (⟨S_, .i32⟩ : BufTy).Contents (Elt F) → (⟨S64, .i32⟩ : BufTy).Contents (Elt F)) main_c_17
  let main_v75 := (cmpi .slt : (⟨S64, .i32⟩ : BufTy).Contents (Elt F) → (⟨S64, .i32⟩ : BufTy).Contents (Elt F) → (⟨S64, .i1⟩ : BufTy).Contents (Elt F)) main_v2 main_v74
  let main_c_18 := (constantI S_ 32 24#32)
  let main_v76 := (broadcastInDim S64 ![] bcast_S_S64 : (⟨S_, .i32⟩ : BufTy).Contents (Elt F) → (⟨S64, .i32⟩ : BufTy).Contents (Elt F)) main_c_18
  let main_v77 := (addi : (⟨S64, .i32⟩ : BufTy).Contents (Elt F) → (⟨S64, .i32⟩ : BufTy).Contents (Elt F) → (⟨S64, .i32⟩ : BufTy).Contents (Elt F)) main_v2 main_v76
  let main_v78 := (select : (⟨S64, .i1⟩ : BufTy).Contents (Elt F) → (⟨S64, .i32⟩ : BufTy).Contents (Elt F) → (⟨S64, .i32⟩ : BufTy).Contents (Elt F) → (⟨S64, .i32⟩ : BufTy).Contents (Elt F)) main_v75 main_v77 main_v2
  let main_v79 := (broadcastInDim S64x1 ![0] bcast_S64_S64x1_0 : (⟨S64, .i32⟩ : BufTy).Contents (Elt F) → (⟨S64x1, .i32⟩ : BufTy).Contents (Elt F)) main_v78
  let main_v80 := ((fun x i => Host.gather gather_S24x1024_S64x1_S64x1024_1_0_n_n_0_1_11024 x i) : (⟨S24x1024, .f32⟩ : BufTy).Contents (Elt F) → (⟨S64x1, .i32⟩ : BufTy).Contents (Elt F) → (⟨S64x1024, .f32⟩ : BufTy).Contents (Elt F)) a6 main_v79
  let main_v81 := (broadcastInDim S64x1024x1 ![0, 1] bcast_S64x1024_S64x1024x1_0_1 : (⟨S64x1024, .f32⟩ : BufTy).Contents (Elt F) → (⟨S64x1024x1, .f32⟩ : BufTy).Contents (Elt F)) main_v80
  let main_v82 := (broadcastInDim S64x1024x64 ![0, 1, 2] bcast_S64x1024x1_S64x1024x64_0_1_2 : (⟨S64x1024x1, .f32⟩ : BufTy).Contents (Elt F) → (⟨S64x1024x64, .f32⟩ : BufTy).Contents (Elt F)) main_v81
  let main_v83 := (addf : (⟨S64x1024x64, .f32⟩ : BufTy).Contents (Elt F) → (⟨S64x1024x64, .f32⟩ : BufTy).Contents (Elt F) → (⟨S64x1024x64, .f32⟩ : BufTy).Contents (Elt F)) main_v73 main_v82
  let main_v84 := ((fun l r => Host.dotGeneral dot_S64x1024x1024_S64x1024x64_S64x1024x64_2_1_1_2_0_0 none l r) : (⟨S64x1024x1024, .f32⟩ : BufTy).Contents (Elt F) → (⟨S64x1024x64, .f32⟩ : BufTy).Contents (Elt F) → (⟨S64x1024x64, .f32⟩ : BufTy).Contents (Elt F)) main_v72 main_v1
  let main_c_19 := (constantI S_ 32 0#32)
  let main_v85 := (broadcastInDim S64 ![] bcast_S_S64 : (⟨S_, .i32⟩ : BufTy).Contents (Elt F) → (⟨S64, .i32⟩ : BufTy).Contents (Elt F)) main_c_19
  let main_v86 := (cmpi .slt : (⟨S64, .i32⟩ : BufTy).Contents (Elt F) → (⟨S64, .i32⟩ : BufTy).Contents (Elt F) → (⟨S64, .i1⟩ : BufTy).Contents (Elt F)) main_v2 main_v85
  let main_c_20 := (constantI S_ 32 24#32)
  let main_v87 := (broadcastInDim S64 ![] bcast_S_S64 : (⟨S_, .i32⟩ : BufTy).Contents (Elt F) → (⟨S64, .i32⟩ : BufTy).Contents (Elt F)) main_c_20
  let main_v88 := (addi : (⟨S64, .i32⟩ : BufTy).Contents (Elt F) → (⟨S64, .i32⟩ : BufTy).Contents (Elt F) → (⟨S64, .i32⟩ : BufTy).Contents (Elt F)) main_v2 main_v87
  let main_v89 := (select : (⟨S64, .i1⟩ : BufTy).Contents (Elt F) → (⟨S64, .i32⟩ : BufTy).Contents (Elt F) → (⟨S64, .i32⟩ : BufTy).Contents (Elt F) → (⟨S64, .i32⟩ : BufTy).Contents (Elt F)) main_v86 main_v88 main_v2
  let main_v90 := (broadcastInDim S64x1 ![0] bcast_S64_S64x1_0 : (⟨S64, .i32⟩ : BufTy).Contents (Elt F) → (⟨S64x1, .i32⟩ : BufTy).Contents (Elt F)) main_v89
  let main_v91 := ((fun x i => Host.gather gather_S24x1024_S64x1_S64x1024_1_0_n_n_0_1_11024 x i) : (⟨S24x1024, .f32⟩ : BufTy).Contents (Elt F) → (⟨S64x1, .i32⟩ : BufTy).Contents (Elt F) → (⟨S64x1024, .f32⟩ : BufTy).Contents (Elt F)) a7 main_v90
  let main_v92 := (broadcastInDim S64x1024x1 ![0, 1] bcast_S64x1024_S64x1024x1_0_1 : (⟨S64x1024, .f32⟩ : BufTy).Contents (Elt F) → (⟨S64x1024x1, .f32⟩ : BufTy).Contents (Elt F)) main_v91
  let main_v93 := (broadcastInDim S64x1024x64 ![0, 1, 2] bcast_S64x1024x1_S64x1024x64_0_1_2 : (⟨S64x1024x1, .f32⟩ : BufTy).Contents (Elt F) → (⟨S64x1024x64, .f32⟩ : BufTy).Contents (Elt F)) main_v92
  let main_v94 := (addf : (⟨S64x1024x64, .f32⟩ : BufTy).Contents (Elt F) → (⟨S64x1024x64, .f32⟩ : BufTy).Contents (Elt F) → (⟨S64x1024x64, .f32⟩ : BufTy).Contents (Elt F)) main_v84 main_v93
  let main_v95 := (Host.tanh : (⟨S64x1024x64, .f32⟩ : BufTy).Contents (Elt F) → (⟨S64x1024x64, .f32⟩ : BufTy).Contents (Elt F)) main_v83
  let main_v96 := (addf : (⟨S64x1024x64, .f32⟩ : BufTy).Contents (Elt F) → (⟨S64x1024x64, .f32⟩ : BufTy).Contents (Elt F) → (⟨S64x1024x64, .f32⟩ : BufTy).Contents (Elt F)) main_v95 main_v94
  let main_v97 := (addf : (⟨S64x1024x64, .f32⟩ : BufTy).Contents (Elt F) → (⟨S64x1024x64, .f32⟩ : BufTy).Contents (Elt F) → (⟨S64x1024x64, .f32⟩ : BufTy).Contents (Elt F)) main_v96 main_v1
  main_v97

end Cert.ReferenceIdeal.Hand

end
-- ==== Proof.RefRun.lean ====
/-
  The reference's run read back: every weakly fair execution of its @main terminates with the result buffer at the chain
  of its operations over the argument arrays, the arguments unchanged.
-/
import proofs.«429784_j90872918049138_3_alg».proof.Proof.RefOps
import proofs.«429784_j90872918049138_3_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The contents after two stretches run in order are the second's over the first's. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

set_option maxRecDepth 8192 in
/-- The first sixty statements, the two outlined functions unfolded at their calls, are one straight line. -/
theorem part0_eq (c : Dev nD) : main_part0 (F := F) c = seq (ops0 ++ ops1 ++ ops2 ++ ops3) := by
  simp only [main_part0, fn_floor_divide.body, fn_where.body, seq_append, seq, bind_assoc, pure_bind]
  rfl

set_option maxRecDepth 8192 in
theorem part1_eq (c : Dev nD) : main_part1 (F := F) c = seq ops4 := rfl

theorem part2_eq (c : Dev nD) : main_part2 (F := F) c = seq ops5 := rfl

/-- @main is the straight line of its 137 operations. -/
theorem main_eq (c : Dev nD) : main (F := F) c = seq ops := by
  simp only [ops, seq_append, main, ← part0_eq c, ← part1_eq c, ← part2_eq c, bind_assoc]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., reshape_bufs_sub .., nullary_bufs_sub ..⟩
set_option maxRecDepth 8192 in
theorem ops0_fresh : (ops0 : List (HloOp τ sig (Elt F))).Forall fun op => op.fresh = ∅ :=
  ⟨rfl, rfl, rfl⟩

set_option maxRecDepth 8192 in
theorem ops1_sub : (ops1 : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub ..⟩
set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl⟩

set_option maxRecDepth 8192 in
theorem ops2_sub : (ops2 : List (HloOp τ sig (Elt F))).Forall fun op => op.bufs ⊆ tcRefs τ sig :=
  ternary_bufs_sub ..
set_option maxRecDepth 8192 in
theorem ops2_fresh : (ops2 : List (HloOp τ sig (Elt F))).Forall fun op => op.fresh = ∅ :=
  rfl

set_option maxRecDepth 8192 in
theorem ops3_sub : (ops3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., binary_bufs_sub .., nullary_bufs_sub .., nullary_bufs_sub .., nullary_bufs_sub .., unary_bufs_sub .., binary_bufs_sub .., binary_bufs_sub .., unary_bufs_sub .., unary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub ..⟩
set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops4_sub : (ops4 : List (HloOp τ sig (Elt F))).Forall fun op => op.bufs ⊆ tcRefs τ sig :=
  ⟨unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., binary_bufs_sub .., nullary_bufs_sub .., nullary_bufs_sub .., nullary_bufs_sub .., unary_bufs_sub .., binary_bufs_sub .., binary_bufs_sub .., unary_bufs_sub .., unary_bufs_sub .., unary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., unary_bufs_sub .., binary_bufs_sub ..⟩
set_option maxRecDepth 8192 in
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops5_sub : (ops5 : List (HloOp τ sig (Elt F))).Forall fun op => op.bufs ⊆ tcRefs τ sig :=
  binary_bufs_sub ..
set_option maxRecDepth 8192 in
theorem ops5_fresh : (ops5 : List (HloOp τ sig (Elt F))).Forall fun op => op.fresh = ∅ :=
  rfl

theorem ops_sub : (ops : List (HloOp τ sig (Elt F))).Forall fun op => op.bufs ⊆ tcRefs τ sig :=
  List.forall_iff_forall_mem.mpr fun op h => by
    simp only [ops, List.mem_append] at h
    rcases h with ((((h | h) | h) | h) | h) | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h, List.forall_iff_forall_mem.mp ops5_sub op h]

theorem ops_fresh : ∀ op ∈ (ops : List (HloOp τ sig (Elt F))), op.fresh = ∅ := fun op h => by
    simp only [ops, List.mem_append] at h
    rcases h with ((((h | h) | h) | h) | h) | h
    exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h, List.forall_iff_forall_mem.mp ops5_fresh op h]

set_option maxRecDepth 16384 in
set_option maxHeartbeats 8000000 in
/-- The fold of the operations' results at the result buffer is the chain of their functions over the arguments. -/
theorem out_eq (V : Valuation τ sig (Elt F)) :
    after ops V (Proc.devRef .tc main_v97) = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  simp only [ops, after_app]
  after_results_simp
  rfl

set_option maxRecDepth 16384 in
set_option maxHeartbeats 4000000 in
theorem arg0_eq (V : Valuation τ sig (Elt F)) :
    after ops V (Proc.devRef .tc main_arg0) = V (Proc.devRef .tc main_arg0) := by
  simp only [ops, after_app]
  after_results_simp

set_option maxRecDepth 16384 in
set_option maxHeartbeats 4000000 in
theorem arg1_eq (V : Valuation τ sig (Elt F)) :
    after ops V (Proc.devRef .tc main_arg1) = V (Proc.devRef .tc main_arg1) := by
  simp only [ops, after_app]
  after_results_simp

set_option maxRecDepth 16384 in
set_option maxHeartbeats 4000000 in
theorem arg2_eq (V : Valuation τ sig (Elt F)) :
    after ops V (Proc.devRef .tc main_arg2) = V (Proc.devRef .tc main_arg2) := by
  simp only [ops, after_app]
  after_results_simp

set_option maxRecDepth 16384 in
set_option maxHeartbeats 4000000 in
theorem arg3_eq (V : Valuation τ sig (Elt F)) :
    after ops V (Proc.devRef .tc main_arg3) = V (Proc.devRef .tc main_arg3) := by
  simp only [ops, after_app]
  after_results_simp

set_option maxRecDepth 16384 in
set_option maxHeartbeats 4000000 in
theorem arg4_eq (V : Valuation τ sig (Elt F)) :
    after ops V (Proc.devRef .tc main_arg4) = V (Proc.devRef .tc main_arg4) := by
  simp only [ops, after_app]
  after_results_simp

set_option maxRecDepth 16384 in
set_option maxHeartbeats 4000000 in
theorem arg5_eq (V : Valuation τ sig (Elt F)) :
    after ops V (Proc.devRef .tc main_arg5) = V (Proc.devRef .tc main_arg5) := by
  simp only [ops, after_app]
  after_results_simp

set_option maxRecDepth 16384 in
set_option maxHeartbeats 4000000 in
theorem arg6_eq (V : Valuation τ sig (Elt F)) :
    after ops V (Proc.devRef .tc main_arg6) = V (Proc.devRef .tc main_arg6) := by
  simp only [ops, after_app]
  after_results_simp

set_option maxRecDepth 16384 in
set_option maxHeartbeats 4000000 in
theorem arg7_eq (V : Valuation τ sig (Elt F)) :
    after ops V (Proc.devRef .tc main_arg7) = V (Proc.devRef .tc main_arg7) := by
  simp only [ops, after_app]
  after_results_simp

/-- On every device, from any memory with zero counters: every weakly fair execution of @main terminates with the result buffer at
    the chain of the operations' functions over the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v97)
        = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v97).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_seq scopedRefs_eq scopedSems_eq defs main (fun _ => ops) main_eq (fun _ => ops_sub) m ρ (fun _ => ops_fresh))

end Cert.ReferenceIdeal.Hand

end
-- ==== Proof.RefDot.lean ====
/-
  The reference's batched matrix product read at an index over the extended reals: with the batch axis 0 shared, the left
  operand's axis 2 contracted against the right operand's axis 1,
      (L ·_b x)[b, w, l] = Σ_v L[b, w, v] · x[b, v, l].
-/
import proofs.«429784_j90872918049138_3_alg».proof.Proof.Gen.ReferenceIdeal
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.ValueIdx
open scoped BigOperators

/-- The product's dimension numbers. -/
abbrev bdot := dot_S64x1024x1024_S64x1024x64_S64x1024x64_2_1_1_2_0_0

theorem bdot_rank : bdot.contr.rank = 1 := by decide
theorem bdot_size : bdot.contr.size ⟨0, by rw [bdot_rank]; exact Nat.one_pos⟩ = 1024 := by decide

private theorem val_congr {n : Nat} {S : Fin n → Nat} (j : (a : Fin n) → Fin (S a)) (p q : Nat) (hp : p < n) (hq : q < n)
    (h : p = q) : (j ⟨p, hp⟩).val = (j ⟨q, hq⟩).val := by subst h; rfl

/-- The left operand is read at (b, w, ·): the batch axis and the row axis follow the result index. -/
theorem bdot_lhs_0 (j : S64x1024x64.Idx) (k : bdot.contr.Idx) : (bdot.lhsIdx j k 0).val = (j 0).val := by
  unfold DotDims.lhsIdx
  rw [dif_pos (show (0 : Fin S64x1024x1024.rank) ∈ bdot.lhsBatch by decide)]
  simp only [Fin.val_cast]
  exact val_congr j _ _ _ _ (by decide)

theorem bdot_lhs_1 (j : S64x1024x64.Idx) (k : bdot.contr.Idx) : (bdot.lhsIdx j k 1).val = (j 1).val := by
  unfold DotDims.lhsIdx
  rw [dif_neg (show ¬ (1 : Fin S64x1024x1024.rank) ∈ bdot.lhsBatch by decide),
    dif_pos (show (1 : Fin S64x1024x1024.rank) ∈ bdot.lhsNonContracting by decide)]
  simp only [Fin.val_cast]
  exact val_congr j _ _ _ _ (by decide)

theorem bdot_lhs_2 (j : S64x1024x64.Idx) (k : bdot.contr.Idx) :
    (bdot.lhsIdx j k 2).val = (k ⟨0, by rw [bdot_rank]; exact Nat.one_pos⟩).val :=
  bdot.lhsIdx_val_of_single (cl := 2) rfl j k

/-- The right operand is read at (b, ·, l). -/
theorem bdot_rhs_0 (j : S64x1024x64.Idx) (k : bdot.contr.Idx) : (bdot.rhsIdx j k 0).val = (j 0).val := by
  unfold DotDims.rhsIdx
  rw [dif_pos (show (0 : Fin S64x1024x64.rank) ∈ bdot.rhsBatch by decide)]
  simp only [Fin.val_cast]
  exact val_congr j _ _ _ _ (by decide)

theorem bdot_rhs_1 (j : S64x1024x64.Idx) (k : bdot.contr.Idx) :
    (bdot.rhsIdx j k 1).val = (k ⟨0, by rw [bdot_rank]; exact Nat.one_pos⟩).val :=
  bdot.rhsIdx_val_of_single (cr := 1) rfl j k

theorem bdot_rhs_2 (j : S64x1024x64.Idx) (k : bdot.contr.Idx) : (bdot.rhsIdx j k 2).val = (j 2).val := by
  unfold DotDims.rhsIdx
  rw [dif_neg (show ¬ (2 : Fin S64x1024x64.rank) ∈ bdot.rhsBatch by decide),
    dif_pos (show (2 : Fin S64x1024x64.rank) ∈ bdot.rhsNonContracting by decide)]
  simp only [Fin.val_cast]
  exact val_congr j _ _ _ _ (by decide)

/-- THE BATCHED PRODUCT AT (b, w, l). -/
theorem bdot_apply (L : FVec Ideal S64x1024x1024 .f32) (x : FVec Ideal S64x1024x64 .f32) (b : Fin 64) (w : Fin 1024) (l : Fin 64) :
    Host.dotGeneral (F := Ideal) bdot none L x (ix3 b w l) = ∑ v : Fin 1024, (L (ix3 b w v) : EReal) * x (ix3 b v l) := by
  show FloatOps.dotGeneral bdot none .single L x (ix3 b w l) = _
  rw [Ideal.dotGeneral_apply]
  rw [← Equiv.sum_comp (contrEquiv1 bdot 1024 bdot_rank bdot_size).symm]
  refine Finset.sum_congr rfl fun v _ => ?_
  have hl : bdot.lhsIdx (ix3 b w l) ((contrEquiv1 bdot 1024 bdot_rank bdot_size).symm v) = ix3 b w v := by
    funext a
    refine Fin.ext ?_
    match a with
    | ⟨0, _⟩ => exact bdot_lhs_0 _ _
    | ⟨1, _⟩ => exact bdot_lhs_1 _ _
    | ⟨2, _⟩ => exact (bdot_lhs_2 _ _).trans (contrEquiv1_symm_val bdot 1024 bdot_rank bdot_size v)
  have hr : bdot.rhsIdx (ix3 b w l) ((contrEquiv1 bdot 1024 bdot_rank bdot_size).symm v) = ix3 b v l := by
    funext a
    refine Fin.ext ?_
    match a with
    | ⟨0, _⟩ => exact bdot_rhs_0 _ _
    | ⟨1, _⟩ => exact (bdot_rhs_1 _ _).trans (contrEquiv1_symm_val bdot 1024 bdot_rank bdot_size v)
    | ⟨2, _⟩ => exact bdot_rhs_2 _ _
  rw [hl, hr]

end Cert.ReferenceIdeal.Hand

end
-- ==== Proof.RefValue.lean ====
/-
  The reference's chain of operations, read at an index over the extended reals, is the specification: the slot's weights
  gathered per sample, the adjacency scatter, its column sums spread along rows and masked by the identity, the
  difference, the batched matrix product with the sample's block, the gathered biases, tanh and the two sums.
-/
import proofs.«429784_j90872918049138_3_alg».proof.Proof.RefTerm
import proofs.«429784_j90872918049138_3_alg».proof.Proof.Spec
import proofs.«429784_j90872918049138_3_alg».proof.Proof.LibEdgeScatter
import proofs.«429784_j90872918049138_3_alg».proof.Proof.LibRowGatherScatter
import proofs.«429784_j90872918049138_3_alg».proof.Proof.Ints
import proofs.«429784_j90872918049138_3_alg».proof.Proof.RefDot
import Idealize.ShloMosaic.PureOps.Ideal.Laws

noncomputable section

namespace Cert.ReferenceIdeal.Hand

open Cert.ReferenceIdeal Cert.ReferenceIdeal.Gen Idealize.ShloMosaic Idealize.ShloMosaic.ValueIdx
open scoped BigOperators

/-! ## The slot word: the sample's index word floor-divided by twelve -/

/-- At sample b the quotient chain is the one-word floor division of the sample's index word. -/
private theorem refQ_apply (a1 : IVec S64 32) (b : Fin 64) : refQ a1 (ix1 b) = Cert.Ints.fdiv12 (a1 (ix1 b)) := rfl

/-- On an index word below 288 it is the word's value divided by twelve. -/
private theorem refQ_eq (a1 : IVec S64 32) (b : Fin 64) (h : (a1 (ix1 b)).toNat < 288) :
    refQ a1 (ix1 b) = BitVec.ofNat 32 ((a1 (ix1 b)).toNat / 12) := by
  rw [refQ_apply]
  exact Cert.Ints.fdiv12_eq _ h

/-- The start words of a row lookup by slot: a negative quotient counted from the end of the 24 rows, as a column. -/
private def startW (q : IVec S64 32) : IVec S64x1 32 :=
  broadcastInDim S64x1 ![0] bcast_S64_S64x1_0
    (select (cmpi .slt q (broadcastInDim S64 ![] bcast_S_S64 (constantI S_ 32 0#32)))
      (addi q (broadcastInDim S64 ![] bcast_S_S64 (constantI S_ 32 24#32))) q)

/-- A quotient that is not negative is its own start word. -/
private theorem startW_apply (q : IVec S64 32) (b : Fin 64) (h : (q (ix1 b)).toNat < 2 ^ 31) :
    startW q (ix2 b 0) = q (ix1 b) := by
  unfold startW
  rw [bcastCol_apply]
  exact Cert.Ints.wrap_eq (q (ix1 b)) 24#32 h

/-- The word n / 12 of an index word n below 288, read signed and clamped into the 24 rows, is the slot of n. -/
private theorem slot_clamp (v : BitVec 32) (hv : v.toNat < 288) :
    min (BitVec.ofNat 32 (v.toNat / 12)).toInt.toNat (24 - 1) = (Cert.Spec.slot v).val := by
  have hk : v.toNat / 12 < 24 := by omega
  have hn : (BitVec.ofNat 32 (v.toNat / 12)).toNat = v.toNat / 12 := by
    rw [BitVec.toNat_ofNat]
    exact Nat.mod_eq_of_lt (by omega)
  have hi := Cert.Ints.toInt_eq_toNat (BitVec.ofNat 32 (v.toNat / 12)) (by rw [hn]; omega)
  rw [hi, hn]
  show min ((v.toNat / 12 : ℕ) : ℤ).toNat (24 - 1) = (v.toNat / 12) % 24
  rw [Int.toNat_natCast]
  omega

/-! ## The row lookups by slot -/

/-- A lookup of whole rows of a 24-row table at the start words of the slots: row b of the result is row slot(n) of the
    table, n the index word of sample b. -/
private theorem slotGather_apply {α : Type} {D : Nat}
    (wf : GatherDims.WF ⟨2, ![24, D]⟩ ⟨2, ![64, 1]⟩ ⟨2, ![64, D]⟩ [1] [0] [] [0] [] 1 ![1, D])
    (tbl : (⟨2, ![24, D]⟩ : Shape).Idx → α) (q : IVec S64 32) (b : Fin 64) (d : Fin D) (v : BitVec 32)
    (hv : v.toNat < 288) (hq : q (ix1 b) = BitVec.ofNat 32 (v.toNat / 12)) :
    Host.gather (rowGather 24 64 D wf) tbl (startW q) (ix2 b d) = tbl (ix2 (Cert.Spec.slot v) d) := by
  have hk : v.toNat / 12 < 24 := by omega
  have hn : (BitVec.ofNat 32 (v.toNat / 12)).toNat = v.toNat / 12 := by
    rw [BitVec.toNat_ofNat]
    exact Nat.mod_eq_of_lt (by omega)
  have hs : startW q (ix2 b 0) = BitVec.ofNat 32 (v.toNat / 12) := by
    rw [startW_apply q b (by rw [hq, hn]; omega), hq]
  rw [rowGather_apply_of_eq (by decide) wf tbl (startW q) b d _ hs]
  exact congrArg (fun r => tbl (ix2 r d)) (Fin.ext (slot_clamp v hv))

/-- The weights' lookup. -/
private theorem gatherW_apply (tbl : FVec Ideal S24x32768 .f32) (q : IVec S64 32) (b : Fin 64) (e : Fin 32768) (v : BitVec 32)
    (hv : v.toNat < 288) (hq : q (ix1 b) = BitVec.ofNat 32 (v.toNat / 12)) :
    Host.gather gather_S24x32768_S64x1_S64x32768_1_0_n_n_0_1_132768 tbl (startW q) (ix2 b e)
      = tbl (ix2 (Cert.Spec.slot v) e) :=
  slotGather_apply gather_S24x32768_S64x1_S64x32768_1_0_n_n_0_1_132768_wf tbl q b e v hv hq

/-- The biases' lookup. -/
private theorem gatherB_apply (tbl : FVec Ideal S24x1024 .f32) (q : IVec S64 32) (b : Fin 64) (w : Fin 1024) (v : BitVec 32)
    (hv : v.toNat < 288) (hq : q (ix1 b) = BitVec.ofNat 32 (v.toNat / 12)) :
    Host.gather gather_S24x1024_S64x1_S64x1024_1_0_n_n_0_1_11024 tbl (startW q) (ix2 b w)
      = tbl (ix2 (Cert.Spec.slot v) w) :=
  slotGather_apply gather_S24x1024_S64x1_S64x1024_1_0_n_n_0_1_11024_wf tbl q b w v hv hq

/-! ## The edge scatters -/

/-- A node word below 1024, read signed, is node i exactly when it is node i of the specification. -/
private theorem node_eq_iff (v : BitVec 32) (hv : v.toNat < 1024) (i : Fin 1024) :
    v.toInt = (i.val : ℤ) ↔ Cert.Spec.node v = i := by
  rw [Cert.Ints.toInt_eq_toNat v (by omega)]
  unfold Cert.Spec.node
  rw [Fin.ext_iff]
  show ((v.toNat : ℤ) = (i.val : ℤ)) ↔ v.toNat % 1024 = i.val
  rw [Nat.mod_eq_of_lt hv]
  exact Int.natCast_inj

/-- The start words of the edges: a negative node word counted from the end of the 1024 nodes. -/
private def wrapE (c : IVec S32768 32) : IVec S32768 32 :=
  select (cmpi .slt c (broadcastInDim S32768 ![] bcast_S_S32768 (constantI S_ 32 0#32)))
    (addi c (broadcastInDim S32768 ![] bcast_S_S32768 (constantI S_ 32 1024#32))) c

/-- A node word below 1024 is its own start word. -/
private theorem wrapE_apply (c : IVec S32768 32) (e : Fin 32768) (h : (c (ix1 e)).toNat < 1024) : wrapE c (ix1 e) = c (ix1 e) :=
  Cert.Ints.wrap_eq (c (ix1 e)) 1024#32 (by omega)

/-- The accumulating scatter of per-sample edge weights into a zero [64, 1024, 1024] array at the two columns of start
    words is, sample by sample, the weighted adjacency of the edge list. -/
private theorem adjScatter_apply (idx : IVec S32768x2 32) (c0 c1 : IVec S32768 32)
    (h0 : ∀ e : Fin 32768, (c0 (ix1 e)).toNat < 1024) (h1 : ∀ e : Fin 32768, (c1 (ix1 e)).toNat < 1024)
    (e0 : ∀ e : Fin 32768, idx (ix2 e 0) = c0 (ix1 e)) (e1 : ∀ e : Fin 32768, idx (ix2 e 1) = c1 (ix1 e))
    (upd : FVec Ideal S64x32768 .f32) (b : Fin 64) (i j : Fin 1024) :
    Host.scatterAdd (F := Ideal) scatter_S64x1024x1024_S32768x2_S64x32768_0_12_12_1
        (broadcastInDim S64x1024x1024 ![] bcast_S_S64x1024x1024 (constant (F := Ideal) S_ .f32 0x00000000#32)) idx upd
        (ix3 b i j)
      = Cert.Spec.adj (fun e => Cert.Spec.node (c0 (ix1 e))) (fun e => Cert.Spec.node (c1 (ix1 e)))
          (fun e => upd (ix2 b e)) i j := by
  show Host.scatterAdd (F := Ideal)
    (Cert.ScatterLib.edgeScatter 64 1024 32768 scatter_S64x1024x1024_S32768x2_S64x32768_0_12_12_1_wf) _ idx upd (ix3 b i j) = _
  rw [Cert.ScatterLib.edgeScatterAdd_apply, bcastScalar_apply, constant_apply, Ideal.ofBits_zero_f32, zero_add]
  unfold Cert.Spec.adj
  refine Finset.sum_congr (Finset.filter_congr fun e _ => ?_) fun _ _ => rfl
  rw [e0 e, e1 e, node_eq_iff _ (h0 e), node_eq_iff _ (h1 e)]

/-! ## The other operations of the chain, each read at an index -/

/-- The host's tanh at an index. -/
private theorem hostTanh_apply {s : Shape} {φ : FTy} (x : FVec Ideal s φ) (i : s.Idx) : Host.tanh x i = Ideal.tanh (x i) := rfl

/-- The sample blocks: feature plane 0 of the input, the unit axis dropped. -/
private def xs (a0 : FVec Ideal S64x2x1024x64 .f32) : FVec Ideal S64x1024x64 .f32 :=
  shapeCast _ (extractStridedSlice S64x1x1024x64 ![0, 0, 0, 0] a0 slices_S64x2x1024x64_S64x1x1024x64_0_0_0_0)
    shapeCasts_S64x1x1024x64_S64x1024x64

private theorem xs_apply (a0 : FVec Ideal S64x2x1024x64 .f32) (b : Fin 64) (v : Fin 1024) (l : Fin 64) :
    xs a0 (ix3 b v l) = a0 (ix4 b 0 v l) := by
  unfold xs
  refine (shapeCast_apply _ shapeCasts_S64x1x1024x64_S64x1024x64 (ix3 b v l) (ix4 b (0 : Fin 1) v l) ?_).trans ?_
  · rw [Shape.rowMajor_val_four, Shape.rowMajor_val_three]
    show ((b.val * 1 + 0) * 1024 + v.val) * 64 + l.val = (b.val * 1024 + v.val) * 64 + l.val
    omega
  · refine extractStridedSlice_apply _ a0 _ (ix4 b (0 : Fin 1) v l) (ix4 b (0 : Fin 2) v l) fun a => ?_
    match a with
    | ⟨0, _⟩ => show b.val = 0 + b.val; omega
    | ⟨1, _⟩ => show 0 = 0 + 0; rfl
    | ⟨2, _⟩ => show v.val = 0 + v.val; omega
    | ⟨3, _⟩ => show l.val = 0 + l.val; omega

/-- The two columns of start words side by side. -/
private def edgeIdx (c0 c1 : IVec S32768 32) : IVec S32768x2 32 :=
  concatenate S32768x2 1
    [⟨S32768x1, broadcastInDim S32768x1 ![0] bcast_S32768_S32768x1_0 (wrapE c0)⟩,
      ⟨S32768x1, broadcastInDim S32768x1 ![0] bcast_S32768_S32768x1_0 (wrapE c1)⟩]
    concatenates_S32768x1_S32768x1_S32768x2_d1

private theorem edgeIdx_col0 (c0 c1 : IVec S32768 32) (e : Fin 32768) : edgeIdx c0 c1 (ix2 e 0) = wrapE c0 (ix1 e) := by
  unfold edgeIdx
  refine (concatenate_pair_apply_left _ _ _ concatenates_S32768x1_S32768x1_S32768x2_d1 (ix2 e (0 : Fin 2)) rfl
    (ix2 e (0 : Fin 1)) fun a => ?_).trans (bcastCol_apply _ _ e 0)
  match a with
  | ⟨0, _⟩ => rfl
  | ⟨1, _⟩ => rfl

private theorem edgeIdx_col1 (c0 c1 : IVec S32768 32) (e : Fin 32768) : edgeIdx c0 c1 (ix2 e 1) = wrapE c1 (ix1 e) := by
  unfold edgeIdx
  refine (concatenate_pair_apply_right _ _ _ concatenates_S32768x1_S32768x1_S32768x2_d1 (ix2 e (1 : Fin 2)) rfl rfl
    (ix2 e (0 : Fin 1)) (fun a ha => ?_) ?_).trans (bcastCol_apply _ _ e 0)
  · match a with
    | ⟨0, _⟩ => rfl
    | ⟨1, _⟩ => exact absurd rfl ha
  · rfl

/-- The identity mask: 1 on the diagonal, 0 off it. -/
private def eyeArr : FVec Ideal S1024x1024 .f32 :=
  uitofp .f32 (cmpi .eq (addi (iotaInDim S1024x1024 32 0)
    (broadcastInDim S1024x1024 ![] bcast_S_S1024x1024 (constantI S_ 32 0#32))) (iotaInDim S1024x1024 32 1))

private theorem eyeArr_apply (w v : Fin 1024) : eyeArr (ix2 w v) = if w = v then (1 : EReal) else 0 := by
  show (((IntOp.cmpi .eq (IntOp.addi (BitVec.ofNat 32 w.val) 0#32) (BitVec.ofNat 32 v.val)).toNat : ℝ) : EReal) = _
  have hadd : IntOp.addi (BitVec.ofNat 32 w.val) 0#32 = BitVec.ofNat 32 w.val := BitVec.add_zero _
  rw [hadd]
  by_cases hwv : w = v
  · subst hwv
    rw [if_pos rfl, IntOp.cmpi_eq.mpr rfl]
    simp
  · have hne : ¬IntOp.cmpi .eq (BitVec.ofNat 32 w.val) (BitVec.ofNat 32 v.val) = 1#1 := fun hc => hwv (Fin.ext (by
      have e := congrArg BitVec.toNat (IntOp.cmpi_eq.mp hc)
      rw [BitVec.toNat_ofNat, BitVec.toNat_ofNat] at e
      have := w.isLt; have := v.isLt
      omega))
    rw [if_neg hwv, eq_zero_of_ne_one hne]
    simp

/-- The column sums of each sample's matrix. -/
private theorem colsum_apply (A : FVec Ideal S64x1024x1024 .f32) (b : Fin 64) (j : Fin 1024) :
    Host.reduceAdd A (constant (F := Ideal) S_ .f32 0x00000000#32) reducesTo_S64x1024x1024_S64x1024_d1 h_S_ (ix2 b j)
      = ∑ i : Fin 1024, A (ix3 b i j) := by
  have h3 : S64x1024x1024.Reduces [1] S64x1024 :=
    ⟨reducesTo_S64x1024x1024_S64x1024_d1.1, Nat.two_pos, reducesTo_S64x1024x1024_S64x1024_d1.2⟩
  show Ideal.hostReduceAdd reducesTo_S64x1024x1024_S64x1024_d1 A (Ideal.ofBits .f32 0x00000000#32) (ix2 b j) = _
  rw [Ideal.hostReduceAdd_single _ h3, Ideal.ofBits_zero_f32, zero_add]
  show ∑ k : Fin 1024, A (h3.lift (ix2 b j) k) = _
  refine Finset.sum_congr rfl fun k _ => ?_
  refine congrArg A (funext fun a => Fin.ext ?_)
  match a with
  | ⟨0, _⟩ => rfl
  | ⟨1, _⟩ => rfl
  | ⟨2, _⟩ => rfl

/-- Per-sample column entries spread along the rows of [64, 1024, 1024]. -/
private theorem bcDeg_apply (d : FVec Ideal S64x1024 .f32) (b : Fin 64) (w v : Fin 1024) :
    broadcastInDim S64x1024x1024 ![0, 1, 2] bcast_S64x1024x1_S64x1024x1024_0_1_2
      (broadcastInDim S64x1024x1 ![0, 1] bcast_S64x1024_S64x1024x1_0_1 d) (ix3 b w v) = d (ix2 b w) := by
  refine (broadcastInDim_apply ![0, 1, 2] _ _ (ix3 b w v) (ix3 b w (0 : Fin 1)) fun a => ?_).trans
    (broadcastInDim_apply ![0, 1] _ d (ix3 b w (0 : Fin 1)) (ix2 b w) fun a => ?_)
  · match a with
    | ⟨0, _⟩ => show b.val = if 64 = 1 then 0 else b.val; simp
    | ⟨1, _⟩ => show w.val = if 1024 = 1 then 0 else w.val; simp
    | ⟨2, _⟩ => show 0 = if 1 = 1 then 0 else v.val; simp
  · match a with
    | ⟨0, _⟩ => show b.val = if 64 = 1 then 0 else b.val; simp
    | ⟨1, _⟩ => show w.val = if 1024 = 1 then 0 else w.val; simp

/-- A [1024, 1024] matrix spread over the samples. -/
private theorem bcEye_apply (m : FVec Ideal S1024x1024 .f32) (b : Fin 64) (w v : Fin 1024) :
    broadcastInDim S64x1024x1024 ![0, 1, 2] bcast_S1x1024x1024_S64x1024x1024_0_1_2
      (broadcastInDim S1x1024x1024 ![1, 2] bcast_S1024x1024_S1x1024x1024_1_2 m) (ix3 b w v) = m (ix2 w v) := by
  refine (broadcastInDim_apply ![0, 1, 2] _ _ (ix3 b w v) (ix3 (0 : Fin 1) w v) fun a => ?_).trans
    (broadcastInDim_apply ![1, 2] _ m (ix3 (0 : Fin 1) w v) (ix2 w v) fun a => ?_)
  · match a with
    | ⟨0, _⟩ => show 0 = if 1 = 1 then 0 else b.val; simp
    | ⟨1, _⟩ => show w.val = if 1024 = 1 then 0 else w.val; simp
    | ⟨2, _⟩ => show v.val = if 1024 = 1 then 0 else v.val; simp
  · match a with
    | ⟨0, _⟩ => show w.val = if 1024 = 1 then 0 else w.val; simp
    | ⟨1, _⟩ => show v.val = if 1024 = 1 then 0 else v.val; simp

/-- Per-sample node entries spread over the 64 features. -/
private theorem bcBias_apply (d : FVec Ideal S64x1024 .f32) (b : Fin 64) (w : Fin 1024) (l : Fin 64) :
    broadcastInDim S64x1024x64 ![0, 1, 2] bcast_S64x1024x1_S64x1024x64_0_1_2
      (broadcastInDim S64x1024x1 ![0, 1] bcast_S64x1024_S64x1024x1_0_1 d) (ix3 b w l) = d (ix2 b w) := by
  refine (broadcastInDim_apply ![0, 1, 2] _ _ (ix3 b w l) (ix3 b w (0 : Fin 1)) fun a => ?_).trans
    (broadcastInDim_apply ![0, 1] _ d (ix3 b w (0 : Fin 1)) (ix2 b w) fun a => ?_)
  · match a with
    | ⟨0, _⟩ => show b.val = if 64 = 1 then 0 else b.val; simp
    | ⟨1, _⟩ => show w.val = if 1024 = 1 then 0 else w.val; simp
    | ⟨2, _⟩ => show 0 = if 1 = 1 then 0 else l.val; simp
  · match a with
    | ⟨0, _⟩ => show b.val = if 64 = 1 then 0 else b.val; simp
    | ⟨1, _⟩ => show w.val = if 1024 = 1 then 0 else w.val; simp

/-! ## The chain in stages -/

/-- The per-sample weighted adjacency: the slot's weights scattered at the edges' start words. -/
private def adjArr (c0 c1 : IVec S32768 32) (tbl : FVec Ideal S24x32768 .f32) (q : IVec S64 32) : FVec Ideal S64x1024x1024 .f32 :=
  Host.scatterAdd scatter_S64x1024x1024_S32768x2_S64x32768_0_12_12_1
    (broadcastInDim S64x1024x1024 ![] bcast_S_S64x1024x1024 (constant (F := Ideal) S_ .f32 0x00000000#32))
    (edgeIdx c0 c1) (Host.gather gather_S24x32768_S64x1_S64x32768_1_0_n_n_0_1_132768 tbl (startW q))

/-- The column sums spread along rows and masked by the identity, less the matrix. -/
private def lapArr (A : FVec Ideal S64x1024x1024 .f32) : FVec Ideal S64x1024x1024 .f32 :=
  subf
    (mulf
      (broadcastInDim S64x1024x1024 ![0, 1, 2] bcast_S64x1024x1_S64x1024x1024_0_1_2
        (broadcastInDim S64x1024x1 ![0, 1] bcast_S64x1024_S64x1024x1_0_1
          (Host.reduceAdd A (constant (F := Ideal) S_ .f32 0x00000000#32) reducesTo_S64x1024x1024_S64x1024_d1 h_S_)))
      (broadcastInDim S64x1024x1024 ![0, 1, 2] bcast_S1x1024x1024_S64x1024x1024_0_1_2
        (broadcastInDim S1x1024x1024 ![1, 2] bcast_S1024x1024_S1x1024x1024_1_2 eyeArr)))
    A

/-- The slot's bias row spread over the features. -/
private def biasArr (tbl : FVec Ideal S24x1024 .f32) (q : IVec S64 32) : FVec Ideal S64x1024x64 .f32 :=
  broadcastInDim S64x1024x64 ![0, 1, 2] bcast_S64x1024x1_S64x1024x64_0_1_2
    (broadcastInDim S64x1024x1 ![0, 1] bcast_S64x1024_S64x1024x1_0_1
      (Host.gather gather_S24x1024_S64x1_S64x1024_1_0_n_n_0_1_11024 tbl (startW q)))

/-- The reference's chain, stage by stage. -/
private theorem refOut_chain (a0 : FVec Ideal S64x2x1024x64 .f32) (a1 : IVec S64 32) (a2 a3 : IVec S32768 32)
    (a4 a5 : FVec Ideal S24x32768 .f32) (a6 a7 : FVec Ideal S24x1024 .f32) :
    refOut (F := Ideal) a0 a1 a2 a3 a4 a5 a6 a7
      = addf
          (addf
            (Host.tanh (addf (Host.dotGeneral bdot none (lapArr (adjArr a2 a3 a4 (refQ a1))) (xs a0)) (biasArr a6 (refQ a1))))
            (addf (Host.dotGeneral bdot none (lapArr (adjArr a3 a2 a5 (refQ a1))) (xs a0)) (biasArr a7 (refQ a1))))
          (xs a0) := rfl

private theorem adjArr_apply (c0 c1 : IVec S32768 32) (h0 : ∀ e : Fin 32768, (c0 (ix1 e)).toNat < 1024)
    (h1 : ∀ e : Fin 32768, (c1 (ix1 e)).toNat < 1024) (tbl : FVec Ideal S24x32768 .f32) (q : IVec S64 32) (v0 : BitVec 32)
    (b : Fin 64) (hv : v0.toNat < 288) (hq : q (ix1 b) = BitVec.ofNat 32 (v0.toNat / 12)) (i j : Fin 1024) :
    adjArr c0 c1 tbl q (ix3 b i j)
      = Cert.Spec.adj (fun e => Cert.Spec.node (c0 (ix1 e))) (fun e => Cert.Spec.node (c1 (ix1 e)))
          (fun e => tbl (ix2 (Cert.Spec.slot v0) e)) i j := by
  unfold adjArr
  rw [adjScatter_apply (edgeIdx c0 c1) c0 c1 h0 h1
    (fun e => by rw [edgeIdx_col0, wrapE_apply _ _ (h0 e)]) (fun e => by rw [edgeIdx_col1, wrapE_apply _ _ (h1 e)])]
  simp only [gatherW_apply tbl q b _ v0 hv hq]

private theorem lapArr_apply (A : FVec Ideal S64x1024x1024 .f32) (b : Fin 64) (src dst : Fin 32768 → Fin 1024)
    (wt : Fin 32768 → EReal) (hA : ∀ i j : Fin 1024, A (ix3 b i j) = Cert.Spec.adj src dst wt i j) (w v : Fin 1024) :
    lapArr A (ix3 b w v) = Cert.Spec.lap src dst wt w v := by
  unfold lapArr
  rw [subf_apply, mulf_apply, bcDeg_apply, bcEye_apply, colsum_apply, eyeArr_apply]
  simp only [hA]
  rw [Cert.Spec.sum_adj_eq_deg, Cert.Spec.mul_eye_sub]
  rfl

private theorem biasArr_apply (tbl : FVec Ideal S24x1024 .f32) (q : IVec S64 32) (b : Fin 64) (w : Fin 1024) (l : Fin 64)
    (v0 : BitVec 32) (hv : v0.toNat < 288) (hq : q (ix1 b) = BitVec.ofNat 32 (v0.toNat / 12)) :
    biasArr tbl q (ix3 b w l) = tbl (ix2 (Cert.Spec.slot v0) w) := by
  unfold biasArr
  rw [bcBias_apply, gatherB_apply tbl q b w v0 hv hq]

theorem refOut_eq (a0 : FVec Ideal S64x2x1024x64 .f32) (a1 : IVec S64 32) (a2 a3 : IVec S32768 32)
    (a4 a5 : FVec Ideal S24x32768 .f32) (a6 a7 : FVec Ideal S24x1024 .f32) (h : Cert.Spec.InRange a1 a2 a3) :
    refOut (F := Ideal) a0 a1 a2 a3 a4 a5 a6 a7 = Cert.Spec.out a0 a1 a2 a3 a4 a5 a6 a7 := by
  funext j
  obtain ⟨b, w, l, rfl⟩ : ∃ b w l, j = ix3 b w l := ⟨j 0, j 1, j 2, eq_ix3 j⟩
  rw [Cert.Spec.out_ix3, refOut_chain]
  unfold Cert.Spec.outAt
  have hq := refQ_eq a1 b (h.ind b)
  have hR := adjArr_apply a2 a3 h.ei h.ej a4 (refQ a1) (a1 (ix1 b)) b (h.ind b) hq
  have hD := adjArr_apply a3 a2 h.ej h.ei a5 (refQ a1) (a1 (ix1 b)) b (h.ind b) hq
  rw [addf_apply, addf_apply, hostTanh_apply, addf_apply, addf_apply, bdot_apply, bdot_apply,
    biasArr_apply a6 (refQ a1) b w l _ (h.ind b) hq, biasArr_apply a7 (refQ a1) b w l _ (h.ind b) hq]
  simp only [xs_apply, lapArr_apply _ b _ _ _ hR, lapArr_apply _ b _ _ _ hD]
  rfl

end Cert.ReferenceIdeal.Hand

end
-- ==== Proof.lean ====
/-
  The certificate's claims assembled. Both programs compute, for sample b with time slot s = ind[b] / 12,
      tanh(L_react[s] · x_b + bias_reaction[s] 1ᵀ) + (L_diff[s] · x_b + bias_diffusion[s] 1ᵀ) + x_b,
  L = diag(column sums of A) − A the Laplacian of the weighted edge list (Proof/Spec.lean). The kernel builds all 24 slots'
  Laplacians once, as scatters over the edge list with the column sums scattered onto the diagonal, visits the samples in
  slot order and multiplies each sample's block by its slot's stacked table; the reference gathers each sample's weights,
  scatters a Laplacian per sample and contracts. They agree where every index is inside the axis it indexes: for a
  negative sample word the reference's negative index wraps while the kernel's clip does not, and an edge with one end out
  of range is dropped by the reference's two-dimensional scatter yet still counted by the kernel's column-sum scatter.
  The frames need no precondition: the two prefetched tables are a permutation of the samples and clipped slots.
-/
import proofs.«429784_j90872918049138_3_alg».proof.Defs
import proofs.«429784_j90872918049138_3_alg».proof.Proof.Gen.Kernel
import proofs.«429784_j90872918049138_3_alg».proof.Proof.Gen.Kernel.Frame
import proofs.«429784_j90872918049138_3_alg».proof.Proof.Gen.KernelIdeal
import proofs.«429784_j90872918049138_3_alg».proof.Proof.Gen.KernelIdeal.Frame
import proofs.«429784_j90872918049138_3_alg».proof.Proof.Gen.ReferenceIdeal
import proofs.«429784_j90872918049138_3_alg».proof.Proof.Gen.Pre_finite_inputs
import proofs.«429784_j90872918049138_3_alg».proof.Proof.OkOfPre
import proofs.«429784_j90872918049138_3_alg».proof.Proof.OkOfPreW
import proofs.«429784_j90872918049138_3_alg».proof.Proof.PreDecode
import proofs.«429784_j90872918049138_3_alg».proof.Proof.KerValue
import proofs.«429784_j90872918049138_3_alg».proof.Proof.RefRun
import proofs.«429784_j90872918049138_3_alg».proof.Proof.RefValue
import Idealize.ShloMosaic.Adequacy
import Idealize.ShloMosaic.Init

noncomputable section

namespace Cert.Proof

open Idealize.ShloMosaic Idealize.SL.Sem

/-- At Ideal, from memories that agree on the arguments, the kernel's result array and the reference's end at one
    function of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr := fun c => Cert.PreDecode.inRange_of_pre m hpre c
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Hand.run m ρ hr, ?_⟩
  refine (θ_run Cert.ReferenceIdeal.defs _ _).mono (fun _ h c => ⟨?_, (h c).2⟩)
    (Cert.ReferenceIdeal.Hand.run (F := Ideal) m' ρ')
  obtain ⟨e0, e1, e2, e3, e4, e5, e6, e7⟩ := hagree c
  rw [(h c).1, e0, e1, e2, e3, e4, e5, e6, e7]
  exact Cert.ReferenceIdeal.Hand.refOut_eq _ _ _ _ _ _ _ _ (hr c)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ (Cert.Kernel.Hand.ok m),
  fun m ρ _ => Cert.KernelIdeal.Gen.frame m ρ (Cert.KernelIdeal.Hand.ok m),
  fun m ρ _ => (θ_run Cert.ReferenceIdeal.defs _ _).mono (fun _ h c => (h c).2) (Cert.ReferenceIdeal.Hand.run (F := Ideal) m ρ),
  trivial,
  algebraic⟩

end Cert.Proof

end
